-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000 : Shape := ⟨1, ![100000]⟩
abbrev S4096x4096 : Shape := ⟨2, ![4096, 4096]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000 : S_.BroadcastsInDim S100000 (![] : Fin 0 → Fin S100000.rank)
  reducesTo_S100000_S_d0 : S100000.ReducesTo [0] S_
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg1 : IVec S100000 32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg1 main_v24
  let main_c_9 : IVec S_ 32 := constantI S_ 32 4096#32
  let main_v26 : IVec S100000 32 := broadcastInDim S100000 ![] bcast_S_S100000 main_c_9
  let main_v27 : IVec S100000 1 := cmpi .slt main_arg1 main_v26
  let main_v28 : IVec S100000 1 := andi main_v25 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v23 main_v29
  main_v30

def fn {F : FTy → Type} [FloatOps F] (main_arg0 : FVec F S100000x512 .f32) (main_arg1 : IVec S100000 32) (main_arg2 : FVec F S100000 .f32) (main_arg3 : FVec F S4096x4096 .f32) (main_arg4 : FVec F S512x512 .f32) (main_arg5 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_v13 main_v16
-- ==== Kernel.lean ====
abbrev S100000x512 : Shape := ⟨2, ![100000, 512]⟩
abbrev S100000 : Shape := ⟨1, ![100000]⟩
abbrev S4096x4096 : Shape := ⟨2, ![4096, 4096]⟩
abbrev S512x512 : Shape := ⟨2, ![512, 512]⟩
abbrev S512 : Shape := ⟨1, ![512]⟩
abbrev S_ : Shape := ⟨0, ![]⟩
abbrev S1x512 : Shape := ⟨2, ![1, 512]⟩
abbrev S100000x1 : Shape := ⟨2, ![100000, 1]⟩
abbrev S1000x512 : Shape := ⟨2, ![1000, 512]⟩
abbrev S1000x1 : Shape := ⟨2, ![1000, 1]⟩
abbrev S4096x512 : Shape := ⟨2, ![4096, 512]⟩
abbrev S4096 : Shape := ⟨1, ![4096]⟩
abbrev S4096x1 : Shape := ⟨2, ![4096, 1]⟩
abbrev S200x512 : Shape := ⟨2, ![200, 512]⟩
abbrev S200x1 : Shape := ⟨2, ![200, 1]⟩
abbrev S200x4096 : Shape := ⟨2, ![200, 4096]⟩
abbrev S200 : Shape := ⟨1, ![200]⟩

abbrev nBuf : Space → Nat
  | .hbm => 53
  | .vmem => 32
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S100000, .f32⟩
  | .hbm, ⟨3, _⟩ => ⟨S4096x4096, .f32⟩
  | .hbm, ⟨4, _⟩ => ⟨S512x512, .f32⟩
  | .hbm, ⟨5, _⟩ => ⟨S512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S1x512, .f32⟩
  | .hbm, ⟨15, _⟩ => ⟨S100000x1, .f32⟩
  | .hbm, ⟨16, _⟩ => ⟨S100000x512, .f32⟩
  | .hbm, ⟨17, _⟩ => ⟨S100000x512, .bf16⟩
  | .hbm, ⟨18, _⟩ => ⟨S_, .f32⟩
  | .hbm, ⟨19, _⟩ => ⟨S4096x512, .f32⟩
  | .hbm, ⟨20, _⟩ => ⟨S100000x1, .i32⟩
  | .hbm, ⟨21, _⟩ => ⟨S4096x512, .f32⟩
  | .hbm, ⟨22, _⟩ => ⟨S100000x1, .f32⟩
  | .hbm, ⟨23, _⟩ => ⟨S100000x512, .f32⟩
  | .hbm, ⟨24, _⟩ => ⟨S100000x512, .f32⟩
  | .hbm, ⟨25, _⟩ => ⟨S100000x512, .f32⟩
  | .hbm, ⟨26, _⟩ => ⟨S_, .f32⟩
  | .hbm, ⟨27, _⟩ => ⟨S4096x512, .f32⟩
  | .hbm, ⟨28, _⟩ => ⟨S100000x1, .i32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x512, .f32⟩
  | .hbm, ⟨39, _⟩ => ⟨S4096x512, .f32⟩
  | .hbm, ⟨40, _⟩ => ⟨S4096x512, .bf16⟩
  | .hbm, ⟨41, _⟩ => ⟨S4096x512, .bf16⟩
  | .hbm, ⟨42, _⟩ => ⟨S4096x4096, .bf16⟩
  | .hbm, ⟨43, _⟩ => ⟨S4096x512, .f32⟩
  | .hbm, ⟨44, _⟩ => ⟨S4096x512, .f32⟩
  | .hbm, ⟨45, _⟩ => ⟨S4096x512, .bf16⟩
  | .hbm, ⟨46, _⟩ => ⟨S4096x512, .bf16⟩
  | .hbm, ⟨47, _⟩ => ⟨S100000x1, .i32⟩
  | .hbm, ⟨48, _⟩ => ⟨S100000x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x1, .f32⟩
  | .local _ .vmem, ⟨5, _⟩ => ⟨S1000x1, .f32⟩
  | .local _ .vmem, ⟨6, _⟩ => ⟨S1000x512, .f32⟩
  | .local _ .vmem, ⟨7, _⟩ => ⟨S1000x512, .f32⟩
  | .local _ .vmem, ⟨8, _⟩ => ⟨S1000x512, .bf16⟩
  | .local _ .vmem, ⟨9, _⟩ => ⟨S1000x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S200x512, .bf16⟩
  | .local _ .vmem, ⟨25, _⟩ => ⟨S200x512, .bf16⟩
  | .local _ .vmem, ⟨26, _⟩ => ⟨S200x1, .i32⟩
  | .local _ .vmem, ⟨27, _⟩ => ⟨S200x1, .i32⟩
  | .local _ .vmem, ⟨28, _⟩ => ⟨S4096x512, .bf16⟩
  | .local _ .vmem, ⟨29, _⟩ => ⟨S4096x512, .bf16⟩
  | .local _ .vmem, ⟨30, _⟩ => ⟨S200x1, .f32⟩
  | .local _ .vmem, ⟨31, _⟩ => ⟨S200x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_20 : BitVec 32 := 0#32
  let v35 : BitVec 1 := Scalar.cmpi .ne v34 c0_i32_20
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S200x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S100000 : S_.BroadcastsInDim S100000 (![] : Fin 0 → Fin S100000.rank)
  shapeCasts_S512_S1x512 : S512.ShapeCasts S1x512
  shapeCasts_S100000_S100000x1 : S100000.ShapeCasts S100000x1
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  packedbf16_S1000x512_S1000x512_0_0 : (Rect.unit (s := S1000x512) ![0, 0] S1000x512.size inb_S1000x512_S1000x512_0_0).PackedRows (EltTy.packing .bf16)
  bcast_S_S4096x512 : S_.BroadcastsInDim S4096x512 (![] : Fin 0 → Fin S4096x512.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  shapeCasts_S512x512_S512x512 : S512x512.ShapeCasts S512x512
  inb_S200x512_S200x512_0_0 : ∀ a, (![0, 0] : Fin 2 → Nat) a + S200x512.size a ≤ S200x512.size a
  h_S200x512 : 0 < S200x512.numel
  shapeCasts_S200x512_S200x512 : S200x512.ShapeCasts S200x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S200x1_S200x1_0_0 : ∀ a, (![0, 0] : Fin 2 → Nat) a + S200x1.size a ≤ S200x1.size a
  h_S200x1 : 0 < S200x1.numel
  shapeCasts_S200x1_S200x1 : S200x1.ShapeCasts S200x1
  iota_S200x4096_d1_w32 : S200x4096.Iotas .tc 32 [1]
  broadcasts_S200x1_S200x4096 : S200x1.Broadcasts S200x4096
  reduces_S200x4096_S200 : S200x4096.Reduces [1] S200
  shapeCasts_S200_S200x1 : S200.ShapeCasts S200x1
  reducesTo_S100000x1_S_d0_1 : S100000x1.ReducesTo [0, 1] S_
  dot_S1000x512_S512x512_S1000x512_1_0_0_1_n_n_wf : DotDims.WF S1000x512 S512x512 S1000x512 [1] [0] [0] [1] [] []
  scatter_S4096x512_S100000x1_S100000x512_1_0_0_1_wf : ScatterDims.WF S4096x512 S100000x1 S100000x512 [1] [0] [0] 1
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  dot_S200x512_S4096x512_S200x4096_1_1_0_0_n_n_wf : DotDims.WF S200x512 S4096x512 S200x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S100000x1.size a
  hwx0_3 : ∀ i : grid0.Coords, EltTy.bits .f32 = 32 ∨ (Rect.block (s := S100000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S100000x512.size a
  hwx0_4 : ∀ i : grid0.Coords, EltTy.bits .f32 = 32 ∨ (Rect.block (s := S100000x512) S1000x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S100000x512.size a
  hwx0_5 : ∀ i : grid0.Coords, EltTy.bits .bf16 = 32 ∨ (Rect.block (s := S100000x512) S1000x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x512.size a
  hwx1_0 : ∀ i : grid1.Coords, EltTy.bits .bf16 = 32 ∨ (Rect.block (s := S4096x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x512.size a
  hwx1_1 : ∀ i : grid1.Coords, EltTy.bits .bf16 = 32 ∨ (Rect.block (s := S4096x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .bf16 = 32 ∨ (Rect.block (s := S4096x512) S512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .bf16 = 32 ∨ (Rect.block (s := S4096x4096) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x512.size a
  hwx1_4 : ∀ i : grid1.Coords, EltTy.bits .f32 = 32 ∨ (Rect.block (s := S4096x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x512.size a ≤ S100000x512.size a
  hwx2_0 : ∀ i : grid2.Coords, EltTy.bits .bf16 = 32 ∨ (Rect.block (s := S100000x512) S200x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x1.size a ≤ S100000x1.size a
  hwx2_1 : ∀ i : grid2.Coords, EltTy.bits .i32 = 32 ∨ (Rect.block (s := S100000x1) S200x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x512.size a ≤ S4096x512.size a
  hwx2_2 : ∀ i : grid2.Coords, EltTy.bits .bf16 = 32 ∨ (Rect.block (s := S4096x512) S4096x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x512.size a ≤ S4096x512.size a
  hwx2_3 : ∀ i : grid2.Coords, EltTy.bits .bf16 = 32 ∨ (Rect.block (s := S4096x512) S4096x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S200x1.size a ≤ S100000x1.size a
  hwx2_4 : ∀ i : grid2.Coords, EltTy.bits .f32 = 32 ∨ (Rect.block (s := S100000x1) S200x1.size (cc2_transform_4 i) (hinb2_4 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S4096x512_S100000x1_S100000x512_1_0_0_1 : ScatterDims S4096x512 S100000x1 S100000x512 where
  updateWindowDims := [1]
  insertedWindowDims := [0]
  scatterDimsToOperandDims := [0]
  indexVectorDim := 1
  wf := scatter_S4096x512_S100000x1_S100000x512_1_0_0_1_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S200x512_S4096x512_S200x4096_1_1_0_0_n_n : DotDims S200x512 S4096x512 S200x4096 where
  lhsContracting := [1]
  rhsContracting := [1]
  lhsNonContracting := [0]
  rhsNonContracting := [0]
  lhsBatch := []
  rhsBatch := []
  wf := dot_S200x512_S4096x512_S200x4096_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25_1) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v3_1) S200x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S200x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S4096x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S4096x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S200x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x512 : Shape := ⟨2, ![100000, 512]⟩
abbrev S100000 : Shape := ⟨1, ![100000]⟩
abbrev S4096x4096 : Shape := ⟨2, ![4096, 4096]⟩
abbrev S512x512 : Shape := ⟨2, ![512, 512]⟩
abbrev S512 : Shape := ⟨1, ![512]⟩
abbrev S1x512 : Shape := ⟨2, ![1, 512]⟩
abbrev S_ : Shape := ⟨0, ![]⟩
abbrev S100000x1 : Shape := ⟨2, ![100000, 1]⟩
abbrev S4096x512 : Shape := ⟨2, ![4096, 512]⟩
abbrev S4096 : Shape := ⟨1, ![4096]⟩
abbrev S4096x1 : Shape := ⟨2, ![4096, 1]⟩
abbrev S512x4096 : Shape := ⟨2, ![512, 4096]⟩

abbrev nBuf : Space → Nat
  | .hbm => 82
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S100000, .f32⟩
  | .hbm, ⟨3, _⟩ => ⟨S4096x4096, .f32⟩
  | .hbm, ⟨4, _⟩ => ⟨S512x512, .f32⟩
  | .hbm, ⟨5, _⟩ => ⟨S512, .f32⟩
  | .hbm, ⟨6, _⟩ => ⟨S100000x512, .f32⟩
  | .hbm, ⟨7, _⟩ => ⟨S1x512, .f32⟩
  | .hbm, ⟨8, _⟩ => ⟨S100000x512, .f32⟩
  | .hbm, ⟨9, _⟩ => ⟨S100000x512, .f32⟩
  | .hbm, ⟨10, _⟩ => ⟨S100000x512, .f32⟩
  | .hbm, ⟨11, _⟩ => ⟨S100000x512, .f32⟩
  | .hbm, ⟨12, _⟩ => ⟨S_, .f32⟩
  | .hbm, ⟨13, _⟩ => ⟨S100000x512, .f32⟩
  | .hbm, ⟨14, _⟩ => ⟨S100000x512, .f32⟩
  | .hbm, ⟨15, _⟩ => ⟨S_, .f32⟩
  | .hbm, ⟨16, _⟩ => ⟨S100000x512, .f32⟩
  | .hbm, ⟨17, _⟩ => ⟨S100000x512, .f32⟩
  | .hbm, ⟨18, _⟩ => ⟨S100000x1, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S4096x512, .f32⟩
  | .hbm, ⟨23, _⟩ => ⟨S100000x1, .i32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S512x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S100000x512, .f32⟩
  | .hbm, ⟨42, _⟩ => ⟨S100000x512, .f32⟩
  | .hbm, ⟨43, _⟩ => ⟨S_, .f32⟩
  | .hbm, ⟨44, _⟩ => ⟨S4096x512, .f32⟩
  | .hbm, ⟨45, _⟩ => ⟨S100000x1, .i32⟩
  | .hbm, ⟨46, _⟩ => ⟨S4096x512, .f32⟩
  | .hbm, ⟨47, _⟩ => ⟨S4096x4096, .f32⟩
  | .hbm, ⟨48, _⟩ => ⟨S4096x512, .f32⟩
  | .hbm, ⟨49, _⟩ => ⟨S4096x512, .f32⟩
  | .hbm, ⟨50, _⟩ => ⟨S_, .i32⟩
  | .hbm, ⟨51, _⟩ => ⟨S100000, .i32⟩
  | .hbm, ⟨52, _⟩ => ⟨S100000, .i1⟩
  | .hbm, ⟨53, _⟩ => ⟨S_, .i32⟩
  | .hbm, ⟨54, _⟩ => ⟨S100000, .i32⟩
  | .hbm, ⟨55, _⟩ => ⟨S100000, .i32⟩
  | .hbm, ⟨56, _⟩ => ⟨S100000, .i32⟩
  | .hbm, ⟨57, _⟩ => ⟨S100000x1, .i32⟩
  | .hbm, ⟨58, _⟩ => ⟨S100000x512, .f32⟩
  | .hbm, ⟨59, _⟩ => ⟨S100000x512, .f32⟩
  | .hbm, ⟨60, _⟩ => ⟨S_, .f32⟩
  | .hbm, ⟨61, _⟩ => ⟨S100000, .f32⟩
  | .hbm, ⟨62, _⟩ => ⟨S_, .i32⟩
  | .hbm, ⟨63, _⟩ => ⟨S100000, .i32⟩
  | .hbm, ⟨64, _⟩ => ⟨S100000, .i1⟩
  | .hbm, ⟨65, _⟩ => ⟨S_, .i32⟩
  | .hbm, ⟨66, _⟩ => ⟨S100000, .i32⟩
  | .hbm, ⟨67, _⟩ => ⟨S100000, .i32⟩
  | .hbm, ⟨68, _⟩ => ⟨S100000, .i32⟩
  | .hbm, ⟨69, _⟩ => ⟨S100000x1, .i32⟩
  | .hbm, ⟨70, _⟩ => ⟨S100000x512, .f32⟩
  | .hbm, ⟨71, _⟩ => ⟨S100000x512, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S4096x512 : S_.BroadcastsInDim S4096x512 (![] : Fin 0 → Fin S4096x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S_S100000 : S_.BroadcastsInDim S100000 (![] : Fin 0 → Fin S100000.rank)
  reducesTo_S100000x512_S100000_d1 : S100000x512.ReducesTo [1] S100000
  reducesTo_S100000_S_d0 : S100000.ReducesTo [0] S_
  dot_S100000x512_S512x512_S100000x512_1_0_0_1_n_n_wf : DotDims.WF S100000x512 S512x512 S100000x512 [1] [0] [0] [1] [] []
  scatter_S4096x512_S100000x1_S100000x512_1_0_0_1_wf : ScatterDims.WF S4096x512 S100000x1 S100000x512 [1] [0] [0] 1
  dot_S4096x512_S512x4096_S4096x4096_1_0_0_1_n_n_wf : DotDims.WF S4096x512 S512x4096 S4096x4096 [1] [0] [0] [1] [] []
  dot_S4096x4096_S4096x512_S4096x512_1_0_0_1_n_n_wf : DotDims.WF S4096x4096 S4096x512 S4096x512 [1] [0] [0] [1] [] []
  gather_S4096x512_S100000x1_S100000x512_1_0_n_n_0_1_1512_wf : GatherDims.WF S4096x512 S100000x1 S100000x512 [1] [0] [] [0] [] 1 ![1, 512]

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S4096x512_S100000x1_S100000x512_1_0_0_1 : ScatterDims S4096x512 S100000x1 S100000x512 where
  updateWindowDims := [1]
  insertedWindowDims := [0]
  scatterDimsToOperandDims := [0]
  indexVectorDim := 1
  wf := scatter_S4096x512_S100000x1_S100000x512_1_0_0_1_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def gather_S4096x512_S100000x1_S100000x512_1_0_n_n_0_1_1512 : GatherDims S4096x512 S100000x1 S100000x512 where
  offsetDims := [1]
  collapsedSliceDims := [0]
  operandBatchingDims := []
  startIndicesBatchingDims := []
  startIndexMap := [0]
  indexVectorDim := 1
  sliceSizes := ![1, 512]
  wf := gather_S4096x512_S100000x1_S100000x512_1_0_n_n_0_1_1512_wf

class Facts : Prop extends Facts₀ where

variable [Facts]
-- ==== Proof.K.Enc.lean ====
import proofs.«406706_j73478300500058_3_alg».proof.Proof.Gen.Kernel.Launch
import proofs.«406706_j73478300500058_3_alg».proof.Proof.Gen.Kernel.Skeleton
import proofs.«406706_j73478300500058_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the first call at grid point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1000x512 := Rect.unit (s := S1000x512) ![0, 0] S1000x512.size inb_S1000x512_S1000x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0
abbrev rP0 : Rect S1000x1 := Rect.unit (s := S1000x1) ![0, 0] S1000x1.size inb_S1000x1_S1000x1_0_0

/-- What the body leaves in the weighted-feature block: one store of the whole block. -/
def out0_4 (x0 : Vec F S1000x512 .f32) (x1 : Vec F S512x512 .f32) (x2 : Vec F S1x512 .f32) (x3 : Vec F S1000x1 .f32) : Vec F S1000x512 .f32 :=
  View.canon [⟨rA0, k0_pay2 (View.ld x0 rA0) (View.ld x1 rW0) (View.ld x2 rB0) (View.ld x3 rP0)⟩]
/-- What the body leaves in the sigmoid block: one store of the whole block. -/
def out0_5 (x0 : Vec F S1000x512 .f32) (x1 : Vec F S512x512 .f32) (x2 : Vec F S1x512 .f32) : Vec F S1000x512 .bf16 :=
  View.canon [⟨rA0, k0_pay3 (View.ld x0 rA0) (View.ld x1 rW0) (View.ld x2 rB0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) := by dsimp only [dat0]

/-! ## The inputs' buffers hold their blocks -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Input window 0's current staging buffer holds its block at every point, fetched there or not: where it is
    not fetched its block index has not moved, the window is uncut and never idle, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is
    not fetched its block index has not moved, the window is uncut and never idle, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is
    not fetched its block index has not moved, the window is uncut and never idle, and the body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: where it is
    not fetched its block index has not moved, the window is uncut and never idle, and the body leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Each output's single store covers its whole block -/

theorem cover0_4 (p0 : Vec F S1000x512 .f32) (y : S1000x512.Idx) :
    ∃ pc ∈ ([⟨rA0, p0⟩] : List (View.Piece (Elt F) S1000x512 .f32)), y ∈ pc.1.set :=
  View.cover_of_tiled [⟨rA0, p0⟩] S1000x512.size (by rfl) y

theorem cover0_5 (p0 : Vec F S1000x512 .bf16) (y : S1000x512.Idx) :
    ∃ pc ∈ ([⟨rA0, p0⟩] : List (View.Piece (Elt F) S1000x512 .bf16)), y ∈ pc.1.set :=
  View.cover_of_tiled [⟨rA0, p0⟩] S1000x512.size (by rfl) y

/-! ## The body's triple on whole staging memrefs -/

set_option maxHeartbeats 4000000 in
/-- On whole staging memrefs, the four inputs' reading `x0 … x3` and the two outputs' holding anything, the body runs
    to the continuation with the inputs' unchanged, the weighted-feature block at `out0_4` of the inputs and the
    sigmoid block at `out0_5` of them: four loads, then per output one (unused) load and one store of the whole block. -/
theorem sound_kernel0 (c : Dev nD) (E : Set ℕ) (i : grid0.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1000x1 .f32) (harg4 : arg4.IsWhole)
    (arg5 : Memref sig .tc .vmem S1000x512 .f32) (harg5 : arg5.IsWhole) (arg6 : Memref sig .tc .vmem S1000x512 .bf16) (harg6 : arg6.IsWhole)
    (x0 : Vec F S1000x512 .f32) (x1 : Vec F S512x512 .f32) (x2 : Vec F S1x512 .f32) (x3 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2)) -∗ K ⟨⟩))
      ⊢ wp frame (wpE (defs₀ (F := F)) Variants.none c none) E (cc0__encoder_kernel i arg1 harg1 arg2 harg2 arg3 harg3 arg4 harg4 arg5 harg5 arg6 harg6) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.MsgRuns.lean ====
import proofs.«406706_j73478300500058_3_alg».proof.Proof.Gen.Kernel.Launch
import proofs.«406706_j73478300500058_3_alg».proof.Proof.Gen.Kernel.Skeleton
import proofs.«406706_j73478300500058_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second call's branch conditions, in closed form over the 8×8 grid (point `t = 8·i + j`) -/

/-- The first conditional of the body (the accumulators are zeroed): the scalar chain over the inner coordinate `j`. -/
abbrev cond1_0 (i : grid1.Coords) : Prop :=
  (Scalar.cmpi .ne (Scalar.extui (Scalar.cmpi .eq (BitVec.ofNat 32 (i 1).val) 0#32)) 0#32) = 1#1
/-- It holds exactly at the points with `j = 0`. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional of the body (the accumulators are copied out). -/
abbrev cond1_1 (i : grid1.Coords) : Prop := k1_cond2 i = 1#1
/-- It holds exactly at the points with `j = 7`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from `j = 7` both outputs are idle and not written back; at `j = 7` they are live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

/-- One staging buffer of each output window, through which its contents are stated (the choice does not matter). -/
abbrev VO1_4 : View sig .tc .vmem S512x512 .f32 := (Memref.whole cc1_stg4_0 : Memref sig .tc .vmem S512x512 .f32).view
abbrev VO1_5 : View sig .tc .vmem S512x512 .f32 := (Memref.whole cc1_stg5_0 : Memref sig .tc .vmem S512x512 .f32).view
/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
/-- The two accumulators the body carries from point to point: whole scoped buffers of the call's own. -/
abbrev scM1_0 : Memref sig .tc .vmem S512x512 .f32 := Memref.whole cc1_scratch0
abbrev scM1_1 : Memref sig .tc .vmem S512x512 .f32 := Memref.whole cc1_scratch1
/-- The same as views: what the accumulators hold is stated through them. -/
abbrev VS1_0 : View sig .tc .vmem S512x512 .f32 := scM1_0.view
abbrev VS1_1 : View sig .tc .vmem S512x512 .f32 := scM1_1.view

end Cert.Kernel.Hand

end
-- ==== Proof.K.MsgRunA.lean ====
import proofs.«406706_j73478300500058_3_alg».proof.Proof.K.MsgRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 0` (first conditional taken, second not). On whole memrefs — the four inputs at their
    contents, the two outputs at contents `xi4`, `xi5` handed back untouched (nothing is stored into them), both accumulators at
    anything — the body runs to the continuation holding the inputs and the outputs as they were and each accumulator with
    the listed pieces written (last first): the zero block, then the zero block plus this point's product. -/
noncomputable def kernelRun1_A (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) :
    Σ' (LS0 : List (View.Piece (Elt F) S512x512 .f32)), { LS1 : List (View.Piece (Elt F) S512x512 .f32) //
      ∀ (xi4 xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__msg_kernel i arg2 harg2 arg3 harg3 arg4 harg4 arg5 harg5 arg6 harg6 arg7 harg7 arg8 harg8 arg9 harg9) K } := by
  refine ⟨?_, ?_, fun xi4 xi5 E K => ?run⟩
  case run =>
    simp only [cc1__msg_kernel_eq_skeleton]; unfold cc1__msg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.MsgRunB.lean ====
import proofs.«406706_j73478300500058_3_alg».proof.Proof.K.MsgRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `0 < j < 7` (neither conditional taken). On whole memrefs — the four inputs at their contents,
    the two outputs at contents `xi4`, `xi5` handed back untouched, the accumulators at what the point before left
    (`xs0`, `xs1`) — the body runs to the continuation holding the inputs and the outputs as they were and each accumulator
    with the listed piece written: what it held plus this point's product. -/
noncomputable def kernelRun1_B (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) :
    Σ' (LS0 : List (View.Piece (Elt F) S512x512 .f32)), { LS1 : List (View.Piece (Elt F) S512x512 .f32) //
      ∀ (xi4 xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__msg_kernel i arg2 harg2 arg3 harg3 arg4 harg4 arg5 harg5 arg6 harg6 arg7 harg7 arg8 harg8 arg9 harg9) K } := by
  refine ⟨?_, ?_, fun xi4 xi5 E K => ?run⟩
  case run =>
    simp only [cc1__msg_kernel_eq_skeleton]; unfold cc1__msg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.MsgRunC.lean ====
import proofs.«406706_j73478300500058_3_alg».proof.Proof.K.MsgRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 7` (only the second conditional taken). On whole memrefs — the four inputs at their
    contents, the two outputs at anything, the accumulators at what the point before left (`xs0`, `xs1`) — the body runs to
    the continuation holding the inputs as they were, each accumulator with its piece written (what it held plus this point's
    product) and each output with its piece written: the finished accumulator. -/
noncomputable def kernelRun1_C (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) :
    Σ' (L4 : List (View.Piece (Elt F) S512x512 .f32)) (L5 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__msg_kernel i arg2 harg2 arg3 harg3 arg4 harg4 arg5 harg5 arg6 harg6 arg7 harg7 arg8 harg8 arg9 harg9) K } := by
  refine ⟨?_, ?_, ?_, ?_, fun E K => ?run⟩
  case run =>
    simp only [cc1__msg_kernel_eq_skeleton]; unfold cc1__msg_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.K.Msg.lean ====
import proofs.«406706_j73478300500058_3_alg».proof.Proof.K.MsgRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region invariant, with the two accumulators singled out -/

/-- The core's scoped buffers that are neither a staging buffer of this call nor one of its two accumulators (the other
    calls' staging buffers), each at some contents, and the generator register at some state: what the body never touches. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ ((∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f))
    ∗ (∃ r, prngReg c r))

/-- The class's invariant hands out the two accumulators, each at some contents, beside the rest. -/
theorem PhiA1_open (c : Dev nD) : (Pipeline.ΦA spec1 c : sProp 𝕄)
    ⊢ iprop((∃ d, owns (c : Thread nD τ) scM1_0 fullShare d) ∗ (∃ d, owns (c : Thread nD τ) scM1_1 fullShare d) ∗ rest1 (F := F) c) := by
  unfold Pipeline.ΦA rest1; rw [scopedRest1_eq]; simp only [scM1_0, scM1_1, owns_whole]
  iintro ⟨⟨H0, H1, H2, H3, H4, H5, H6, H7, H8, H9, HS0, HS1, HT⟩, Hg⟩
  isplitl [HS0]; · iexact HS0
  isplitl [HS1]; · iexact HS1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HT]; · iexact HT
  iexact Hg

/-- And takes them back, their contents forgotten. -/
theorem PhiA1_close (c : Dev nD) : iprop((∃ d, owns (c : Thread nD τ) scM1_0 fullShare d) ∗ (∃ d, owns (c : Thread nD τ) scM1_1 fullShare d) ∗ rest1 (F := F) c)
    ⊢ (Pipeline.ΦA spec1 c : sProp 𝕄) := by
  unfold Pipeline.ΦA rest1; rw [scopedRest1_eq]; simp only [scM1_0, scM1_1, owns_whole]
  iintro ⟨HS0, HS1, H0, H1, H2, H3, H4, H5, H6, H7, H8, H9, HT, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iexact HT

/-- The pieces the body writes into accumulator 0 at a point with `j = 0` cover it. -/
theorem scover1_A_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) (y : S512x512.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S512x512.size (by sl_kernel_rfl) y

/-- What the body leaves in accumulator 0 at a point with `j = 0`: its pieces read back. -/
def sout1_A_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) : Vec F S512x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)

/-- The pieces the body writes into accumulator 1 at a point with `j = 0` cover it. -/
theorem scover1_A_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) (y : S512x512.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x512.size (by sl_kernel_rfl) y

/-- What the body leaves in accumulator 1 at a point with `j = 0`: its pieces read back. -/
def sout1_A_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) : Vec F S512x512 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)

/-- The pieces the body writes into accumulator 0 at a point with `0 < j < 7` cover it. -/
theorem scover1_B_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) (y : S512x512.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S512x512.size (by sl_kernel_rfl) y

/-- What the body leaves in accumulator 0 at a point with `0 < j < 7`: its pieces read back. -/
def sout1_B_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) : Vec F S512x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)

/-- The pieces the body writes into accumulator 1 at a point with `0 < j < 7` cover it. -/
theorem scover1_B_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) (y : S512x512.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S512x512.size (by sl_kernel_rfl) y

/-- What the body leaves in accumulator 1 at a point with `0 < j < 7`: its pieces read back. -/
def sout1_B_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) : Vec F S512x512 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)

/-- The pieces the body writes into accumulator 0 at a point with `j = 7` cover it. -/
theorem scover1_C_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S512x512.size (by sl_kernel_rfl) y

/-- What the body leaves in accumulator 0 at a point with `j = 7`: its pieces read back. -/
def sout1_C_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)

/-- The pieces the body writes into accumulator 1 at a point with `j = 7` cover it. -/
theorem scover1_C_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S512x512.size (by sl_kernel_rfl) y

/-- What the body leaves in accumulator 1 at a point with `j = 7`: its pieces read back. -/
def sout1_C_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

/-- The piece the body writes into output 4 at a point with `j = 7` covers its block. -/
theorem cover1_C_4 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S512x512.size (by sl_kernel_rfl) y

/-- What the body leaves in output 4's staging buffer at a point with `j = 7`: its piece read back. -/
def out1_C_4 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)

/-- The piece the body writes into output 5 at a point with `j = 7` covers its block. -/
theorem cover1_C_5 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S512x512.size (by sl_kernel_rfl) y

/-- What the body leaves in output 5's staging buffer at a point with `j = 7`: its piece read back. -/
def out1_C_5 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)

/-- At a point with `j < 7` nothing is stored into the outputs and nothing is written back: a placeholder no statement consults. -/
def out1_idle_4 : Vec F S512x512 .f32 := VO1_4.read (Elt F) (VO1_4.writes (Elt F) VO1_4.junk [])
def out1_idle_5 : Vec F S512x512 .f32 := VO1_5.read (Elt F) (VO1_5.writes (Elt F) VO1_5.junk [])

section
variable (V : (c : Dev nD) → (b : Ref sig .tc) → Buf (Elt F) ((c : Thread nD τ).loc b))

/-- Window `w`'s block of the second call at grid point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the outputs and the accumulators hold after each point -/

/-- THE ACCUMULATION. After the body at position `n`: (output 4, output 5, accumulator 0, accumulator 1). At `j = 0` the
    accumulators restart from zero plus the point's products; at `0 < j` they add the point's products to what the point
    before left; at `j = 7` the outputs receive the finished accumulators (elsewhere they are idle: placeholders). -/
def outsAt1 (c : Dev nD) : (n : ℕ) → n < cfg1.N → Vec F S512x512 .f32 × Vec F S512x512 .f32 × Vec F S512x512 .f32 × Vec F S512x512 .f32
  | 0, hn => (out1_idle_4, out1_idle_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_idle_4, out1_idle_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
      else
        (out1_idle_4, out1_idle_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)

/-- `outsAt1` at a point with `j = 0`. -/
theorem outsAt1_A (c : Dev nD) (t : Fin cfg1.N) (h0 : t.val % 8 = 0) (h1 : ¬t.val % 8 = 7) :
    outsAt1 V c t.val t.isLt = (out1_idle_4, out1_idle_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with `0 < j < 7`: over what the point before left. -/
theorem outsAt1_B (c : Dev nD) (t : Fin cfg1.N) (h0 : ¬t.val % 8 = 0) (h1 : ¬t.val % 8 = 7) :
    outsAt1 V c t.val t.isLt = (out1_idle_4, out1_idle_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `j = 7`: over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the two accumulators at what
    the point before left in them, beside the rest. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.2.1 ∗ owns (c : Thread nD τ) scM1_1 fullShare (outsAt1 V c n hn).2.2.2 ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2 ∗ rest1 c) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ rest1 c) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- Each input's current staging buffer holds its block at every point, fetched there or not: an input the pipeline does
    not fetch at a point has not moved its block index since the point before. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the closed forms say which of the three cases the point is in; the inputs' memrefs hold their blocks;
    the invariant hands the body the accumulators (at anything before the first point, else at what the point before left)
    and takes them back at this point's contents; an idle output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [outsAt1_A V c t h0 h1]
      unfold sout1_A_0 sout1_A_1; (try dsimp only)
      by_cases hz : t.val = 0
      ·
        rw [PhiS1_castSucc V c t, PhiS1_zero V c _ _ hz]
        iintro ⟨Hinv, Ho, ⟨%d0, H0⟩, ⟨%d1, H1⟩, ⟨%d2, H2⟩, ⟨%d3, H3⟩, ⟨%d4, H4⟩, ⟨%d5, H5⟩⟩
        ihave Hinv2 := (PhiA1_open (F := F) c) $$ Hinv
        icases Hinv2 with ⟨HS0, HS1, HR⟩
        iapply ((kernelRun1_A c (grid1.coords t) _ _ _ _ _ _ _ _ _ _ _ _ _ _ _ _ hc0 hc1 (iblk1 V c 0 t) (iblk1 V c 1 t) (iblk1 V c 2 t) (iblk1 V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS1_castSucc V c t, PhiS1_pos V c _ _ hz]
        iintro ⟨⟨HS0, HS1, HR⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ hc0 hc1 (iblk1 V c 0 t) (iblk1 V c 1 t) (iblk1 V c 2 t) (iblk1 V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [outsAt1_C V c t h0 h1]
      unfold out1_C_4 out1_C_5 sout1_C_0 sout1_C_1; (try dsimp only)
      by_cases hz : t.val = 0
      ·
        exfalso; omega
      ·
        rw [PhiS1_castSucc V c t, PhiS1_pos V c _ _ hz]
        iintro ⟨⟨HS0, HS1, HR⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ hc0 hc1 (iblk1 V c 0 t) (iblk1 V c 1 t) (iblk1 V c 2 t) (iblk1 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [outsAt1_B V c t h0 h1]
      unfold sout1_B_0 sout1_B_1; (try dsimp only)
      by_cases hz : t.val = 0
      ·
        exfalso; omega
      ·
        rw [PhiS1_castSucc V c t, PhiS1_pos V c _ _ hz]
        iintro ⟨⟨HS0, HS1, HR⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ hc0 hc1 (iblk1 V c 0 t) (iblk1 V c 1 t) (iblk1 V c 2 t) (iblk1 V c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexists _; iexact H4
        iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht]
  refine BIBase.Entails.trans ?_ (PhiA1_close c)
  iintro ⟨HS0, HS1, HR⟩
  isplitl [HS0]; · iexists _; iexact HS0
  isplitl [HS1]; · iexists _; iexact HS1
  iexact HR

theorem hout1 (c : Dev nD) : (dat1 V c).Φ (Fin.last cfg1.N) ⊢ (Pipeline.ΦA spec1 c : sProp 𝕄) :=
  Phi_out1 V c _ (by rw [Fin.val_last]; have : cfg1.N = 64 := N_1; omega)

end

end Cert.Kernel.Hand

end
-- ==== Proof.K.Score.lean ====
import proofs.«406706_j73478300500058_3_alg».proof.Proof.Gen.Kernel.Launch
import proofs.«406706_j73478300500058_3_alg».proof.Proof.Gen.Kernel.Skeleton
import proofs.«406706_j73478300500058_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the third call at grid point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rQ2 : Rect S200x512 := Rect.unit (s := S200x512) ![0, 0] S200x512.size inb_S200x512_S200x512_0_0
abbrev rI2 : Rect S200x1 := Rect.unit (s := S200x1) ![0, 0] S200x1.size inb_S200x1_S200x1_0_0
abbrev rM2 : Rect S4096x512 := Rect.unit (s := S4096x512) ![0, 0] S4096x512.size inb_S4096x512_S4096x512_0_0

/-- What the body leaves in the per-row loss block: one store of the whole block. -/
def out2_4 (x0 : Vec F S200x512 .bf16) (x1 : Vec F S200x1 .i32) (x2 : Vec F S4096x512 .bf16) (x3 : Vec F S4096x512 .bf16) : Vec F S200x1 .f32 :=
  View.canon [⟨rI2, k2_pay1 (View.ld x0 rQ2) (View.ld x2 rM2) (View.ld x3 rM2) (View.ld x1 rI2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

/-! ## What the body finds in its four input buffers

An input window's buffer holds that window's block at every grid point. Where the pipeline fetched at the point this
is what the fetch wrote; where it did not (the two message tables are fetched at the first point only, their block
index being constant), the block index has not moved since the previous point and the body left the block in place. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]

/-- The block of the query rows (window 0) is in its buffer at every point. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The block of row indices (window 1) is in its buffer at every point. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The first message table (window 2), fetched once, is still in its buffer at every later point. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- The second message table (window 3), likewise. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body on arbitrary whole buffers -/

/-- The single store of the body writes the whole 200×1 block, so every index of the block lies in it. -/
theorem cover2_4 (p : Vec F S200x1 .f32) (y : S200x1.Idx) :
    ∃ pc ∈ ([⟨rI2, p⟩] : List (View.Piece (Elt F) S200x1 .f32)), y ∈ pc.1.set :=
  View.cover_of_tiled [⟨rI2, p⟩] S200x1.size (by rfl) y

set_option maxHeartbeats 1000000 in
/-- The body run on five whole buffers: the four inputs read `x0 .. x3` and are handed back unchanged; the loss
    buffer, whatever it held (the body reads it once and drops the value), ends holding the one stored block,
    `out2_4` of what the inputs read. -/
theorem sound_kernel2 (c : Dev nD) (E : Set ℕ) (i : grid2.Coords)
    (a0 : Memref sig .tc .vmem S200x512 .bf16) (h0 : a0.IsWhole) (a1 : Memref sig .tc .vmem S200x1 .i32) (h1 : a1.IsWhole)
    (a2 : Memref sig .tc .vmem S4096x512 .bf16) (h2 : a2.IsWhole) (a3 : Memref sig .tc .vmem S4096x512 .bf16) (h3 : a3.IsWhole)
    (a4 : Memref sig .tc .vmem S200x1 .f32) (h4 : a4.IsWhole)
    (x0 : Vec F S200x512 .bf16) (x1 : Vec F S200x1 .i32) (x2 x3 : Vec F S4096x512 .bf16) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out2_4 x0 x1 x2 x3)) -∗ K ⟨⟩))
      ⊢ wp frame (wpE (defs₀ (F := F)) Variants.none c none) E (cc2__score_kernel i a0 h0 a1 h1 a2 h2 a3 h3 a4 h4) K := by
  simp only [cc2__score_kernel_eq_skeleton]; unfold cc2__score_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body at a grid point -/

/-- What the pipeline hands the body at point `t`: the invariant, the core's debt, and each window's current
    buffer — an input's at what the schedule left there, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body hands back: the same invariant and debt, every buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- At every point the four input buffers hold their blocks, so the triple above applies with `x_w` the blocks;
    the invariant and the debt do not depend on the point and pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.Run.lean ====
import proofs.«406706_j73478300500058_3_alg».proof.Proof.Gen.Kernel.Regions
import proofs.«406706_j73478300500058_3_alg».proof.Proof.K.Enc
import proofs.«406706_j73478300500058_3_alg».proof.Proof.K.Msg
import proofs.«406706_j73478300500058_3_alg».proof.Proof.K.Score

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: its nine segments from the launch to the return

## The buffer contents at each segment boundary: a fold through the program -/

/-- Core `c`'s buffers at launch. -/
abbrev W0 : Dev nD → Valuation τ sig (Elt F) := fun c b => (s₀ m ρ).mem ((c : Dev nD), b)
/-- After the two constants. -/
abbrev W1 : Dev nD → Valuation τ sig (Elt F) := fun c => StableHlo.after hostOps0 (W0 m ρ c)
/-- After the clipping of the indices. -/
abbrev W2 : Dev nD → Valuation τ sig (Elt F) := fun c => StableHlo.after hostOps0_1 (W1 m ρ c)
/-- After the two reshapes (the first call's entry). -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At the first call's exit: its arrays at what the pipeline leaves (an input as entered, an output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch between the first and the second call (the second call's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second call's exit: its two outputs at what the pipeline leaves, every other buffer as entered (its
    inputs are only read). -/
def W6 (c : Dev nD) : Valuation τ sig (Elt F) :=
  Function.update (Function.update (W5 m ρ c) main_v25_0 ((dat1 (V5 m ρ) c).arrAt 4 cfg1.N)) main_v25_1 ((dat1 (V5 m ρ) c).arrAt 5 cfg1.N)
abbrev V6 : (c : Dev nD) → (b : Ref sig .tc) → Buf (Elt F) ((c : Thread nD τ).loc b) := fun c b => W6 m ρ c b

/-- After the host stretch between the second and the third call (the third call's entry). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At the third call's exit. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the closing reduction and division: the contents the program ends with. -/
abbrev W9 : Dev nD → Valuation τ sig (Elt F) := fun c => StableHlo.after hostOps3 (W8 m ρ c)

/-! ### The arguments end as launched: no host operation and no call writes one (a call reads it through an input
    window or not at all), so the fold at an argument's buffer walks back to the launch memory -/

theorem W6_of_ne (c : Dev nD) (b : Ref sig .tc) (h0 : b ≠ main_v25_0) (h1 : b ≠ main_v25_1) :
    W6 m ρ c (Proc.devRef .tc b) = W5 m ρ c (Proc.devRef .tc b) := by
  unfold W6
  rw [Function.update_of_ne (StableHlo.devRef_ne_of_ne h1 : (Proc.devRef .tc b : DevRef τ sig) ≠ Proc.devRef .tc main_v25_1),
    Function.update_of_ne (StableHlo.devRef_ne_of_ne h0 : (Proc.devRef .tc b : DevRef τ sig) ≠ Proc.devRef .tc main_v25_0)]

/-- A buffer no stretch writes, no output window of the second or third call names, and the first call leaves as
    entered ends at its launch contents. -/
theorem W9_of (c : Dev nD) (r : Ref sig .tc) (h3 : r ∉ hostOps3_W) (h8 : ∀ w, Pipeline.arrRef spec2 w ≠ r) (h2 : r ∉ hostOps2_W)
    (h60 : r ≠ main_v25_0) (h61 : r ≠ main_v25_1) (h1 : r ∉ hostOps1_W)
    (h4 : W4 m ρ c (Proc.devRef .tc r) = W3 m ρ c (Proc.devRef .tc r))
    (h02 : r ∉ hostOps0_2_W) (h01 : r ∉ hostOps0_1_W) (h00 : r ∉ hostOps0_W) :
    W9 m ρ c (Proc.devRef .tc r) = m ((c : Thread nD τ).loc r) :=
  calc W9 m ρ c (Proc.devRef .tc r)
    _ = W8 m ρ c (Proc.devRef .tc r) := StableHlo.after_of_writes_sub hostOps3 _ hostOps3_writes h3
    _ = W7 m ρ c (Proc.devRef .tc r) := W8_of_ne m ρ c r h8
    _ = W6 m ρ c (Proc.devRef .tc r) := StableHlo.after_of_writes_sub hostOps2 _ hostOps2_writes h2
    _ = W5 m ρ c (Proc.devRef .tc r) := W6_of_ne m ρ c r h60 h61
    _ = W4 m ρ c (Proc.devRef .tc r) := StableHlo.after_of_writes_sub hostOps1 _ hostOps1_writes h1
    _ = W3 m ρ c (Proc.devRef .tc r) := h4
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h00
    _ = m ((c : Thread nD τ).loc r) := rfl

theorem W9_main_arg0 (c : Dev nD) : W9 m ρ c (Proc.devRef .tc main_arg0) = m ((c : Thread nD τ).loc main_arg0) :=
  W9_of m ρ c main_arg0 (by decide) (by decide) (by decide) (by decide) (by decide) (by decide)
    ((W4_arr m ρ c 0).trans (((dat0 (V3 m ρ) c).arrAt_in 0 rfl _).trans (A_eq0 (V3 m ρ) c 0)))
    (by decide) (by decide) (by decide)
theorem W9_main_arg1 (c : Dev nD) : W9 m ρ c (Proc.devRef .tc main_arg1) = m ((c : Thread nD τ).loc main_arg1) :=
  W9_of m ρ c main_arg1 (by decide) (by decide) (by decide) (by decide) (by decide) (by decide)
    (W4_of_ne m ρ c main_arg1 (by decide)) (by decide) (by decide) (by decide)
theorem W9_main_arg2 (c : Dev nD) : W9 m ρ c (Proc.devRef .tc main_arg2) = m ((c : Thread nD τ).loc main_arg2) :=
  W9_of m ρ c main_arg2 (by decide) (by decide) (by decide) (by decide) (by decide) (by decide)
    (W4_of_ne m ρ c main_arg2 (by decide)) (by decide) (by decide) (by decide)
theorem W9_main_arg3 (c : Dev nD) : W9 m ρ c (Proc.devRef .tc main_arg3) = m ((c : Thread nD τ).loc main_arg3) :=
  W9_of m ρ c main_arg3 (by decide) (by decide) (by decide) (by decide) (by decide) (by decide)
    (W4_of_ne m ρ c main_arg3 (by decide)) (by decide) (by decide) (by decide)
theorem W9_main_arg4 (c : Dev nD) : W9 m ρ c (Proc.devRef .tc main_arg4) = m ((c : Thread nD τ).loc main_arg4) :=
  W9_of m ρ c main_arg4 (by decide) (by decide) (by decide) (by decide) (by decide) (by decide)
    ((W4_arr m ρ c 1).trans (((dat0 (V3 m ρ) c).arrAt_in 1 rfl _).trans (A_eq0 (V3 m ρ) c 1)))
    (by decide) (by decide) (by decide)
theorem W9_main_arg5 (c : Dev nD) : W9 m ρ c (Proc.devRef .tc main_arg5) = m ((c : Thread nD τ).loc main_arg5) :=
  W9_of m ρ c main_arg5 (by decide) (by decide) (by decide) (by decide) (by decide) (by decide)
    (W4_of_ne m ρ c main_arg5 (by decide)) (by decide) (by decide) (by decide)

theorem W6_v25_1 (c : Dev nD) : W6 m ρ c (Proc.devRef .tc main_v25_1) = (dat1 (V5 m ρ) c).arrAt 5 cfg1.N := by
  unfold W6; exact Function.update_self ..
theorem W6_v25_0 (c : Dev nD) : W6 m ρ c (Proc.devRef .tc main_v25_0) = (dat1 (V5 m ρ) c).arrAt 4 cfg1.N := by
  unfold W6
  rw [Function.update_of_ne (StableHlo.devRef_ne_of_ne (by decide) : (Proc.devRef .tc main_v25_0 : DevRef τ sig) ≠ Proc.devRef .tc main_v25_1)]
  exact Function.update_self ..

/-! ## The second call's arrays: two input windows read one array, each holding half of its buffer -/

section Shared
variable (V : (c : Dev nD) → (b : Ref sig .tc) → Buf (Elt F) ((c : Thread nD τ).loc b))

/-- The five distinct buffers behind the second call's six arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v22) ↦{fullShare} V' main_v22) ∗ (((c : Thread nD τ).loc main_v23) ↦{fullShare} V' main_v23)
          ∗ (((c : Thread nD τ).loc main_v24) ↦{fullShare} V' main_v24) ∗ (((c : Thread nD τ).loc main_v25_0) ↦{fullShare} V' main_v25_0)
          ∗ (((c : Thread nD τ).loc main_v25_1) ↦{fullShare} V' main_v25_1)) :=
  bigSep_eq_bigSepL_of_eq [main_v22, main_v23, main_v24, main_v25_0, main_v25_1] (by decide) (by decide) _

/-- The second call's arrays as the proof data hold them: the shared array by halves, the others whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v22) ↦{fullShare.left} G 0) ∗ (((c : Thread nD τ).loc main_v22) ↦{fullShare.right} G 1)
          ∗ (((c : Thread nD τ).loc main_v23) ↦{fullShare} G 2) ∗ (((c : Thread nD τ).loc main_v24) ↦{fullShare} G 3)
          ∗ (((c : Thread nD τ).loc main_v25_0) ↦{fullShare} G 4) ∗ (((c : Thread nD τ).loc main_v25_1) ↦{fullShare} G 5)) := by
  unfold Dat.arrays
  rw [bigSep_W1, (arr_whole1 0).set_eq_univ, (arr_whole1 2).set_eq_univ, (arr_whole1 3).set_eq_univ,
    (arr_whole1 4).set_eq_univ, (arr_whole1 5).set_eq_univ]
  rfl

end Shared

section Shared2
variable (V : (c : Dev nD) → (b : Ref sig .tc) → Buf (Elt F) ((c : Thread nD τ).loc b))

/-- ENTRY: the buffers behind the arrays, whole at the entry contents, are the proof data's arrays at entry — the
    shared array's buffer split into its two halves, one per window reading it. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H22, H23, H24, H250, H251⟩
  ihave H := (pointsTo_share (PosShare.mem_left_op_right fullShare)).1 $$ H22
  icases H with ⟨Hl, Hr⟩
  isplitl [Hl]; · iexact Hl
  isplitl [Hr]; · iexact Hr
  isplitl [H23]; · iexact H23
  isplitl [H24]; · iexact H24
  isplitl [H250]; · iexact H250
  iexact H251

/-- EXIT: the proof data's arrays at their final contents — the inputs as entered, the halves of the shared array's
    buffer joined again — and the unscoped rest are the core's unscoped buffers at any valuation that has the two
    outputs at what the pipeline leaves and agrees with the entry contents elsewhere. -/
theorem hjoin1 (c : Dev nD) (V' : (b : Ref sig .tc) → Buf (Elt F) ((c : Thread nD τ).loc b))
    (h22 : V' main_v22 = V c main_v22) (h23 : V' main_v23 = V c main_v23) (h24 : V' main_v24 = V c main_v24)
    (h4 : V' main_v25_0 = (dat1 V c).arrAt 4 cfg1.N) (h5 : V' main_v25_1 = (dat1 V c).arrAt 5 cfg1.N)
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest spec1 c V' : sProp 𝕄) = Pipeline.unscopedRest spec1 c (V c) := by
    unfold Pipeline.unscopedRest
    exact bigSep_congr fun b hb => by rw [hrest b (Finset.mem_sdiff.mp hb).2]
  have e0 : (dat1 V c).arrAt 0 cfg1.N = V c main_v22 := ((dat1 V c).arrAt_in 0 rfl _).trans (A_eq1 V c 0)
  have e1 : (dat1 V c).arrAt 1 cfg1.N = V c main_v22 := ((dat1 V c).arrAt_in 1 rfl _).trans (A_eq1 V c 1)
  have e2 : (dat1 V c).arrAt 2 cfg1.N = V c main_v23 := ((dat1 V c).arrAt_in 2 rfl _).trans (A_eq1 V c 2)
  have e3 : (dat1 V c).arrAt 3 cfg1.N = V c main_v24 := ((dat1 V c).arrAt_in 3 rfl _).trans (A_eq1 V c 3)
  rw [hs, hr, arrBufs1_eq, arrays1_eq, h22, h23, h24, h4, h5, e0, e1, e2, e3]
  iintro ⟨⟨Hl, Hr, H23, H24, H250, H251⟩, Hrest⟩
  isplitr [Hrest]
  swap; · iexact Hrest
  isplitl [Hl Hr]
  · iapply (pointsTo_share (PosShare.mem_left_op_right fullShare)).2
    isplitl [Hl] <;> iassumption
  isplitl [H23]; · iexact H23
  isplitl [H24]; · iexact H24
  isplitl [H250]; · iexact H250
  iexact H251

end Shared2

/-! ## The proof data family and the thread state -/

/-- Every call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- Call 0 over the thread state: entered from every unscoped buffer at the boundary's contents, left at the next
    boundary's. Its arrays are split out of the unscoped buffers and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the boundary's contents, left at the next
    boundary's. Two of its input windows read one array: at entry that array's buffer is split into two halves, one
    per window, and at exit the halves are joined again; the two outputs are put back at what the pipeline leaves. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hent : (StableHlo.held (c : Thread nD τ) (Pipeline.ucRefs τ sig) (W5 m ρ c) : sProp 𝕄)
        ⊢ iprop((dat1 (V5 m ρ) c).arrays ((dat1 (V5 m ρ) c).arrAt · 0) ∗ Pipeline.unscopedRest spec1 c (V5 m ρ c)) := by
      rw [← Pipeline.unscopedBufs_held (Ix := Unit) (Name := ℕ) (U := UR sig nD τ) (Lvl := ℕ) c (W5 m ρ c),
        Pipeline.unscopedBufs_split₀ cfgs 1 winFacts₀1.arr_unscoped c]
      exact sep_mono (hsplit1 (V5 m ρ) c) .rfl
    iintro ⟨⟨Hub, Hp, HO⟩, -, -⟩
    ihave H := hent $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5 m ρ) c)
    unfold Pipeline.ΦA
    iintro ⟨Hp, -, Hr⟩
    isplitl [Hr]; · iexact Hr
    iexact Hp
  hout c := by
    rw [Pipeline.ownSems0_none]
    refine BIBase.Entails.trans (hout1 (V5 m ρ) c) ?_
    unfold Pipeline.ΦA
    iintro ⟨Hr, Hp⟩
    isplitl [Hp]; · iexact Hp
    isplitr; · iempintro
    iexact Hr
  hexit c := by
    have hjoin := hjoin1 (V5 m ρ) c (V6 m ρ c) (W6_of_ne m ρ c main_v22 (by decide) (by decide)) (W6_of_ne m ρ c main_v23 (by decide) (by decide))
      (W6_of_ne m ρ c main_v24 (by decide) (by decide)) (W6_v25_0 m ρ c) (W6_v25_1 m ρ c)
      (fun b hb => W6_of_ne m ρ c b (fun e => hb (e ▸ (by decide : main_v25_0 ∈ Finset.univ.image (Pipeline.arrRef spec1))))
        (fun e => hb (e ▸ (by decide : main_v25_1 ∈ Finset.univ.image (Pipeline.arrRef spec1)))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at the boundary's contents, left at the next
    boundary's. Its arrays are split out of the unscoped buffers and put back at the exit contents; the generator
    register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The program is the run of the segments. -/
theorem main_run (c : Dev nD) : main (F := F) c = Pipeline.Seg.run (segs m ρ) := (main_chain c).trans (by chain_rfl)

set_option backward.isDefEq.respectTransparency.types false in
/-- The run, at any post that follows from the final contents of every unscoped buffer: from any memory with zero
    counters, every weakly fair execution of the program on the TensorCores terminates, nothing faulting, and every
    final state holds each unscoped buffer at the last boundary's contents. -/
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ (∃ r, prngReg c r) ∗ ∃ W, owes (c : Thread nD τ) (0 : CellTallies nD τ sig Unit) W)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- THE RUN: every final state holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  run_gen m ρ fun s h => h

/-- THE FRAME: from any memory with zero counters every weakly fair execution of the program terminates, nothing
    faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_gen m ρ fun s h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩

end Cert.Kernel.Hand

end
-- ==== Proof.KI.Enc.lean ====
import proofs.«406706_j73478300500058_3_alg».proof.Proof.Gen.KernelIdeal.Launch
import proofs.«406706_j73478300500058_3_alg».proof.Proof.Gen.KernelIdeal.Skeleton
import proofs.«406706_j73478300500058_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the first call at grid point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S1000x512 := Rect.unit (s := S1000x512) ![0, 0] S1000x512.size inb_S1000x512_S1000x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0
abbrev rP0 : Rect S1000x1 := Rect.unit (s := S1000x1) ![0, 0] S1000x1.size inb_S1000x1_S1000x1_0_0

/-- What the body leaves in the weighted-feature block: one store of the whole block. -/
def out0_4 (x0 : Vec F S1000x512 .f32) (x1 : Vec F S512x512 .f32) (x2 : Vec F S1x512 .f32) (x3 : Vec F S1000x1 .f32) : Vec F S1000x512 .f32 :=
  View.canon [⟨rA0, k0_pay2 (View.ld x0 rA0) (View.ld x1 rW0) (View.ld x2 rB0) (View.ld x3 rP0)⟩]
/-- What the body leaves in the sigmoid block: one store of the whole block. -/
def out0_5 (x0 : Vec F S1000x512 .f32) (x1 : Vec F S512x512 .f32) (x2 : Vec F S1x512 .f32) : Vec F S1000x512 .bf16 :=
  View.canon [⟨rA0, k0_pay3 (View.ld x0 rA0) (View.ld x1 rW0) (View.ld x2 rB0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) := by dsimp only [dat0]

/-! ## The inputs' buffers hold their blocks -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-- Input window 0's current staging buffer holds its block at every point, fetched there or not: where it is
    not fetched its block index has not moved, the window is uncut and never idle, and the body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is
    not fetched its block index has not moved, the window is uncut and never idle, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is
    not fetched its block index has not moved, the window is uncut and never idle, and the body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not: where it is
    not fetched its block index has not moved, the window is uncut and never idle, and the body leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Each output's single store covers its whole block -/

theorem cover0_4 (p0 : Vec F S1000x512 .f32) (y : S1000x512.Idx) :
    ∃ pc ∈ ([⟨rA0, p0⟩] : List (View.Piece (Elt F) S1000x512 .f32)), y ∈ pc.1.set :=
  View.cover_of_tiled [⟨rA0, p0⟩] S1000x512.size (by rfl) y

theorem cover0_5 (p0 : Vec F S1000x512 .bf16) (y : S1000x512.Idx) :
    ∃ pc ∈ ([⟨rA0, p0⟩] : List (View.Piece (Elt F) S1000x512 .bf16)), y ∈ pc.1.set :=
  View.cover_of_tiled [⟨rA0, p0⟩] S1000x512.size (by rfl) y

/-! ## The body's triple on whole staging memrefs -/

set_option maxHeartbeats 4000000 in
/-- On whole staging memrefs, the four inputs' reading `x0 … x3` and the two outputs' holding anything, the body runs
    to the continuation with the inputs' unchanged, the weighted-feature block at `out0_4` of the inputs and the
    sigmoid block at `out0_5` of them: four loads, then per output one (unused) load and one store of the whole block. -/
theorem sound_kernel0 (c : Dev nD) (E : Set ℕ) (i : grid0.Coords)
    (arg1 : Memref sig .tc .vmem S1000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S1000x1 .f32) (harg4 : arg4.IsWhole)
    (arg5 : Memref sig .tc .vmem S1000x512 .f32) (harg5 : arg5.IsWhole) (arg6 : Memref sig .tc .vmem S1000x512 .bf16) (harg6 : arg6.IsWhole)
    (x0 : Vec F S1000x512 .f32) (x1 : Vec F S512x512 .f32) (x2 : Vec F S1x512 .f32) (x3 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2)) -∗ K ⟨⟩))
      ⊢ wp frame (wpE (defs₀ (F := F)) Variants.none c none) E (cc0__encoder_kernel i arg1 harg1 arg2 harg2 arg3 harg3 arg4 harg4 arg5 harg5 arg6 harg6) K := by
  simp only [cc0__encoder_kernel_eq_skeleton]; unfold cc0__encoder_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.MsgRuns.lean ====
import proofs.«406706_j73478300500058_3_alg».proof.Proof.Gen.KernelIdeal.Launch
import proofs.«406706_j73478300500058_3_alg».proof.Proof.Gen.KernelIdeal.Skeleton
import proofs.«406706_j73478300500058_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second call's branch conditions, in closed form over the 8×8 grid (point `t = 8·i + j`) -/

/-- The first conditional of the body (the accumulators are zeroed): the scalar chain over the inner coordinate `j`. -/
abbrev cond1_0 (i : grid1.Coords) : Prop :=
  (Scalar.cmpi .ne (Scalar.extui (Scalar.cmpi .eq (BitVec.ofNat 32 (i 1).val) 0#32)) 0#32) = 1#1
/-- It holds exactly at the points with `j = 0`. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional of the body (the accumulators are copied out). -/
abbrev cond1_1 (i : grid1.Coords) : Prop := k1_cond2 i = 1#1
/-- It holds exactly at the points with `j = 7`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from `j = 7` both outputs are idle and not written back; at `j = 7` they are live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

/-- One staging buffer of each output window, through which its contents are stated (the choice does not matter). -/
abbrev VO1_4 : View sig .tc .vmem S512x512 .f32 := (Memref.whole cc1_stg4_0 : Memref sig .tc .vmem S512x512 .f32).view
abbrev VO1_5 : View sig .tc .vmem S512x512 .f32 := (Memref.whole cc1_stg5_0 : Memref sig .tc .vmem S512x512 .f32).view
/-- Each window's current staging memref at point `t`, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
/-- The two accumulators the body carries from point to point: whole scoped buffers of the call's own. -/
abbrev scM1_0 : Memref sig .tc .vmem S512x512 .f32 := Memref.whole cc1_scratch0
abbrev scM1_1 : Memref sig .tc .vmem S512x512 .f32 := Memref.whole cc1_scratch1
/-- The same as views: what the accumulators hold is stated through them. -/
abbrev VS1_0 : View sig .tc .vmem S512x512 .f32 := scM1_0.view
abbrev VS1_1 : View sig .tc .vmem S512x512 .f32 := scM1_1.view

end Cert.KernelIdeal.Hand

end
-- ==== Proof.KI.MsgRunA.lean ====
import proofs.«406706_j73478300500058_3_alg».proof.Proof.KI.MsgRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 0` (first conditional taken, second not). On whole memrefs — the four inputs at their
    contents, the two outputs at contents `xi4`, `xi5` handed back untouched (nothing is stored into them), both accumulators at
    anything — the body runs to the continuation holding the inputs and the outputs as they were and each accumulator with
    the listed pieces written (last first): the zero block, then the zero block plus this point's product. -/
noncomputable def kernelRun1_A (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) :
    Σ' (LS0 : List (View.Piece (Elt F) S512x512 .f32)), { LS1 : List (View.Piece (Elt F) S512x512 .f32) //
      ∀ (xi4 xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__msg_kernel i arg2 harg2 arg3 harg3 arg4 harg4 arg5 harg5 arg6 harg6 arg7 harg7 arg8 harg8 arg9 harg9) K } := by
  refine ⟨?_, ?_, fun xi4 xi5 E K => ?run⟩
  case run =>
    simp only [cc1__msg_kernel_eq_skeleton]; unfold cc1__msg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.MsgRunB.lean ====
import proofs.«406706_j73478300500058_3_alg».proof.Proof.KI.MsgRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `0 < j < 7` (neither conditional taken). On whole memrefs — the four inputs at their contents,
    the two outputs at contents `xi4`, `xi5` handed back untouched, the accumulators at what the point before left
    (`xs0`, `xs1`) — the body runs to the continuation holding the inputs and the outputs as they were and each accumulator
    with the listed piece written: what it held plus this point's product. -/
noncomputable def kernelRun1_B (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) :
    Σ' (LS0 : List (View.Piece (Elt F) S512x512 .f32)), { LS1 : List (View.Piece (Elt F) S512x512 .f32) //
      ∀ (xi4 xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__msg_kernel i arg2 harg2 arg3 harg3 arg4 harg4 arg5 harg5 arg6 harg6 arg7 harg7 arg8 harg8 arg9 harg9) K } := by
  refine ⟨?_, ?_, fun xi4 xi5 E K => ?run⟩
  case run =>
    simp only [cc1__msg_kernel_eq_skeleton]; unfold cc1__msg_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.MsgRunC.lean ====
import proofs.«406706_j73478300500058_3_alg».proof.Proof.KI.MsgRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point with `j = 7` (only the second conditional taken). On whole memrefs — the four inputs at their
    contents, the two outputs at anything, the accumulators at what the point before left (`xs0`, `xs1`) — the body runs to
    the continuation holding the inputs as they were, each accumulator with its piece written (what it held plus this point's
    product) and each output with its piece written: the finished accumulator. -/
noncomputable def kernelRun1_C (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) :
    Σ' (L4 : List (View.Piece (Elt F) S512x512 .f32)) (L5 : List (View.Piece (Elt F) S512x512 .f32)) (LS0 : List (View.Piece (Elt F) S512x512 .f32)), { LS1 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__msg_kernel i arg2 harg2 arg3 harg3 arg4 harg4 arg5 harg5 arg6 harg6 arg7 harg7 arg8 harg8 arg9 harg9) K } := by
  refine ⟨?_, ?_, ?_, ?_, fun E K => ?run⟩
  case run =>
    simp only [cc1__msg_kernel_eq_skeleton]; unfold cc1__msg_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Msg.lean ====
import proofs.«406706_j73478300500058_3_alg».proof.Proof.KI.MsgRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The region invariant, with the two accumulators singled out -/

/-- The core's scoped buffers that are neither a staging buffer of this call nor one of its two accumulators (the other
    calls' staging buffers), each at some contents, and the generator register at some state: what the body never touches. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ ((∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg4_1), ((c : Thread nD τ).loc cc2_stg4_1) ↦{fullShare} f))
    ∗ (∃ r, prngReg c r))

/-- The class's invariant hands out the two accumulators, each at some contents, beside the rest. -/
theorem PhiA1_open (c : Dev nD) : (Pipeline.ΦA spec1 c : sProp 𝕄)
    ⊢ iprop((∃ d, owns (c : Thread nD τ) scM1_0 fullShare d) ∗ (∃ d, owns (c : Thread nD τ) scM1_1 fullShare d) ∗ rest1 (F := F) c) := by
  unfold Pipeline.ΦA rest1; rw [scopedRest1_eq]; simp only [scM1_0, scM1_1, owns_whole]
  iintro ⟨⟨H0, H1, H2, H3, H4, H5, H6, H7, H8, H9, HS0, HS1, HT⟩, Hg⟩
  isplitl [HS0]; · iexact HS0
  isplitl [HS1]; · iexact HS1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HT]; · iexact HT
  iexact Hg

/-- And takes them back, their contents forgotten. -/
theorem PhiA1_close (c : Dev nD) : iprop((∃ d, owns (c : Thread nD τ) scM1_0 fullShare d) ∗ (∃ d, owns (c : Thread nD τ) scM1_1 fullShare d) ∗ rest1 (F := F) c)
    ⊢ (Pipeline.ΦA spec1 c : sProp 𝕄) := by
  unfold Pipeline.ΦA rest1; rw [scopedRest1_eq]; simp only [scM1_0, scM1_1, owns_whole]
  iintro ⟨HS0, HS1, H0, H1, H2, H3, H4, H5, H6, H7, H8, H9, HT, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iexact HT

/-- The pieces the body writes into accumulator 0 at a point with `j = 0` cover it. -/
theorem scover1_A_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) (y : S512x512.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S512x512.size (by sl_kernel_rfl) y

/-- What the body leaves in accumulator 0 at a point with `j = 0`: its pieces read back. -/
def sout1_A_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) : Vec F S512x512 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)

/-- The pieces the body writes into accumulator 1 at a point with `j = 0` cover it. -/
theorem scover1_A_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) (y : S512x512.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S512x512.size (by sl_kernel_rfl) y

/-- What the body leaves in accumulator 1 at a point with `j = 0`: its pieces read back. -/
def sout1_A_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) : Vec F S512x512 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)

/-- The pieces the body writes into accumulator 0 at a point with `0 < j < 7` cover it. -/
theorem scover1_B_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) (y : S512x512.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S512x512.size (by sl_kernel_rfl) y

/-- What the body leaves in accumulator 0 at a point with `0 < j < 7`: its pieces read back. -/
def sout1_B_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) : Vec F S512x512 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)

/-- The pieces the body writes into accumulator 1 at a point with `0 < j < 7` cover it. -/
theorem scover1_B_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) (y : S512x512.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S512x512.size (by sl_kernel_rfl) y

/-- What the body leaves in accumulator 1 at a point with `0 < j < 7`: its pieces read back. -/
def sout1_B_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) : Vec F S512x512 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)

/-- The pieces the body writes into accumulator 0 at a point with `j = 7` cover it. -/
theorem scover1_C_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S512x512.size (by sl_kernel_rfl) y

/-- What the body leaves in accumulator 0 at a point with `j = 7`: its pieces read back. -/
def sout1_C_0 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)

/-- The pieces the body writes into accumulator 1 at a point with `j = 7` cover it. -/
theorem scover1_C_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S512x512.size (by sl_kernel_rfl) y

/-- What the body leaves in accumulator 1 at a point with `j = 7`: its pieces read back. -/
def sout1_C_1 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

/-- The piece the body writes into output 4 at a point with `j = 7` covers its block. -/
theorem cover1_C_4 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S512x512.size (by sl_kernel_rfl) y

/-- What the body leaves in output 4's staging buffer at a point with `j = 7`: its piece read back. -/
def out1_C_4 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)

/-- The piece the body writes into output 5 at a point with `j = 7` covers its block. -/
theorem cover1_C_5 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) (y : S512x512.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S512x512.size (by sl_kernel_rfl) y

/-- What the body leaves in output 5's staging buffer at a point with `j = 7`: its piece read back. -/
def out1_C_5 (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) : Vec F S512x512 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)

/-- At a point with `j < 7` nothing is stored into the outputs and nothing is written back: a placeholder no statement consults. -/
def out1_idle_4 : Vec F S512x512 .f32 := VO1_4.read (Elt F) (VO1_4.writes (Elt F) VO1_4.junk [])
def out1_idle_5 : Vec F S512x512 .f32 := VO1_5.read (Elt F) (VO1_5.writes (Elt F) VO1_5.junk [])

section
variable (V : (c : Dev nD) → (b : Ref sig .tc) → Buf (Elt F) ((c : Thread nD τ).loc b))

/-- Window `w`'s block of the second call at grid point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the outputs and the accumulators hold after each point -/

/-- THE ACCUMULATION. After the body at position `n`: (output 4, output 5, accumulator 0, accumulator 1). At `j = 0` the
    accumulators restart from zero plus the point's products; at `0 < j` they add the point's products to what the point
    before left; at `j = 7` the outputs receive the finished accumulators (elsewhere they are idle: placeholders). -/
def outsAt1 (c : Dev nD) : (n : ℕ) → n < cfg1.N → Vec F S512x512 .f32 × Vec F S512x512 .f32 × Vec F S512x512 .f32 × Vec F S512x512 .f32
  | 0, hn => (out1_idle_4, out1_idle_5, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (out1_idle_4, out1_idle_5, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
      else
        (out1_idle_4, out1_idle_5, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)

/-- `outsAt1` at a point with `j = 0`. -/
theorem outsAt1_A (c : Dev nD) (t : Fin cfg1.N) (h0 : t.val % 8 = 0) (h1 : ¬t.val % 8 = 7) :
    outsAt1 V c t.val t.isLt = (out1_idle_4, out1_idle_5, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point with `0 < j < 7`: over what the point before left. -/
theorem outsAt1_B (c : Dev nD) (t : Fin cfg1.N) (h0 : ¬t.val % 8 = 0) (h1 : ¬t.val % 8 = 7) :
    outsAt1 V c t.val t.isLt = (out1_idle_4, out1_idle_5, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `j = 7`: over what the point before left. -/
theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the two accumulators at what
    the point before left in them, beside the rest. -/
def PhiS1 (c : Dev nD) : (n : ℕ) → n ≤ cfg1.N → sProp 𝕄
  | 0, _ => Pipeline.ΦA spec1 c
  | n + 1, hn => iprop(owns (c : Thread nD τ) scM1_0 fullShare (outsAt1 V c n hn).2.2.1 ∗ owns (c : Thread nD τ) scM1_1 fullShare (outsAt1 V c n hn).2.2.2 ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (outsAt1 V c n hn).2.2.1 ∗ owns (c : Thread nD τ) scM1_1 fullShare (outsAt1 V c n hn).2.2.2 ∗ rest1 c) := rfl

theorem PhiS1_pos (c : Dev nD) (n : ℕ) (h : n ≤ cfg1.N) (hz : n ≠ 0) :
    PhiS1 V c n h = iprop(owns (c : Thread nD τ) scM1_0 fullShare (outsAt1 V c (n - 1) (by omega)).2.2.1 ∗ owns (c : Thread nD τ) scM1_1 fullShare (outsAt1 V c (n - 1) (by omega)).2.2.2 ∗ rest1 c) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- Each input's current staging buffer holds its block at every point, fetched there or not: an input the pipeline does
    not fetch at a point has not moved its block index since the point before. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the closed forms say which of the three cases the point is in; the inputs' memrefs hold their blocks;
    the invariant hands the body the accumulators (at anything before the first point, else at what the point before left)
    and takes them back at this point's contents; an idle output's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [outsAt1_A V c t h0 h1]
      unfold sout1_A_0 sout1_A_1; (try dsimp only)
      by_cases hz : t.val = 0
      ·
        rw [PhiS1_castSucc V c t, PhiS1_zero V c _ _ hz]
        iintro ⟨Hinv, Ho, ⟨%d0, H0⟩, ⟨%d1, H1⟩, ⟨%d2, H2⟩, ⟨%d3, H3⟩, ⟨%d4, H4⟩, ⟨%d5, H5⟩⟩
        ihave Hinv2 := (PhiA1_open (F := F) c) $$ Hinv
        icases Hinv2 with ⟨HS0, HS1, HR⟩
        iapply ((kernelRun1_A c (grid1.coords t) _ _ _ _ _ _ _ _ _ _ _ _ _ _ _ _ hc0 hc1 (iblk1 V c 0 t) (iblk1 V c 1 t) (iblk1 V c 2 t) (iblk1 V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexists _; iexact H4
        iexists _; iexact H5
      ·
        rw [PhiS1_castSucc V c t, PhiS1_pos V c _ _ hz]
        iintro ⟨⟨HS0, HS1, HR⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ hc0 hc1 (iblk1 V c 0 t) (iblk1 V c 1 t) (iblk1 V c 2 t) (iblk1 V c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 8 = 7
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [outsAt1_C V c t h0 h1]
      unfold out1_C_4 out1_C_5 sout1_C_0 sout1_C_1; (try dsimp only)
      by_cases hz : t.val = 0
      ·
        exfalso; omega
      ·
        rw [PhiS1_castSucc V c t, PhiS1_pos V c _ _ hz]
        iintro ⟨⟨HS0, HS1, HR⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ hc0 hc1 (iblk1 V c 0 t) (iblk1 V c 1 t) (iblk1 V c 2 t) (iblk1 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [outsAt1_B V c t h0 h1]
      unfold sout1_B_0 sout1_B_1; (try dsimp only)
      by_cases hz : t.val = 0
      ·
        exfalso; omega
      ·
        rw [PhiS1_castSucc V c t, PhiS1_pos V c _ _ hz]
        iintro ⟨⟨HS0, HS1, HR⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ hc0 hc1 (iblk1 V c 0 t) (iblk1 V c 1 t) (iblk1 V c 2 t) (iblk1 V c 3 t) _ _).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexists _; iexact H4
        iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht]
  refine BIBase.Entails.trans ?_ (PhiA1_close c)
  iintro ⟨HS0, HS1, HR⟩
  isplitl [HS0]; · iexists _; iexact HS0
  isplitl [HS1]; · iexists _; iexact HS1
  iexact HR

theorem hout1 (c : Dev nD) : (dat1 V c).Φ (Fin.last cfg1.N) ⊢ (Pipeline.ΦA spec1 c : sProp 𝕄) :=
  Phi_out1 V c _ (by rw [Fin.val_last]; have : cfg1.N = 64 := N_1; omega)

end

end Cert.KernelIdeal.Hand

end
-- ==== Proof.KI.Score.lean ====
import proofs.«406706_j73478300500058_3_alg».proof.Proof.Gen.KernelIdeal.Launch
import proofs.«406706_j73478300500058_3_alg».proof.Proof.Gen.KernelIdeal.Skeleton
import proofs.«406706_j73478300500058_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block of the third call at grid point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rQ2 : Rect S200x512 := Rect.unit (s := S200x512) ![0, 0] S200x512.size inb_S200x512_S200x512_0_0
abbrev rI2 : Rect S200x1 := Rect.unit (s := S200x1) ![0, 0] S200x1.size inb_S200x1_S200x1_0_0
abbrev rM2 : Rect S4096x512 := Rect.unit (s := S4096x512) ![0, 0] S4096x512.size inb_S4096x512_S4096x512_0_0

/-- What the body leaves in the per-row loss block: one store of the whole block. -/
def out2_4 (x0 : Vec F S200x512 .bf16) (x1 : Vec F S200x1 .i32) (x2 : Vec F S4096x512 .bf16) (x3 : Vec F S4096x512 .bf16) : Vec F S200x1 .f32 :=
  View.canon [⟨rI2, k2_pay1 (View.ld x0 rQ2) (View.ld x2 rM2) (View.ld x3 rM2) (View.ld x1 rI2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

/-! ## What the body finds in its four input buffers

An input window's buffer holds that window's block at every grid point. Where the pipeline fetched at the point this
is what the fetch wrote; where it did not (the two message tables are fetched at the first point only, their block
index being constant), the block index has not moved since the previous point and the body left the block in place. -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]

/-- The block of the query rows (window 0) is in its buffer at every point. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The block of row indices (window 1) is in its buffer at every point. -/
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The first message table (window 2), fetched once, is still in its buffer at every later point. -/
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- The second message table (window 3), likewise. -/
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body on arbitrary whole buffers -/

/-- The single store of the body writes the whole 200×1 block, so every index of the block lies in it. -/
theorem cover2_4 (p : Vec F S200x1 .f32) (y : S200x1.Idx) :
    ∃ pc ∈ ([⟨rI2, p⟩] : List (View.Piece (Elt F) S200x1 .f32)), y ∈ pc.1.set :=
  View.cover_of_tiled [⟨rI2, p⟩] S200x1.size (by rfl) y

set_option maxHeartbeats 1000000 in
/-- The body run on five whole buffers: the four inputs read `x0 .. x3` and are handed back unchanged; the loss
    buffer, whatever it held (the body reads it once and drops the value), ends holding the one stored block,
    `out2_4` of what the inputs read. -/
theorem sound_kernel2 (c : Dev nD) (E : Set ℕ) (i : grid2.Coords)
    (a0 : Memref sig .tc .vmem S200x512 .bf16) (h0 : a0.IsWhole) (a1 : Memref sig .tc .vmem S200x1 .i32) (h1 : a1.IsWhole)
    (a2 : Memref sig .tc .vmem S4096x512 .bf16) (h2 : a2.IsWhole) (a3 : Memref sig .tc .vmem S4096x512 .bf16) (h3 : a3.IsWhole)
    (a4 : Memref sig .tc .vmem S200x1 .f32) (h4 : a4.IsWhole)
    (x0 : Vec F S200x512 .bf16) (x1 : Vec F S200x1 .i32) (x2 x3 : Vec F S4096x512 .bf16) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (out2_4 x0 x1 x2 x3)) -∗ K ⟨⟩))
      ⊢ wp frame (wpE (defs₀ (F := F)) Variants.none c none) E (cc2__score_kernel i a0 h0 a1 h1 a2 h2 a3 h3 a4 h4) K := by
  simp only [cc2__score_kernel_eq_skeleton]; unfold cc2__score_kernel_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body at a grid point -/

/-- What the pipeline hands the body at point `t`: the invariant, the core's debt, and each window's current
    buffer — an input's at what the schedule left there, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body hands back: the same invariant and debt, every buffer at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- At every point the four input buffers hold their blocks, so the triple above applies with `x_w` the blocks;
    the invariant and the debt do not depend on the point and pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.Run.lean ====
import proofs.«406706_j73478300500058_3_alg».proof.Proof.Gen.KernelIdeal.Regions
import proofs.«406706_j73478300500058_3_alg».proof.Proof.KI.Enc
import proofs.«406706_j73478300500058_3_alg».proof.Proof.KI.Msg
import proofs.«406706_j73478300500058_3_alg».proof.Proof.KI.Score

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program: its nine segments from the launch to the return

## The buffer contents at each segment boundary: a fold through the program -/

/-- Core `c`'s buffers at launch. -/
abbrev W0 : Dev nD → Valuation τ sig (Elt F) := fun c b => (s₀ m ρ).mem ((c : Dev nD), b)
/-- After the two constants. -/
abbrev W1 : Dev nD → Valuation τ sig (Elt F) := fun c => StableHlo.after hostOps0 (W0 m ρ c)
/-- After the clipping of the indices. -/
abbrev W2 : Dev nD → Valuation τ sig (Elt F) := fun c => StableHlo.after hostOps0_1 (W1 m ρ c)
/-- After the two reshapes (the first call's entry). -/
abbrev W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b
/-- At the first call's exit: its arrays at what the pipeline leaves (an input as entered, an output's
    write-backs folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host stretch between the first and the second call (the second call's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second call's exit: its two outputs at what the pipeline leaves, every other buffer as entered (its
    inputs are only read). -/
def W6 (c : Dev nD) : Valuation τ sig (Elt F) :=
  Function.update (Function.update (W5 m ρ c) main_v25_0 ((dat1 (V5 m ρ) c).arrAt 4 cfg1.N)) main_v25_1 ((dat1 (V5 m ρ) c).arrAt 5 cfg1.N)
abbrev V6 : (c : Dev nD) → (b : Ref sig .tc) → Buf (Elt F) ((c : Thread nD τ).loc b) := fun c b => W6 m ρ c b

/-- After the host stretch between the second and the third call (the third call's entry). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At the third call's exit. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the closing reduction and division: the contents the program ends with. -/
abbrev W9 : Dev nD → Valuation τ sig (Elt F) := fun c => StableHlo.after hostOps3 (W8 m ρ c)

/-! ### The arguments end as launched: no host operation and no call writes one (a call reads it through an input
    window or not at all), so the fold at an argument's buffer walks back to the launch memory -/

theorem W6_of_ne (c : Dev nD) (b : Ref sig .tc) (h0 : b ≠ main_v25_0) (h1 : b ≠ main_v25_1) :
    W6 m ρ c (Proc.devRef .tc b) = W5 m ρ c (Proc.devRef .tc b) := by
  unfold W6
  rw [Function.update_of_ne (StableHlo.devRef_ne_of_ne h1 : (Proc.devRef .tc b : DevRef τ sig) ≠ Proc.devRef .tc main_v25_1),
    Function.update_of_ne (StableHlo.devRef_ne_of_ne h0 : (Proc.devRef .tc b : DevRef τ sig) ≠ Proc.devRef .tc main_v25_0)]

/-- A buffer no stretch writes, no output window of the second or third call names, and the first call leaves as
    entered ends at its launch contents. -/
theorem W9_of (c : Dev nD) (r : Ref sig .tc) (h3 : r ∉ hostOps3_W) (h8 : ∀ w, Pipeline.arrRef spec2 w ≠ r) (h2 : r ∉ hostOps2_W)
    (h60 : r ≠ main_v25_0) (h61 : r ≠ main_v25_1) (h1 : r ∉ hostOps1_W)
    (h4 : W4 m ρ c (Proc.devRef .tc r) = W3 m ρ c (Proc.devRef .tc r))
    (h02 : r ∉ hostOps0_2_W) (h01 : r ∉ hostOps0_1_W) (h00 : r ∉ hostOps0_W) :
    W9 m ρ c (Proc.devRef .tc r) = m ((c : Thread nD τ).loc r) :=
  calc W9 m ρ c (Proc.devRef .tc r)
    _ = W8 m ρ c (Proc.devRef .tc r) := StableHlo.after_of_writes_sub hostOps3 _ hostOps3_writes h3
    _ = W7 m ρ c (Proc.devRef .tc r) := W8_of_ne m ρ c r h8
    _ = W6 m ρ c (Proc.devRef .tc r) := StableHlo.after_of_writes_sub hostOps2 _ hostOps2_writes h2
    _ = W5 m ρ c (Proc.devRef .tc r) := W6_of_ne m ρ c r h60 h61
    _ = W4 m ρ c (Proc.devRef .tc r) := StableHlo.after_of_writes_sub hostOps1 _ hostOps1_writes h1
    _ = W3 m ρ c (Proc.devRef .tc r) := h4
    _ = W2 m ρ c (Proc.devRef .tc r) := StableHlo.after_of_writes_sub hostOps0_2 _ hostOps0_2_writes h02
    _ = W1 m ρ c (Proc.devRef .tc r) := StableHlo.after_of_writes_sub hostOps0_1 _ hostOps0_1_writes h01
    _ = W0 m ρ c (Proc.devRef .tc r) := StableHlo.after_of_writes_sub hostOps0 _ hostOps0_writes h00
    _ = m ((c : Thread nD τ).loc r) := rfl

theorem W9_main_arg0 (c : Dev nD) : W9 m ρ c (Proc.devRef .tc main_arg0) = m ((c : Thread nD τ).loc main_arg0) :=
  W9_of m ρ c main_arg0 (by decide) (by decide) (by decide) (by decide) (by decide) (by decide)
    ((W4_arr m ρ c 0).trans (((dat0 (V3 m ρ) c).arrAt_in 0 rfl _).trans (A_eq0 (V3 m ρ) c 0)))
    (by decide) (by decide) (by decide)
theorem W9_main_arg1 (c : Dev nD) : W9 m ρ c (Proc.devRef .tc main_arg1) = m ((c : Thread nD τ).loc main_arg1) :=
  W9_of m ρ c main_arg1 (by decide) (by decide) (by decide) (by decide) (by decide) (by decide)
    (W4_of_ne m ρ c main_arg1 (by decide)) (by decide) (by decide) (by decide)
theorem W9_main_arg2 (c : Dev nD) : W9 m ρ c (Proc.devRef .tc main_arg2) = m ((c : Thread nD τ).loc main_arg2) :=
  W9_of m ρ c main_arg2 (by decide) (by decide) (by decide) (by decide) (by decide) (by decide)
    (W4_of_ne m ρ c main_arg2 (by decide)) (by decide) (by decide) (by decide)
theorem W9_main_arg3 (c : Dev nD) : W9 m ρ c (Proc.devRef .tc main_arg3) = m ((c : Thread nD τ).loc main_arg3) :=
  W9_of m ρ c main_arg3 (by decide) (by decide) (by decide) (by decide) (by decide) (by decide)
    (W4_of_ne m ρ c main_arg3 (by decide)) (by decide) (by decide) (by decide)
theorem W9_main_arg4 (c : Dev nD) : W9 m ρ c (Proc.devRef .tc main_arg4) = m ((c : Thread nD τ).loc main_arg4) :=
  W9_of m ρ c main_arg4 (by decide) (by decide) (by decide) (by decide) (by decide) (by decide)
    ((W4_arr m ρ c 1).trans (((dat0 (V3 m ρ) c).arrAt_in 1 rfl _).trans (A_eq0 (V3 m ρ) c 1)))
    (by decide) (by decide) (by decide)
theorem W9_main_arg5 (c : Dev nD) : W9 m ρ c (Proc.devRef .tc main_arg5) = m ((c : Thread nD τ).loc main_arg5) :=
  W9_of m ρ c main_arg5 (by decide) (by decide) (by decide) (by decide) (by decide) (by decide)
    (W4_of_ne m ρ c main_arg5 (by decide)) (by decide) (by decide) (by decide)

theorem W6_v25_1 (c : Dev nD) : W6 m ρ c (Proc.devRef .tc main_v25_1) = (dat1 (V5 m ρ) c).arrAt 5 cfg1.N := by
  unfold W6; exact Function.update_self ..
theorem W6_v25_0 (c : Dev nD) : W6 m ρ c (Proc.devRef .tc main_v25_0) = (dat1 (V5 m ρ) c).arrAt 4 cfg1.N := by
  unfold W6
  rw [Function.update_of_ne (StableHlo.devRef_ne_of_ne (by decide) : (Proc.devRef .tc main_v25_0 : DevRef τ sig) ≠ Proc.devRef .tc main_v25_1)]
  exact Function.update_self ..

/-! ## The second call's arrays: two input windows read one array, each holding half of its buffer -/

section Shared
variable (V : (c : Dev nD) → (b : Ref sig .tc) → Buf (Elt F) ((c : Thread nD τ).loc b))

/-- The five distinct buffers behind the second call's six arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v22) ↦{fullShare} V' main_v22) ∗ (((c : Thread nD τ).loc main_v23) ↦{fullShare} V' main_v23)
          ∗ (((c : Thread nD τ).loc main_v24) ↦{fullShare} V' main_v24) ∗ (((c : Thread nD τ).loc main_v25_0) ↦{fullShare} V' main_v25_0)
          ∗ (((c : Thread nD τ).loc main_v25_1) ↦{fullShare} V' main_v25_1)) :=
  bigSep_eq_bigSepL_of_eq [main_v22, main_v23, main_v24, main_v25_0, main_v25_1] (by decide) (by decide) _

/-- The second call's arrays as the proof data hold them: the shared array by halves, the others whole. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v22) ↦{fullShare.left} G 0) ∗ (((c : Thread nD τ).loc main_v22) ↦{fullShare.right} G 1)
          ∗ (((c : Thread nD τ).loc main_v23) ↦{fullShare} G 2) ∗ (((c : Thread nD τ).loc main_v24) ↦{fullShare} G 3)
          ∗ (((c : Thread nD τ).loc main_v25_0) ↦{fullShare} G 4) ∗ (((c : Thread nD τ).loc main_v25_1) ↦{fullShare} G 5)) := by
  unfold Dat.arrays
  rw [bigSep_W1, (arr_whole1 0).set_eq_univ, (arr_whole1 2).set_eq_univ, (arr_whole1 3).set_eq_univ,
    (arr_whole1 4).set_eq_univ, (arr_whole1 5).set_eq_univ]
  rfl

end Shared

section Shared2
variable (V : (c : Dev nD) → (b : Ref sig .tc) → Buf (Elt F) ((c : Thread nD τ).loc b))

/-- ENTRY: the buffers behind the arrays, whole at the entry contents, are the proof data's arrays at entry — the
    shared array's buffer split into its two halves, one per window reading it. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H22, H23, H24, H250, H251⟩
  ihave H := (pointsTo_share (PosShare.mem_left_op_right fullShare)).1 $$ H22
  icases H with ⟨Hl, Hr⟩
  isplitl [Hl]; · iexact Hl
  isplitl [Hr]; · iexact Hr
  isplitl [H23]; · iexact H23
  isplitl [H24]; · iexact H24
  isplitl [H250]; · iexact H250
  iexact H251

/-- EXIT: the proof data's arrays at their final contents — the inputs as entered, the halves of the shared array's
    buffer joined again — and the unscoped rest are the core's unscoped buffers at any valuation that has the two
    outputs at what the pipeline leaves and agrees with the entry contents elsewhere. -/
theorem hjoin1 (c : Dev nD) (V' : (b : Ref sig .tc) → Buf (Elt F) ((c : Thread nD τ).loc b))
    (h22 : V' main_v22 = V c main_v22) (h23 : V' main_v23 = V c main_v23) (h24 : V' main_v24 = V c main_v24)
    (h4 : V' main_v25_0 = (dat1 V c).arrAt 4 cfg1.N) (h5 : V' main_v25_1 = (dat1 V c).arrAt 5 cfg1.N)
    (hrest : ∀ b, b ∉ Finset.univ.image (Pipeline.arrRef spec1) → V' b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest spec1 c V' : sProp 𝕄) = Pipeline.unscopedRest spec1 c (V c) := by
    unfold Pipeline.unscopedRest
    exact bigSep_congr fun b hb => by rw [hrest b (Finset.mem_sdiff.mp hb).2]
  have e0 : (dat1 V c).arrAt 0 cfg1.N = V c main_v22 := ((dat1 V c).arrAt_in 0 rfl _).trans (A_eq1 V c 0)
  have e1 : (dat1 V c).arrAt 1 cfg1.N = V c main_v22 := ((dat1 V c).arrAt_in 1 rfl _).trans (A_eq1 V c 1)
  have e2 : (dat1 V c).arrAt 2 cfg1.N = V c main_v23 := ((dat1 V c).arrAt_in 2 rfl _).trans (A_eq1 V c 2)
  have e3 : (dat1 V c).arrAt 3 cfg1.N = V c main_v24 := ((dat1 V c).arrAt_in 3 rfl _).trans (A_eq1 V c 3)
  rw [hs, hr, arrBufs1_eq, arrays1_eq, h22, h23, h24, h4, h5, e0, e1, e2, e3]
  iintro ⟨⟨Hl, Hr, H23, H24, H250, H251⟩, Hrest⟩
  isplitr [Hrest]
  swap; · iexact Hrest
  isplitl [Hl Hr]
  · iapply (pointsTo_share (PosShare.mem_left_op_right fullShare)).2
    isplitl [Hl] <;> iassumption
  isplitl [H23]; · iexact H23
  isplitl [H24]; · iexact H24
  isplitl [H250]; · iexact H250
  iexact H251

end Shared2

/-! ## The proof data family and the thread state -/

/-- Every call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- Call 0 over the thread state: entered from every unscoped buffer at the boundary's contents, left at the next
    boundary's. Its arrays are split out of the unscoped buffers and put back at the exit contents; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at the boundary's contents, left at the next
    boundary's. Two of its input windows read one array: at entry that array's buffer is split into two halves, one
    per window, and at exit the halves are joined again; the two outputs are put back at what the pipeline leaves. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hent : (StableHlo.held (c : Thread nD τ) (Pipeline.ucRefs τ sig) (W5 m ρ c) : sProp 𝕄)
        ⊢ iprop((dat1 (V5 m ρ) c).arrays ((dat1 (V5 m ρ) c).arrAt · 0) ∗ Pipeline.unscopedRest spec1 c (V5 m ρ c)) := by
      rw [← Pipeline.unscopedBufs_held (Ix := Unit) (Name := ℕ) (U := UR sig nD τ) (Lvl := ℕ) c (W5 m ρ c),
        Pipeline.unscopedBufs_split₀ cfgs 1 winFacts₀1.arr_unscoped c]
      exact sep_mono (hsplit1 (V5 m ρ) c) .rfl
    iintro ⟨⟨Hub, Hp, HO⟩, -, -⟩
    ihave H := hent $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V5 m ρ) c)
    unfold Pipeline.ΦA
    iintro ⟨Hp, -, Hr⟩
    isplitl [Hr]; · iexact Hr
    iexact Hp
  hout c := by
    rw [Pipeline.ownSems0_none]
    refine BIBase.Entails.trans (hout1 (V5 m ρ) c) ?_
    unfold Pipeline.ΦA
    iintro ⟨Hr, Hp⟩
    isplitl [Hp]; · iexact Hp
    isplitr; · iempintro
    iexact Hr
  hexit c := by
    have hjoin := hjoin1 (V5 m ρ) c (V6 m ρ c) (W6_of_ne m ρ c main_v22 (by decide) (by decide)) (W6_of_ne m ρ c main_v23 (by decide) (by decide))
      (W6_of_ne m ρ c main_v24 (by decide) (by decide)) (W6_v25_0 m ρ c) (W6_v25_1 m ρ c)
      (fun b hb => W6_of_ne m ρ c b (fun e => hb (e ▸ (by decide : main_v25_0 ∈ Finset.univ.image (Pipeline.arrRef spec1))))
        (fun e => hb (e ▸ (by decide : main_v25_1 ∈ Finset.univ.image (Pipeline.arrRef spec1)))))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at the boundary's contents, left at the next
    boundary's. Its arrays are split out of the unscoped buffers and put back at the exit contents; the generator
    register goes into the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The program is the run of the segments. -/
theorem main_run (c : Dev nD) : main (F := F) c = Pipeline.Seg.run (segs m ρ) := (main_chain c).trans (by chain_rfl)

set_option backward.isDefEq.respectTransparency.types false in
/-- The run, at any post that follows from the final contents of every unscoped buffer: from any memory with zero
    counters, every weakly fair execution of the program on the TensorCores terminates, nothing faulting, and every
    final state holds each unscoped buffer at the last boundary's contents. -/
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W9 m ρ c) ∗ (∃ r, prngReg c r) ∗ ∃ W, owes (c : Thread nD τ) (0 : CellTallies nD τ sig Unit) W)
          ⊢ iprop(Tₙ m ρ c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- THE RUN: every final state holds each unscoped buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  run_gen m ρ fun s h => h

/-- THE FRAME: from any memory with zero counters every weakly fair execution of the program terminates, nothing
    faulting, and every final state has the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_gen m ρ fun s h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩

end Cert.KernelIdeal.Hand

end
-- ==== Proof.Spec.lean ====
import Idealize.ShloMosaic.PureOps.Ideal
import Idealize.ShloMosaic.PureOps.Ideal.Laws
import Idealize.ShloMosaic.Lib.ValueIdx

noncomputable section

/-!
  The arithmetic of the three tiled computations, entry by entry, on the extended reals.
  N = 100000 nodes, D = 512 features, P = 4096 parents.
  * first computation: `h = x·W + b`, the weighted features `pw · h` and the sigmoid of `h`;
  * second: with `s(p, j) = 2 · ⟨kp_p, kp_j⟩` and `a(p, j) = exp (min (s(p, j)) 30)`, the two message tables
    `∑_j (a(p, j) · A(p, j)) · kn(j, k)` and `∑_j a(p, j) · kn(j, k)`;
  * third: per node, the row of `q · posᵀ` selected at the node's parent by an equality mask and summed over the parent
    axis, the same for `neg`, and `(0 − log ·) + log ·`.
-/
namespace Cert.Spec

open Idealize.ShloMosaic Idealize.ShloMosaic.ValueIdx

abbrev SNxD : Shape := ⟨2, ![100000, 512]⟩
abbrev SDxD : Shape := ⟨2, ![512, 512]⟩
abbrev S1xD : Shape := ⟨2, ![1, 512]⟩
abbrev SNx1 : Shape := ⟨2, ![100000, 1]⟩
abbrev SPxD : Shape := ⟨2, ![4096, 512]⟩
abbrev SPxP : Shape := ⟨2, ![4096, 4096]⟩

/-- `h(n, k) = ∑_d x(n, d) · W(d, k) + b(k)`. -/
def hS (x : SNxD.Idx → EReal) (W : SDxD.Idx → EReal) (b2 : S1xD.Idx → EReal) (n : Fin 100000) (k : Fin 512) : EReal :=
  (∑ d : Fin 512, x (ix2 n d) * W (ix2 d k)) + b2 (ix2 (0 : Fin 1) k)

/-- The weighted feature `pw(n) · h(n, k)`. -/
def whS (x : SNxD.Idx → EReal) (W : SDxD.Idx → EReal) (b2 : S1xD.Idx → EReal) (pw2 : SNx1.Idx → EReal)
    (n : Fin 100000) (k : Fin 512) : EReal :=
  pw2 (ix2 n (0 : Fin 1)) * hS x W b2 n k

/-- The sigmoid `1 / (1 + exp (−h(n, k)))`. -/
def qS (x : SNxD.Idx → EReal) (W : SDxD.Idx → EReal) (b2 : S1xD.Idx → EReal) (n : Fin 100000) (k : Fin 512) : EReal :=
  Ideal.logistic (hS x W b2 n k)

/-- A table's rows divided by the larger of their Euclidean norm and a floor `e`:
    `k(p, d) / max (sqrt (0 + ∑_d' k(p, d')²)) e`. -/
def normRows (k : SPxD.Idx → EReal) (e : EReal) : SPxD.Idx → EReal :=
  fun i => Ideal.div (k i) (max (Ideal.sqrt (0 + ∑ d : Fin 512, k (ix2 (i 0) d) * k (ix2 (i 0) d))) e)

/-- The attention weight without a guard, the scaled product as a quotient by one half:
    `exp ((∑_d kp(p, d) · kp(j, d)) / h)`. -/
def attRefS (kp : SPxD.Idx → EReal) (h : EReal) (p j : Fin 4096) : EReal :=
  Ideal.exp (Ideal.div (∑ d : Fin 512, kp (ix2 p d) * kp (ix2 j d)) h)

/-- The scaled inner product of two rows, `⟨kp_p, kp_j⟩ · 2`. -/
def sS (kp : SPxD.Idx → EReal) (p j : Fin 4096) : EReal :=
  (∑ d : Fin 512, kp (ix2 p d) * kp (ix2 j d)) * 2

/-- The attention weight with the guard on the exponent: `exp (min (s(p, j)) 30)`. -/
def attS (kp : SPxD.Idx → EReal) (p j : Fin 4096) : EReal :=
  Ideal.exp (min (sS kp p j) 30)

/-- The masked message `∑_j (a(p, j) · A(p, j)) · kn(j, k)`. -/
def posS (kp kn : SPxD.Idx → EReal) (ap : SPxP.Idx → EReal) (p : Fin 4096) (k : Fin 512) : EReal :=
  ∑ j : Fin 4096, (attS kp p j * ap (ix2 p j)) * kn (ix2 j k)

/-- The full message `∑_j a(p, j) · kn(j, k)`. -/
def negS (kp kn : SPxD.Idx → EReal) (p : Fin 4096) (k : Fin 512) : EReal :=
  ∑ j : Fin 4096, attS kp p j * kn (ix2 j k)

/-- A node's score against a message table: the products `⟨q_n, msg_p⟩` kept where the node's parent word is the
    parent's number, zero elsewhere, summed over the parents. -/
def scoreS (q : SNxD.Idx → EReal) (ids : SNx1.Idx → BitVec 32) (msg : SPxD.Idx → EReal) (n : Fin 100000) : EReal :=
  ∑ p : Fin 4096, if ids (ix2 n (0 : Fin 1)) = BitVec.ofNat 32 p.val then (∑ d : Fin 512, q (ix2 n d) * msg (ix2 p d)) else 0

/-- A node's loss: `(0 − log (score against pos)) + log (score against neg)`. -/
def lossS (q : SNxD.Idx → EReal) (ids : SNx1.Idx → BitVec 32) (pos neg : SPxD.Idx → EReal) (n : Fin 100000) : EReal :=
  (0 - Ideal.log (scoreS q ids pos n)) + Ideal.log (scoreS q ids neg n)

end Cert.Spec

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.KI.EncValue.lean ====
import proofs.«406706_j73478300500058_3_alg».proof.Proof.KI.Enc
import proofs.«406706_j73478300500058_3_alg».proof.Proof.Spec
import proofs.«406706_j73478300500058_3_alg».proof.Proof.LibColumns
import Idealize.ShloMosaic.Lib.ValueIdx
import Idealize.ShloMosaic.Lib.ValueLayout
import Idealize.ShloMosaic.Lib.Pipeline.Value
import Idealize.ShloMosaic.PureOps.Ideal.Laws

/-!
  The first tiled computation read entry by entry on the extended reals: the weighted-feature array ends holding
  `pw(n) · (∑_d x(n, d) · W(d, k) + b(k))` and the sigmoid array the sigmoid of that sum plus bias, at every
  `(n, k)`. First the body's three payloads at an index of a 1000-row block; then what a grid point writes back, as
  the block of one whole-array function; then the 100 blocks of 1000 rows cover the 100000 rows.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

/-! ## The product's operand indices, axis by axis -/

theorem lhs_enc_0 (i : S1000x512.Idx) (q : dot_S1000x512_S512x512_S1000x512_1_0_0_1_n_n.contr.Idx) :
    (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs_enc_1 (i : S1000x512.Idx) (q : dot_S1000x512_S512x512_S1000x512_1_0_0_1_n_n.contr.Idx) :
    (dot_S1000x512_S512x512_S1000x512_1_0_0_1_n_n.lhsIdx i q 1).val = (q ⟨0, by decide⟩).val :=
  dot_S1000x512_S512x512_S1000x512_1_0_0_1_n_n.lhsIdx_val_of_single rfl i q
theorem rhs_enc_0 (i : S1000x512.Idx) (q : dot_S1000x512_S512x512_S1000x512_1_0_0_1_n_n.contr.Idx) :
    (dot_S1000x512_S512x512_S1000x512_1_0_0_1_n_n.rhsIdx i q 0).val = (q ⟨0, by decide⟩).val :=
  dot_S1000x512_S512x512_S1000x512_1_0_0_1_n_n.rhsIdx_val_of_single rfl i q
theorem rhs_enc_1 (i : S1000x512.Idx) (q : dot_S1000x512_S512x512_S1000x512_1_0_0_1_n_n.contr.Idx) :
    (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- The block product into a zero accumulator, at `(p, q)`: row `p` of the left operand against column `q` of the right. -/
theorem matmul_enc_apply {φ₁ φ₂ : FTy} (a : FVec Ideal S1000x512 φ₁) (b : FVec Ideal S512x512 φ₂) (p : Fin 1000) (q : Fin 512) :
    matmul dot_S1000x512_S512x512_S1000x512_1_0_0_1_n_n none a b (constant (F := Ideal) S1000x512 .f32 0x00000000#32) (ix2 p q)
      = ∑ d : Fin 512, a (ix2 p d) * b (ix2 d q) := by
  simp only [matmul]
  rw [Ideal.matmul_constant_zero_apply, ← Equiv.sum_comp (ValueIdx.contrEquiv1 dot_S1000x512_S512x512_S1000x512_1_0_0_1_n_n 512 rfl rfl).symm]
  refine Finset.sum_congr rfl fun k _ => ?_
  have hk := ValueIdx.contrEquiv1_symm_val dot_S1000x512_S512x512_S1000x512_1_0_0_1_n_n 512 rfl rfl k
  have el : dot_S1000x512_S512x512_S1000x512_1_0_0_1_n_n.lhsIdx (ix2 p q) ((ValueIdx.contrEquiv1 dot_S1000x512_S512x512_S1000x512_1_0_0_1_n_n 512 rfl rfl).symm k) = ix2 p k := funext fun a => Fin.ext (by
    match a with
    | ⟨0, _⟩ => exact lhs_enc_0 _ _
    | ⟨1, _⟩ => exact (lhs_enc_1 _ _).trans hk)
  have er : dot_S1000x512_S512x512_S1000x512_1_0_0_1_n_n.rhsIdx (ix2 p q) ((ValueIdx.contrEquiv1 dot_S1000x512_S512x512_S1000x512_1_0_0_1_n_n 512 rfl rfl).symm k) = ix2 k q := funext fun a => Fin.ext (by
    match a with
    | ⟨0, _⟩ => exact (rhs_enc_0 _ _).trans hk
    | ⟨1, _⟩ => exact rhs_enc_1 _ _)
  rw [el, er]

/-! ## The body's payloads at an index of a block -/

/-- The linear layer on a block: `∑_d x(p, d) · W(d, q) + b(q)`. -/
theorem k0_pay1_apply (x0 : Vec Ideal S1000x512 .f32) (x1 : Vec Ideal S512x512 .f32) (x2 : Vec Ideal S1x512 .f32) (p : Fin 1000) (q : Fin 512) :
    k0_pay1 x0 x1 x2 (ix2 p q) = (∑ d : Fin 512, x0 (ix2 p d) * x1 (ix2 d q)) + x2 (ix2 (0 : Fin 1) q) := by
  unfold k0_pay1
  rw [addf_apply, matmul_enc_apply, broadcastTo_1b_ab_apply, shapeCast_self]
  rfl

/-- The weighted features on a block: the row's weight times the linear layer. -/
theorem k0_pay2_apply (x0 : Vec Ideal S1000x512 .f32) (x1 : Vec Ideal S512x512 .f32) (x2 : Vec Ideal S1x512 .f32) (x3 : Vec Ideal S1000x1 .f32)
    (p : Fin 1000) (q : Fin 512) :
    k0_pay2 x0 x1 x2 x3 (ix2 p q) = x3 (ix2 p (0 : Fin 1)) * ((∑ d : Fin 512, x0 (ix2 p d) * x1 (ix2 d q)) + x2 (ix2 (0 : Fin 1) q)) := by
  unfold k0_pay2
  rw [mulf_apply, k0_pay1_apply, Cert.Columns.broadcastTo_a1_ab_apply, shapeCast_self]

/-- The sigmoid block: the sigmoid of the linear layer. -/
theorem k0_pay3_apply (x0 : Vec Ideal S1000x512 .f32) (x1 : Vec Ideal S512x512 .f32) (x2 : Vec Ideal S1x512 .f32) (p : Fin 1000) (q : Fin 512) :
    k0_pay3 x0 x1 x2 (ix2 p q) = Ideal.logistic ((∑ d : Fin 512, x0 (ix2 p d) * x1 (ix2 d q)) + x2 (ix2 (0 : Fin 1) q)) := by
  unfold k0_pay3
  rw [truncf_apply]
  show Ideal.logistic (k0_pay1 x0 x1 x2 (ix2 p q)) = _
  rw [k0_pay1_apply]

/-! ## A block entry as an entry of the whole arrays -/

/-- The weighted-feature payload at `(p, q)` of a block whose rows are rows `n` of the arrays and whose columns are
    columns `k`: the specification's weighted feature at `(n, k)`. -/
theorem wh_point_enc (x0 : Vec Ideal S1000x512 .f32) (x1 : Vec Ideal S512x512 .f32) (x2 : Vec Ideal S1x512 .f32) (x3 : Vec Ideal S1000x1 .f32)
    (A : S100000x512.Idx → EReal) (W : S512x512.Idx → EReal) (B : S1x512.Idx → EReal) (P : S100000x1.Idx → EReal)
    (p : Fin 1000) (q : Fin 512) (n : Fin 100000) (k : Fin 512)
    (h0 : ∀ d : Fin 512, x0 (ix2 p d) = A (ix2 n d)) (h1 : ∀ d : Fin 512, x1 (ix2 d q) = W (ix2 d k))
    (h2 : x2 (ix2 (0 : Fin 1) q) = B (ix2 (0 : Fin 1) k)) (h3 : x3 (ix2 p (0 : Fin 1)) = P (ix2 n (0 : Fin 1))) :
    k0_pay2 x0 x1 x2 x3 (ix2 p q) = whS A W B P n k := by
  have hs : (∑ d : Fin 512, x0 (ix2 p d) * x1 (ix2 d q)) = ∑ d : Fin 512, A (ix2 n d) * W (ix2 d k) :=
    Finset.sum_congr rfl fun d _ => by rw [h0 d, h1 d]
  rw [k0_pay2_apply, hs, h2, h3]
  rfl

/-- The sigmoid payload likewise: the specification's sigmoid at `(n, k)`. -/
theorem q_point_enc (x0 : Vec Ideal S1000x512 .f32) (x1 : Vec Ideal S512x512 .f32) (x2 : Vec Ideal S1x512 .f32)
    (A : S100000x512.Idx → EReal) (W : S512x512.Idx → EReal) (B : S1x512.Idx → EReal)
    (p : Fin 1000) (q : Fin 512) (n : Fin 100000) (k : Fin 512)
    (h0 : ∀ d : Fin 512, x0 (ix2 p d) = A (ix2 n d)) (h1 : ∀ d : Fin 512, x1 (ix2 d q) = W (ix2 d k))
    (h2 : x2 (ix2 (0 : Fin 1) q) = B (ix2 (0 : Fin 1) k)) :
    k0_pay3 x0 x1 x2 (ix2 p q) = qS A W B n k := by
  have hs : (∑ d : Fin 512, x0 (ix2 p d) * x1 (ix2 d q)) = ∑ d : Fin 512, A (ix2 n d) * W (ix2 d k) :=
    Finset.sum_congr rfl fun d _ => by rw [h0 d, h1 d]
  rw [k0_pay3_apply, hs, h2]
  rfl

/-! ## What a grid point writes back -/

theorem zeros2_enc : (![0, 0] : Fin 2 → Nat) = fun _ => 0 := funext fun a => by fin_cases a <;> rfl

/-- The block index maps over the 100 points: the row-blocked windows are at row block `t`, the whole-array
    windows at block zero, every window at column block zero. -/
theorem idx_enc : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-- The weighted-feature array as one function of the arrays the call finds. -/
abbrev whG (c : Dev nD) : S100000x512.Idx → EReal :=
  fun i => whS (V c main_arg0) (V c main_arg4) (V c main_v1) (V c main_v2) (i 0) (i 1)
/-- The sigmoid array as one function of them. -/
abbrev qG (c : Dev nD) : S100000x512.Idx → EReal :=
  fun i => qS (V c main_arg0) (V c main_arg4) (V c main_v1) (i 0) (i 1)

/-- Point `t` writes back block `t` of the weighted-feature function. -/
theorem flushed4_eq (c : Dev nD) (t : Fin cfg0.N) :
    (dat0 (F := Ideal) V c).flushed 4 t = ((cfg0.win 4).blk t).view.read (Elt Ideal) (whG V c) := by
  show (cfg0.win 4).cut (grid0.coords t) ((dat0 V c).after 4 t) = _
  rw [after0_4]
  unfold out0_4
  rw [View.canon_unit_zero zeros2_enc]
  simp only [View.ld_unit_zero (S := S1000x512) zeros2_enc, View.ld_unit_zero (S := S512x512) zeros2_enc,
    View.ld_unit_zero (S := S1x512) zeros2_enc, View.ld_unit_zero (S := S1000x1) zeros2_enc]
  obtain ⟨e00, e01, e10, e11, e20, e21, e30, e31, e40, e41, e50, e51⟩ := idx_enc t
  funext j
  obtain ⟨p, q, rfl⟩ : ∃ (p : Fin 1000) (q : Fin 512), j = ix2 p q := ⟨j 0, j 1, eq_ix2 j⟩
  show k0_pay2 (iblk0 V c 0 t) (iblk0 V c 1 t) (iblk0 V c 2 t) (iblk0 V c 3 t) (ix2 p q)
    = whS (V c main_arg0) (V c main_arg4) (V c main_v1) (V c main_v2)
        ((((cfg0.win 4).blk t).view.emb (ix2 p q)) 0) ((((cfg0.win 4).blk t).view.emb (ix2 p q)) 1)
  refine wh_point_enc _ _ _ _ _ _ _ _ p q _ _ (fun d => ?_) (fun d => ?_) ?_ ?_
  · show V c main_arg0 (((cfg0.win 0).blk t).view.emb (ix2 p d)) = V c main_arg0 (ix2 _ d)
    congr 1; funext a; apply Fin.ext
    match a with
    | ⟨0, _⟩ => show win0_0.index t (0 : Fin 2) * 1000 + 1 * p.val = win0_4.index t (0 : Fin 2) * 1000 + 1 * p.val; omega
    | ⟨1, _⟩ => show win0_0.index t (1 : Fin 2) * 512 + 1 * d.val = d.val; omega
  · show V c main_arg4 (((cfg0.win 1).blk t).view.emb (ix2 d q)) = V c main_arg4 (ix2 d _)
    congr 1; funext a; apply Fin.ext
    match a with
    | ⟨0, _⟩ => show win0_1.index t (0 : Fin 2) * 512 + 1 * d.val = d.val; omega
    | ⟨1, _⟩ => show win0_1.index t (1 : Fin 2) * 512 + 1 * q.val = win0_4.index t (1 : Fin 2) * 512 + 1 * q.val; omega
  · show V c main_v1 (((cfg0.win 2).blk t).view.emb (ix2 (0 : Fin 1) q)) = V c main_v1 (ix2 (0 : Fin 1) _)
    congr 1; funext a; apply Fin.ext
    match a with
    | ⟨0, _⟩ => show win0_2.index t (0 : Fin 2) * 1 + 1 * 0 = 0; omega
    | ⟨1, _⟩ => show win0_2.index t (1 : Fin 2) * 512 + 1 * q.val = win0_4.index t (1 : Fin 2) * 512 + 1 * q.val; omega
  · show V c main_v2 (((cfg0.win 3).blk t).view.emb (ix2 p (0 : Fin 1))) = V c main_v2 (ix2 _ (0 : Fin 1))
    congr 1; funext a; apply Fin.ext
    match a with
    | ⟨0, _⟩ => show win0_3.index t (0 : Fin 2) * 1000 + 1 * p.val = win0_4.index t (0 : Fin 2) * 1000 + 1 * p.val; omega
    | ⟨1, _⟩ => show win0_3.index t (1 : Fin 2) * 1 + 1 * 0 = 0; omega

end

section
variable (V : (c : Dev nD) → (b : Ref sig .tc) → Buf (Elt Ideal) ((c : Thread nD τ).loc b))

/-- Point `t` writes back block `t` of the sigmoid function. -/
theorem flushed5_eq (c : Dev nD) (t : Fin cfg0.N) :
    (dat0 (F := Ideal) V c).flushed 5 t = ((cfg0.win 5).blk t).view.read (Elt Ideal) (qG V c) := by
  show (cfg0.win 5).cut (grid0.coords t) ((dat0 V c).after 5 t) = _
  rw [after0_5]
  unfold out0_5
  rw [View.canon_unit_zero zeros2_enc]
  simp only [View.ld_unit_zero (S := S1000x512) zeros2_enc, View.ld_unit_zero (S := S512x512) zeros2_enc,
    View.ld_unit_zero (S := S1x512) zeros2_enc]
  obtain ⟨e00, e01, e10, e11, e20, e21, e30, e31, e40, e41, e50, e51⟩ := idx_enc t
  funext j
  obtain ⟨p, q, rfl⟩ : ∃ (p : Fin 1000) (q : Fin 512), j = ix2 p q := ⟨j 0, j 1, eq_ix2 j⟩
  show k0_pay3 (iblk0 V c 0 t) (iblk0 V c 1 t) (iblk0 V c 2 t) (ix2 p q)
    = qS (V c main_arg0) (V c main_arg4) (V c main_v1)
        ((((cfg0.win 5).blk t).view.emb (ix2 p q)) 0) ((((cfg0.win 5).blk t).view.emb (ix2 p q)) 1)
  refine q_point_enc _ _ _ _ _ _ p q _ _ (fun d => ?_) (fun d => ?_) ?_
  · show V c main_arg0 (((cfg0.win 0).blk t).view.emb (ix2 p d)) = V c main_arg0 (ix2 _ d)
    congr 1; funext a; apply Fin.ext
    match a with
    | ⟨0, _⟩ => show win0_0.index t (0 : Fin 2) * 1000 + 1 * p.val = win0_5.index t (0 : Fin 2) * 1000 + 1 * p.val; omega
    | ⟨1, _⟩ => show win0_0.index t (1 : Fin 2) * 512 + 1 * d.val = d.val; omega
  · show V c main_arg4 (((cfg0.win 1).blk t).view.emb (ix2 d q)) = V c main_arg4 (ix2 d _)
    congr 1; funext a; apply Fin.ext
    match a with
    | ⟨0, _⟩ => show win0_1.index t (0 : Fin 2) * 512 + 1 * d.val = d.val; omega
    | ⟨1, _⟩ => show win0_1.index t (1 : Fin 2) * 512 + 1 * q.val = win0_5.index t (1 : Fin 2) * 512 + 1 * q.val; omega
  · show V c main_v1 (((cfg0.win 2).blk t).view.emb (ix2 (0 : Fin 1) q)) = V c main_v1 (ix2 (0 : Fin 1) _)
    congr 1; funext a; apply Fin.ext
    match a with
    | ⟨0, _⟩ => show win0_2.index t (0 : Fin 2) * 1 + 1 * 0 = 0; omega
    | ⟨1, _⟩ => show win0_2.index t (1 : Fin 2) * 512 + 1 * q.val = win0_5.index t (1 : Fin 2) * 512 + 1 * q.val; omega

/-! ## The 100 blocks of 1000 rows cover the arrays -/

/-- An index is in point `t`'s block of the weighted-feature array iff each coordinate is in the block's range. -/
theorem mem_blk4_enc (t : Fin cfg0.N) (i : S100000x512.Idx) :
    i ∈ ((cfg0.win 4).blk t).view.set ↔ ∀ a : Fin 2, win0_4.index t a * S1000x512.size a ≤ (i a).val ∧ (i a).val < win0_4.index t a * S1000x512.size a + S1000x512.size a := by
  show i ∈ ((View.whole main_v3_0).slice (win0_4.rect t)).set ↔ _
  rw [View.set_slice_whole, Rect.mem_set_unit]
  exact Iff.rfl

/-- The same for the sigmoid array. -/
theorem mem_blk5_enc (t : Fin cfg0.N) (i : S100000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v3_1).slice (win0_5.rect t)).set ↔ _
  rw [View.set_slice_whole, Rect.mem_set_unit]
  exact Iff.rfl

/-- Row `r` is in the block of point `r / 1000`. -/
theorem cover4_enc (i : S100000x512.Idx) :
    ∃ t : Fin cfg0.N, (cfg0.win 4).flush t = true ∧ i ∈ ((cfg0.win 4).blk t).view.set := by
  have hi0 : (i 0).val < 100000 := (i 0).isLt
  have hi1 : (i 1).val < 512 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨e00, e01, e10, e11, e20, e21, e30, e31, e40, e41, e50, e51⟩ := idx_enc t
  refine ⟨t, flush0_4 t, ?_⟩
  rw [mem_blk4_enc]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 512 ≤ (i 1).val ∧ (i 1).val < win0_4.index t (1 : Fin 2) * 512 + 512; omega

theorem cover5_enc (i : S100000x512.Idx) :
    ∃ t : Fin cfg0.N, (cfg0.win 5).flush t = true ∧ i ∈ ((cfg0.win 5).blk t).view.set := by
  have hi0 : (i 0).val < 100000 := (i 0).isLt
  have hi1 : (i 1).val < 512 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨e00, e01, e10, e11, e20, e21, e30, e31, e40, e41, e50, e51⟩ := idx_enc t
  refine ⟨t, flush0_5 t, ?_⟩
  rw [mem_blk5_enc]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 512 ≤ (i 1).val ∧ (i 1).val < win0_5.index t (1 : Fin 2) * 512 + 512; omega

/-! ## The two arrays after the call -/

/-- The weighted-feature array ends holding the weighted-feature function of the arrays the call finds. -/
theorem enc_wh_arr (c : Dev nD) : (dat0 (F := Ideal) V c).arrAt 4 cfg0.N = whG V c :=
  (dat0 (F := Ideal) V c).arrAt_eq_of_cover 4 (whG V c) (fun t _ => flushed4_eq V c t) cover4_enc

/-- The sigmoid array ends holding the sigmoid function of them. -/
theorem enc_q_arr (c : Dev nD) : (dat0 (F := Ideal) V c).arrAt 5 cfg0.N = qG V c :=
  (dat0 (F := Ideal) V c).arrAt_eq_of_cover 5 (qG V c) (fun t _ => flushed5_eq V c t) cover5_enc

end

/-- Entry `(n, k)` of the weighted-feature array after the call: `pw(n) · (∑_d x(n, d) · W(d, k) + b(k))`. -/
theorem enc_wh (V : (c : Dev nD) → (b : Ref sig .tc) → Buf (Elt Ideal) ((c : Thread nD τ).loc b)) (c : Dev nD) (n : Fin 100000) (k : Fin 512) :
    ((dat0 (F := Ideal) V c).arrAt 4 cfg0.N : SNxD.Idx → EReal) (ix2 n k) = whS (V c main_arg0) (V c main_arg4) (V c main_v1) (V c main_v2) n k :=
  congrFun (enc_wh_arr V c) (ix2 n k)

/-- Entry `(n, k)` of the sigmoid array after the call: the sigmoid of `∑_d x(n, d) · W(d, k) + b(k)`. -/
theorem enc_q (V : (c : Dev nD) → (b : Ref sig .tc) → Buf (Elt Ideal) ((c : Thread nD τ).loc b)) (c : Dev nD) (n : Fin 100000) (k : Fin 512) :
    ((dat0 (F := Ideal) V c).arrAt 5 cfg0.N : SNxD.Idx → EReal) (ix2 n k) = qS (V c main_arg0) (V c main_arg4) (V c main_v1) n k :=
  congrFun (enc_q_arr V c) (ix2 n k)

end Cert.KernelIdeal.Hand

end
-- ==== Proof.KI.ScoreValue.lean ====
import proofs.«406706_j73478300500058_3_alg».proof.Proof.KI.Score
import proofs.«406706_j73478300500058_3_alg».proof.Proof.Spec
import proofs.«406706_j73478300500058_3_alg».proof.Proof.LibColumns
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

set_option maxRecDepth 16384

/-!
  The third tiled computation read entry by entry on the extended reals: the loss array it leaves is, at node `n`,
  `(0 − log (score of n against the first table)) + log (score of n against the second)`, a score being the row of
  `q · tableᵀ` kept where the column number is the node's parent word and summed over the columns.

  Three steps: the block's value at a row (the two products as sums over the feature axis, the column-number mask,
  the row sum and its column form); what a grid point writes back, as the block of one whole-array function; the
  500 blocks of 200 rows tile the 100000 rows.
-/

noncomputable section

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

namespace ScoreV

/-! ## The product `q · tableᵀ` at an entry -/

/-- Axis 0 of the left operand is the output's row. -/
theorem scoreDot_lhs_0 (i : S200x4096.Idx) (q : dot_S200x512_S4096x512_S200x4096_1_1_0_0_n_n.contr.Idx) :
    (dot_S200x512_S4096x512_S200x4096_1_1_0_0_n_n.lhsIdx i q 0).val = (i 0).val := by
  unfold DotDims.lhsIdx
  rw [dif_neg (show ¬(0 : Fin S200x512.rank) ∈ dot_S200x512_S4096x512_S200x4096_1_1_0_0_n_n.lhsBatch by decide), dif_pos (show (0 : Fin S200x512.rank) ∈ dot_S200x512_S4096x512_S200x4096_1_1_0_0_n_n.lhsNonContracting by decide)]
  rfl
/-- Axis 1 of the left operand is the contracted feature. -/
theorem scoreDot_lhs_1 (i : S200x4096.Idx) (q : dot_S200x512_S4096x512_S200x4096_1_1_0_0_n_n.contr.Idx) :
    (dot_S200x512_S4096x512_S200x4096_1_1_0_0_n_n.lhsIdx i q 1).val = (q ⟨0, by decide⟩).val :=
  dot_S200x512_S4096x512_S200x4096_1_1_0_0_n_n.lhsIdx_val_of_single rfl i q
/-- Axis 0 of the right operand (a table's row) is the output's column. -/
theorem scoreDot_rhs_0 (i : S200x4096.Idx) (q : dot_S200x512_S4096x512_S200x4096_1_1_0_0_n_n.contr.Idx) :
    (dot_S200x512_S4096x512_S200x4096_1_1_0_0_n_n.rhsIdx i q 0).val = (i 1).val := by
  unfold DotDims.rhsIdx
  rw [dif_neg (show ¬(0 : Fin S4096x512.rank) ∈ dot_S200x512_S4096x512_S200x4096_1_1_0_0_n_n.rhsBatch by decide), dif_pos (show (0 : Fin S4096x512.rank) ∈ dot_S200x512_S4096x512_S200x4096_1_1_0_0_n_n.rhsNonContracting by decide)]
  rfl
/-- Axis 1 of the right operand is the contracted feature. -/
theorem scoreDot_rhs_1 (i : S200x4096.Idx) (q : dot_S200x512_S4096x512_S200x4096_1_1_0_0_n_n.contr.Idx) :
    (dot_S200x512_S4096x512_S200x4096_1_1_0_0_n_n.rhsIdx i q 1).val = (q ⟨0, by decide⟩).val :=
  dot_S200x512_S4096x512_S200x4096_1_1_0_0_n_n.rhsIdx_val_of_single rfl i q

/-- Into a zero accumulator, entry `(r, p)` of the product is `∑_d x(r, d) · y(p, d)`. -/
theorem scoreDot_apply (x : FVec Ideal S200x512 .bf16) (y : FVec Ideal S4096x512 .bf16) (r : Fin 200) (p : Fin 4096) :
    matmul dot_S200x512_S4096x512_S200x4096_1_1_0_0_n_n none x y (constant (F := Ideal) S200x4096 .f32 0x00000000#32) (ix2 r p)
      = ∑ d : Fin 512, x (ix2 r d) * y (ix2 p d) := by
  simp only [matmul]
  rw [Ideal.matmul_constant_zero_apply, ← Equiv.sum_comp (ValueIdx.contrEquiv1 dot_S200x512_S4096x512_S200x4096_1_1_0_0_n_n 512 rfl rfl).symm]
  refine Finset.sum_congr rfl fun k _ => ?_
  have hk := ValueIdx.contrEquiv1_symm_val dot_S200x512_S4096x512_S200x4096_1_1_0_0_n_n 512 rfl rfl k
  have el : dot_S200x512_S4096x512_S200x4096_1_1_0_0_n_n.lhsIdx (ix2 r p) ((ValueIdx.contrEquiv1 dot_S200x512_S4096x512_S200x4096_1_1_0_0_n_n 512 rfl rfl).symm k) = ix2 r k := funext fun a => Fin.ext (by
    match a with
    | ⟨0, _⟩ => exact scoreDot_lhs_0 _ _
    | ⟨1, _⟩ => exact (scoreDot_lhs_1 _ _).trans hk)
  have er : dot_S200x512_S4096x512_S200x4096_1_1_0_0_n_n.rhsIdx (ix2 r p) ((ValueIdx.contrEquiv1 dot_S200x512_S4096x512_S200x4096_1_1_0_0_n_n 512 rfl rfl).symm k) = ix2 p k := funext fun a => Fin.ext (by
    match a with
    | ⟨0, _⟩ => exact scoreDot_rhs_0 _ _
    | ⟨1, _⟩ => exact (scoreDot_rhs_1 _ _).trans hk)
  rw [el, er]

/-! ## The mask, the row sum and its column form -/

/-- A select on the bit of an equality test is the `if` on the equality. -/
theorem select_cmpi_eq {α : Type} {w : Nat} (a b : BitVec w) (A B : α) :
    Scalar.select (IntOp.cmpi .eq a b) A B = if a = b then A else B := by
  unfold Scalar.select
  exact if_congr StableHlo.Predicate.cmpi_eq_iff rfl rfl

/-- The mask at `(r, p)`: row `r`'s parent word, copied along the row, against the column number `p` as a word. -/
theorem mask_apply (x1 : IVec S200x1 32) (r : Fin 200) (p : Fin 4096) :
    cmpi .eq (broadcastTo S200x4096 x1 broadcasts_S200x1_S200x4096) (iota .tc S200x4096 32 [1] iota_S200x4096_d1_w32) (ix2 r p)
      = IntOp.cmpi .eq (x1 (ix2 r (0 : Fin 1))) (BitVec.ofNat 32 p.val) := by
  show IntOp.cmpi .eq (broadcastTo S200x4096 x1 broadcasts_S200x1_S200x4096 (ix2 r p)) (iota .tc S200x4096 32 [1] iota_S200x4096_d1_w32 (ix2 r p)) = _
  rw [Columns.broadcastTo_a1_ab_apply, iota_single_apply]

/-- The sum over the columns, kept as a one-column block, reads at row `r` the sum of row `r`. -/
theorem rowSum_apply (v : FVec Ideal S200x4096 .f32) (hφ : FTy.f32 = FTy.f32 ∨ FTy.f32 = FTy.bf16)
    (hacc : (0x00000000#32 : BitVec 32) = 0x00000000#32) (r : Fin 200) :
    shapeCast S200x1 (multiReduction (F := Ideal) .add [1] S200 v 0x00000000#32 reduces_S200x4096_S200 hφ hacc) shapeCasts_S200_S200x1 (ix2 r (0 : Fin 1))
      = ∑ p : Fin 4096, v (ix2 r p) := by
  refine (Columns.shapeCast_a_a1_apply _ shapeCasts_S200_S200x1 r 0).trans ?_
  refine (Ideal.multiReduction_add_single v 0x00000000#32 reduces_S200x4096_S200 hφ hacc (ix1 r)).trans ?_
  refine Finset.sum_congr rfl fun p _ => congrArg v ?_
  funext a; apply Fin.ext
  rw [Shape.Reduces.lift_val]
  match a with
  | ⟨0, _⟩ => simp [Shape.Reduces.liftVal]
  | ⟨1, _⟩ => simp [Shape.Reduces.liftVal]

/-- A logarithm at an entry. -/
theorem log_apply {s : Shape} {φ : FTy} (a : FVec Ideal s φ) (i : s.Idx) : log a i = Ideal.log (a i) := rfl

/-- The zero word is the extended real `0`. -/
theorem zero_word : (Scalar.ofBits (F := Ideal) .f32 0x00000000#32 : EReal) = 0 := Ideal.ofBits_zero_f32

/-! ## The block's value at a row -/

/-- Row `r` of a block of queries scored against a table: the products `⟨x0_r, msg_p⟩` kept where the row's parent
    word is the number `p`, summed over `p`. -/
def blockScore (x0 : S200x512.Idx → EReal) (x1 : S200x1.Idx → BitVec 32) (msg : S4096x512.Idx → EReal) (r : Fin 200) : EReal :=
  ∑ p : Fin 4096, if x1 (ix2 r (0 : Fin 1)) = BitVec.ofNat 32 p.val then (∑ d : Fin 512, x0 (ix2 r d) * msg (ix2 p d)) else 0

/-- Row `r`'s loss from the two scores. -/
def blockLoss (x0 : S200x512.Idx → EReal) (x1 : S200x1.Idx → BitVec 32) (x2 x3 : S4096x512.Idx → EReal) (r : Fin 200) : EReal :=
  (0 - Ideal.log (blockScore x0 x1 x2 r)) + Ideal.log (blockScore x0 x1 x3 r)

/-- The stored block at row `r` (its one column). -/
theorem pay_row (x0 : Vec Ideal S200x512 .bf16) (x2 x3 : Vec Ideal S4096x512 .bf16) (x1 : Vec Ideal S200x1 .i32) (r : Fin 200) :
    k2_pay1 x0 x2 x3 x1 (ix2 r (0 : Fin 1)) = blockLoss x0 x1 x2 x3 r := by
  unfold k2_pay1 blockLoss blockScore
  simp only [shapeCast_self]
  simp only [addf_apply, subf_apply, log_apply, broadcast_apply, zero_word]
  refine congrArg₂ (fun a b : EReal => (0 - Ideal.log a) + Ideal.log b) ?_ ?_
  · refine (rowSum_apply _ _ _ r).trans (Finset.sum_congr rfl fun p _ => ?_)
    rw [select_apply, mask_apply, scoreDot_apply, select_cmpi_eq, broadcast_apply]
  · refine (rowSum_apply _ _ _ r).trans (Finset.sum_congr rfl fun p _ => ?_)
    rw [select_apply, mask_apply, scoreDot_apply, select_cmpi_eq, broadcast_apply]

/-- The stored block at any index of its shape: the row's loss (the block has one column). -/
theorem pay_at (x0 : Vec Ideal S200x512 .bf16) (x2 x3 : Vec Ideal S4096x512 .bf16) (x1 : Vec Ideal S200x1 .i32) (j : S200x1.Idx) :
    k2_pay1 x0 x2 x3 x1 j = blockLoss x0 x1 x2 x3 ⟨(j 0).val, idx2_lt0 j⟩ := by
  obtain ⟨r, u, rfl⟩ : ∃ (r : Fin 200) (u : Fin 1), j = ix2 r u := ⟨j 0, j 1, eq_ix2 j⟩
  obtain rfl : u = 0 := Subsingleton.elim _ _
  exact pay_row x0 x2 x3 x1 r

/-- A block's loss at row `r` is the arrays' loss at node `n` once row `r` of the query block and of the index
    block are row `n` of their arrays and the two table blocks are the tables. -/
theorem blockLoss_eq_lossS (A0 : SNxD.Idx → EReal) (A1 : SNx1.Idx → BitVec 32) (A2 A3 : SPxD.Idx → EReal)
    (x0 : S200x512.Idx → EReal) (x1 : S200x1.Idx → BitVec 32) (x2 x3 : S4096x512.Idx → EReal) (r : Fin 200) (n : Fin 100000)
    (h0 : ∀ d : Fin 512, x0 (ix2 r d) = A0 (ix2 n d)) (h1 : x1 (ix2 r (0 : Fin 1)) = A1 (ix2 n (0 : Fin 1)))
    (h2 : ∀ (p : Fin 4096) (d : Fin 512), x2 (ix2 p d) = A2 (ix2 p d)) (h3 : ∀ (p : Fin 4096) (d : Fin 512), x3 (ix2 p d) = A3 (ix2 p d)) :
    blockLoss x0 x1 x2 x3 r = lossS A0 A1 A2 A3 n := by
  unfold blockLoss lossS blockScore scoreS
  simp only [h0, h1, h2, h3]

/-! ## From blocks to the array -/

section
variable (V : (c : Dev nD) → (b : Ref sig .tc) → Buf (Elt Ideal) ((c : Thread nD τ).loc b))

theorem zeros2 : (![0, 0] : Fin 2 → Nat) = fun _ => 0 := funext fun a => by fin_cases a <;> rfl

/-- Where each window's block sits at grid point `t`: the query, index and loss blocks are the `t`-th block of 200
    rows; each table is its one block. Decided over the 500 points. -/
theorem score_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The loss array, node by node. -/
def lossArr (c : Dev nD) : S100000x1.Idx → EReal := fun i =>
  lossS (V c main_v3_1) (V c main_v28) (V c main_v26) (V c main_v27) ⟨(i 0).val, idx2_lt0 i⟩

/-- What grid point `t` writes back is block `t` of the loss array. -/
theorem flushed2_4_eq (c : Dev nD) (t : Fin cfg2.N) :
    (dat2 (F := Ideal) V c).flushed 4 t = ((cfg2.win 4).blk t).view.read (Elt Ideal) (lossArr V c) := by
  show (cfg2.win 4).cut (grid2.coords t) ((dat2 V c).after 4 t) = _
  rw [after2_4]
  unfold out2_4
  rw [View.canon_unit_zero zeros2]
  simp only [View.ld_unit_zero (S := S200x512) zeros2, View.ld_unit_zero (S := S200x1) zeros2, View.ld_unit_zero (S := S4096x512) zeros2]
  obtain ⟨e00, e01, e10, e11, e20, e21, e30, e31, e40, e41⟩ := score_index t
  funext j
  show k2_pay1 (iblk2 V c 0 t) (iblk2 V c 2 t) (iblk2 V c 3 t) (iblk2 V c 1 t) j = lossArr V c (((cfg2.win 4).blk t).view.emb j)
  refine (pay_at _ _ _ _ j).trans ?_
  refine blockLoss_eq_lossS _ _ _ _ _ _ _ _ _ _ (fun d => ?_) ?_ (fun p d => ?_) (fun p d => ?_)
  · show V c main_v3_1 (((cfg2.win 0).blk t).view.emb _) = V c main_v3_1 _
    refine congrArg _ (funext fun a => Fin.ext ?_)
    match a with
    | ⟨0, _⟩ => show win2_0.index t (0 : Fin 2) * 200 + 1 * (j 0).val = win2_4.index t (0 : Fin 2) * 200 + 1 * (j 0).val; omega
    | ⟨1, _⟩ => show win2_0.index t (1 : Fin 2) * 512 + 1 * d.val = d.val; omega
  · show V c main_v28 (((cfg2.win 1).blk t).view.emb _) = V c main_v28 _
    refine congrArg _ (funext fun a => Fin.ext ?_)
    match a with
    | ⟨0, _⟩ => show win2_1.index t (0 : Fin 2) * 200 + 1 * (j 0).val = win2_4.index t (0 : Fin 2) * 200 + 1 * (j 0).val; omega
    | ⟨1, _⟩ => show win2_1.index t (1 : Fin 2) * 1 + 1 * 0 = 0; omega
  · show V c main_v26 (((cfg2.win 2).blk t).view.emb _) = V c main_v26 _
    refine congrArg _ (funext fun a => Fin.ext ?_)
    match a with
    | ⟨0, _⟩ => show win2_2.index t (0 : Fin 2) * 4096 + 1 * p.val = p.val; omega
    | ⟨1, _⟩ => show win2_2.index t (1 : Fin 2) * 512 + 1 * d.val = d.val; omega
  · show V c main_v27 (((cfg2.win 3).blk t).view.emb _) = V c main_v27 _
    refine congrArg _ (funext fun a => Fin.ext ?_)
    match a with
    | ⟨0, _⟩ => show win2_3.index t (0 : Fin 2) * 4096 + 1 * p.val = p.val; omega
    | ⟨1, _⟩ => show win2_3.index t (1 : Fin 2) * 512 + 1 * d.val = d.val; omega

/-- An index of the loss array is in point `t`'s block iff each coordinate is in the block's range on its axis. -/
theorem mem_blk2_4 (t : Fin cfg2.N) (i : S100000x1.Idx) :
    i ∈ ((cfg2.win 4).blk t).view.set ↔ ∀ a : Fin 2, win2_4.index t a * S200x1.size a ≤ (i a).val ∧ (i a).val < win2_4.index t a * S200x1.size a + S200x1.size a := by
  show i ∈ ((View.whole main_v29).slice (win2_4.rect t)).set ↔ _
  rw [View.set_slice_whole, Rect.mem_set_unit]
  exact Iff.rfl

/-- Row `n` lies in the block of point `n / 200`: the 500 blocks of 200 rows tile the 100000 rows. -/
theorem rows_covered (i : S100000x1.Idx) : ∃ t : Fin cfg2.N, (cfg2.win 4).flush t = true ∧ i ∈ ((cfg2.win 4).blk t).view.set := by
  have hi0 : (i 0).val < 100000 := (i 0).isLt
  have hi1 : (i 1).val < 1 := (i 1).isLt
  have hN : cfg2.N = 500 := N_2
  obtain ⟨t, ht⟩ : ∃ t : Fin cfg2.N, t.val = (i 0).val / 200 := ⟨⟨(i 0).val / 200, by rw [hN]; omega⟩, rfl⟩
  obtain ⟨-, -, -, -, -, -, -, -, e40, e41⟩ := score_index t
  refine ⟨t, flush2_4 t, ?_⟩
  rw [mem_blk2_4]
  intro a
  match a with
  | ⟨0, _⟩ => show win2_4.index t (0 : Fin 2) * 200 ≤ (i 0).val ∧ (i 0).val < win2_4.index t (0 : Fin 2) * 200 + 200; omega
  | ⟨1, _⟩ => show win2_4.index t (1 : Fin 2) * 1 ≤ (i 1).val ∧ (i 1).val < win2_4.index t (1 : Fin 2) * 1 + 1; omega

/-- The loss array after the call. -/
theorem final2_4 (c : Dev nD) : (dat2 (F := Ideal) V c).arrAt 4 cfg2.N = lossArr V c :=
  (dat2 (F := Ideal) V c).arrAt_eq_of_cover 4 (lossArr V c) (fun t _ => flushed2_4_eq V c t) rows_covered

end

end ScoreV

/-- THE LOSS OF NODE `n` as the third call leaves it: `(0 − log (score against the first table)) + log (score against
    the second)`, over the arrays the call found. -/
theorem score_loss (V : (c : Dev nD) → (b : Ref sig .tc) → Buf (Elt Ideal) ((c : Thread nD τ).loc b)) (c : Dev nD) (n : Fin 100000) :
    ((dat2 (F := Ideal) V c).arrAt 4 cfg2.N : SNx1.Idx → EReal) (ix2 n (0 : Fin 1)) = lossS (V c main_v3_1) (V c main_v28) (V c main_v26) (V c main_v27) n :=
  congrFun (ScoreV.final2_4 V c) (ix2 n (0 : Fin 1))

end Cert.KernelIdeal.Hand

end
-- ==== Proof.KI.HostLemmas.lean ====
/-
  Host operations of the program, read at an index, at the extended reals.

  * A clamp of a 32-bit word vector to [0, 4095] — the signed maximum against a broadcast 0, then the signed minimum
    against a broadcast 4095 — leaves a vector whose entries already lie in [0, 4096) unchanged.
  * The sum of a [100000, 1] array over both axes, started from the pattern of 0.0, is `0 + ∑ n, x (n, 0)`: the total sum
    over every index, re-indexed along n ↦ (n, 0).
  * A vector laid as a column — by a broadcast along the first axis, or by a cast of [a] to [a, 1] — reads at (n, 0) the
    vector at n; a vector cast to a [1, b] row reads at (0, k) the vector at k.
-/
import proofs.«406706_j73478300500058_3_alg».proof.Proof.Gen.KernelIdeal
import proofs.«406706_j73478300500058_3_alg».proof.Proof.LibColumns
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Hand

open Cert.KernelIdeal Idealize.ShloMosaic Idealize.ShloMosaic.ValueIdx

/-! ## The clamp to [0, 4095] -/

/-- One word: the signed maximum with 0 and then the signed minimum with 4095 of a word in [0, 4096) is the word. -/
theorem clip_word (w : BitVec 32) (h0 : 0 ≤ w.toInt) (h1 : w.toInt < 4096) :
    IntOp.minsi 4095#32 (IntOp.maxsi 0#32 w) = w := by
  have z0 : (0#32 : BitVec 32).toInt = 0 := by decide
  have z1 : (4095#32 : BitVec 32).toInt = 4095 := by decide
  have e0 : ¬ (w.slt 0#32 = true) := by rw [BitVec.slt_iff_toInt_lt, z0]; omega
  have e1 : ¬ ((4095#32 : BitVec 32).slt w = true) := by rw [BitVec.slt_iff_toInt_lt, z1]; omega
  unfold IntOp.maxsi
  rw [if_neg e0]
  unfold IntOp.minsi
  rw [if_neg e1]

/-- The clamp as the program composes it (the bounds converted by the identity, broadcast from the scalar shape; the
    maximum takes the lower bound first, the minimum the upper bound first) is the identity on a word vector whose
    entries lie in [0, 4096). -/
theorem clip_id (hb : S_.BroadcastsInDim S100000 (![] : Fin 0 → Fin S100000.rank)) (ids : IVec S100000 32)
    (h : ∀ i, 0 ≤ (ids i).toInt ∧ (ids i).toInt < 4096) :
    minsi (broadcastInDim S100000 ![] hb (id (constantI S_ 32 4095#32)))
        (maxsi (broadcastInDim S100000 ![] hb (id (constantI S_ 32 0#32))) ids) = ids :=
  funext fun i => clip_word (ids i) (h i).1 (h i).2

/-- The same without the identity conversions written. -/
theorem clip_id' (hb : S_.BroadcastsInDim S100000 (![] : Fin 0 → Fin S100000.rank)) (ids : IVec S100000 32)
    (h : ∀ i, 0 ≤ (ids i).toInt ∧ (ids i).toInt < 4096) :
    minsi (broadcastInDim S100000 ![] hb (constantI S_ 32 4095#32))
        (maxsi (broadcastInDim S100000 ![] hb (constantI S_ 32 0#32)) ids) = ids :=
  clip_id hb ids h

/-! ## The total sum of a column -/

/-- A sum over the indices of an [a, 1] array is the sum over the first coordinate. -/
theorem sum_col {M : Type*} [AddCommMonoid M] {a : ℕ} (f : (⟨2, ![a, 1]⟩ : Shape).Idx → M) :
    ∑ i, f i = ∑ n : Fin a, f (ix2 n (0 : Fin 1)) := by
  rw [sum_idx2]
  exact Finset.sum_congr rfl fun n _ => Fin.sum_univ_one _

/-- The sum of a [100000, 1] array over both axes from the pattern of 0.0, at the one index of the scalar result. -/
theorem total_sum (hr : S100000x1.ReducesTo [0, 1] S_) (h0 : 0 < S_.numel) (x : FVec Ideal S100000x1 .f32) :
    Host.reduceAdd x (constant (F := Ideal) S_ .f32 0x00000000#32) hr h0 ix0
      = 0 + ∑ n : Fin 100000, x (ix2 n (0 : Fin 1)) := by
  show Ideal.hostReduceAdd hr x (Ideal.ofBits .f32 0x00000000#32) ix0 = _
  rw [Ideal.hostReduceAdd_total hr (fun b => b.elim0) x _ ix0, Ideal.ofBits_zero_f32, sum_col]

/-! ## A vector as a column, a vector as a row -/

/-- An [a] vector broadcast along the first axis of [a, 1] reads, at (n, u), the vector at n. -/
theorem bcast_a_a1_apply {α : Type} {a : ℕ} (y : (⟨1, ![a]⟩ : Shape).Idx → α)
    (hb : (⟨1, ![a]⟩ : Shape).BroadcastsInDim ⟨2, ![a, 1]⟩ ![0]) (n : Fin a) (u : Fin 1) :
    broadcastInDim ⟨2, ![a, 1]⟩ ![0] hb y (ix2 n u) = y (ix1 n) := by
  unfold broadcastInDim
  refine congrArg y (funext fun d => ?_)
  match d with
  | ⟨0, _⟩ =>
    apply Fin.ext
    have hn := n.isLt
    split
    · next h1 => change a = 1 at h1; show (0 : ℕ) = n.val; omega
    · rfl

/-- The program's column broadcast, at (n, 0). -/
theorem col_bcast {α : Type} (hb : S100000.BroadcastsInDim S100000x1 (![0] : Fin 1 → Fin S100000x1.rank))
    (y : S100000.Idx → α) (n : Fin 100000) :
    broadcastInDim S100000x1 ![0] hb y (ix2 n (0 : Fin 1)) = y (ix1 n) :=
  bcast_a_a1_apply y hb n 0

/-- The program's cast of [100000] to [100000, 1], at (n, 0). -/
theorem col_reshape {α : Type} (hc : S100000.ShapeCasts S100000x1) (y : S100000.Idx → α) (n : Fin 100000) :
    shapeCast S100000x1 y hc (ix2 n (0 : Fin 1)) = y (ix1 n) :=
  Cert.Columns.shapeCast_a_a1_apply y hc n 0

/-- A [b] array cast to [1, b] reads, at (u, k), the operand at k, whatever the unit coordinate u. -/
theorem shapeCast_b_1b_apply {α : Type} {b : ℕ} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- The program's cast of [512] to [1, 512], at (0, k). -/
theorem row_reshape {α : Type} (hc : S512.ShapeCasts S1x512) (b : S512.Idx → α) (k : Fin 512) :
    shapeCast S1x512 b hc (ix2 (0 : Fin 1) k) = b (ix1 k) :=
  shapeCast_b_1b_apply b hc 0 k

end Cert.KernelIdeal.Hand

end
-- ==== Proof.KI.HostValue.lean ====
import proofs.«406706_j73478300500058_3_alg».proof.Proof.KI.Run
import proofs.«406706_j73478300500058_3_alg».proof.Proof.Spec
import proofs.«406706_j73478300500058_3_alg».proof.Proof.LibColumns
import proofs.«406706_j73478300500058_3_alg».proof.Proof.KI.HostLemmas
import Idealize.ShloMosaic.Lib.ValueIdx
import Idealize.ShloMosaic.Lib.ValueLayout
import Idealize.ShloMosaic.Lib.Pipeline.Value
import Idealize.ShloMosaic.PureOps.Ideal.Laws

/-!
  What the host stretches of the program compute, read off the buffer contents at the segment boundaries, on the
  extended reals: the arguments the first call reads are untouched, the bias is a row and the weights a column of the
  arguments, the clamped indices are the indices; between the calls, the two scatter sums, the row normalization, the
  conversions (identities here); at the end, the mean of the loss column.
-/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- A buffer none of the first three stretches writes holds its launch contents when the first call is entered. -/
theorem W3_kept (c : Dev nD) (r : Ref sig .tc) (h2 : r ∉ hostOps0_2_W) (h1 : r ∉ hostOps0_1_W) (h0 : r ∉ hostOps0_W) :
    W3 m ρ c (Proc.devRef .tc r) = m ((c : Thread nD τ).loc r) :=
  calc W3 m ρ c (Proc.devRef .tc r)
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

/-- The first call's two argument arrays are as launched when it is entered: no earlier stretch writes them. -/
theorem hv_args3 (c : Dev nD) :
    V3 m ρ c main_arg0 = m ((c : Thread nD τ).loc main_arg0) ∧ V3 m ρ c main_arg4 = m ((c : Thread nD τ).loc main_arg4) := ⟨W3_kept m ρ c main_arg0 (by decide) (by decide) (by decide), W3_kept m ρ c main_arg4 (by decide) (by decide) (by decide)⟩

/-- The bias row the first call reads: entry (0, k) is entry k of the bias argument. -/
theorem hv_b2 (c : Dev nD) (k : Fin 512) :
    (V3 m ρ c main_v1 : S1xD.Idx → EReal) (ix2 (0 : Fin 1) k) = (m ((c : Thread nD τ).loc main_arg5) : S512.Idx → EReal) (ix1 k) := by
  have e : V3 m ρ c main_v1 = shapeCast S1x512 (m ((c : Thread nD τ).loc main_arg5) : S512.Idx → EReal) shapeCasts_S512_S1x512 := by
    show StableHlo.after hostOps0_2 (W2 m ρ c) (Proc.devRef .tc main_v1) = _
    after_results
    rfl
  rw [e]
  exact row_reshape _ _ k

/-- The weight column the first call reads: entry (n, 0) is entry n of the weight argument. -/
theorem hv_pw2 (c : Dev nD) (n : Fin 100000) :
    (V3 m ρ c main_v2 : SNx1.Idx → EReal) (ix2 n (0 : Fin 1)) = (m ((c : Thread nD τ).loc main_arg2) : S100000.Idx → EReal) (ix1 n) := by
  have e : V3 m ρ c main_v2 = shapeCast S100000x1 (m ((c : Thread nD τ).loc main_arg2) : S100000.Idx → EReal) shapeCasts_S100000_S100000x1 := by
    show StableHlo.after hostOps0_2 (W2 m ρ c) (Proc.devRef .tc main_v2) = _
    after_results
    rfl
  rw [e]
  exact col_reshape _ _ n

/-- The clamped indices are the indices, when every index word lies in [0, 4096). -/
theorem hv_ids (c : Dev nD)
    (hr : ∀ i : S100000.Idx, 0 ≤ ((m ((c : Thread nD τ).loc main_arg1) : IVec S100000 32) i).toInt
      ∧ ((m ((c : Thread nD τ).loc main_arg1) : IVec S100000 32) i).toInt < 4096) :
    W3 m ρ c (Proc.devRef .tc main_v0) = m ((c : Thread nD τ).loc main_arg1) := by
  have e : W3 m ρ c (Proc.devRef .tc main_v0)
      = minsi (broadcastInDim S100000 ![] bcast_S_S100000 (id (constantI S_ 32 4095#32)))
          (maxsi (broadcastInDim S100000 ![] bcast_S_S100000 (id (constantI S_ 32 0#32))) (m ((c : Thread nD τ).loc main_arg1) : IVec S100000 32)) := by
    show StableHlo.after hostOps0_2 (W2 m ρ c) (Proc.devRef .tc main_v0) = _
    after_results
    rfl
  rw [e]
  exact clip_id _ _ hr

/-- Across the first call: the indices and two arguments it does not stage are kept, its two outputs are what its write-backs leave. -/
theorem hv_keep4 (c : Dev nD) :
    W4 m ρ c (Proc.devRef .tc main_v0) = W3 m ρ c (Proc.devRef .tc main_v0)
    ∧ W4 m ρ c (Proc.devRef .tc main_arg2) = m ((c : Thread nD τ).loc main_arg2)
    ∧ W4 m ρ c (Proc.devRef .tc main_arg3) = m ((c : Thread nD τ).loc main_arg3)
    ∧ W4 m ρ c (Proc.devRef .tc main_v3_0) = (dat0 (V3 m ρ) c).arrAt 4 cfg0.N
    ∧ W4 m ρ c (Proc.devRef .tc main_v3_1) = (dat0 (V3 m ρ) c).arrAt 5 cfg0.N := ⟨W4_of_ne m ρ c main_v0 (by decide),
    (W4_of_ne m ρ c main_arg2 (by decide)).trans (W3_kept m ρ c main_arg2 (by decide) (by decide) (by decide)),
    (W4_of_ne m ρ c main_arg3 (by decide)).trans (W3_kept m ρ c main_arg3 (by decide) (by decide) (by decide)),
    W4_arr m ρ c 4, W4_arr m ρ c 5⟩

/-- The table of zeros a scatter sum starts from. -/
abbrev zerosPxD : FVec Ideal S4096x512 .f32 :=
  broadcastInDim S4096x512 ![] bcast_S_S4096x512 (constant (F := Ideal) S_ .f32 0x00000000#32)

/-- The first parent table: the scatter sum of the weighted features at the indices, from zeros. -/
theorem hv_kp (c : Dev nD) :
    W5 m ρ c (Proc.devRef .tc main_v6)
      = Host.scatterAdd scatter_S4096x512_S100000x1_S100000x512_1_0_0_1 zerosPxD
          (broadcastInDim S100000x1 ![0] bcast_S100000_S100000x1_0 (W4 m ρ c (Proc.devRef .tc main_v0)))
          (W4 m ρ c (Proc.devRef .tc main_v3_0)) := by
  show StableHlo.after hostOps1 (W4 m ρ c) (Proc.devRef .tc main_v6) = _
  after_results

/-- The second parent table: the scatter sum, at the same indices from zeros, of the weights times the sigmoid features. -/
theorem hv_kn (c : Dev nD) :
    W5 m ρ c (Proc.devRef .tc main_v13)
      = Host.scatterAdd scatter_S4096x512_S100000x1_S100000x512_1_0_0_1 zerosPxD
          (broadcastInDim S100000x1 ![0] bcast_S100000_S100000x1_0 (W4 m ρ c (Proc.devRef .tc main_v0)))
          (mulf (broadcastInDim S100000x512 ![0, 1] bcast_S100000x1_S100000x512_0_1
                  (broadcastInDim S100000x1 ![0] bcast_S100000_S100000x1_0 (W4 m ρ c (Proc.devRef .tc main_arg2))))
                (extf .f32 (W4 m ρ c (Proc.devRef .tc main_v3_1)) bitsLt_bf16_f32)) := by
  show StableHlo.after hostOps1 (W4 m ρ c) (Proc.devRef .tc main_v13) = _
  after_results

/-- The row normalization as the program composes it. -/
def kpnOps (x : FVec Ideal S4096x512 .f32) : FVec Ideal S4096x512 .bf16 :=
  truncf .bf16
    (Host.divf x
      (broadcastInDim S4096x512 ![0, 1] bcast_S4096x1_S4096x512_0_1
        (maximumf
          (Host.sqrt (broadcastInDim S4096x1 ![0] bcast_S4096_S4096x1_0
            (Host.reduceAdd (mulf x x) (constant (F := Ideal) S_ .f32 0x00000000#32) reducesTo_S4096x512_S4096_d1 h_S_)))
          (broadcastInDim S4096x1 ![] bcast_S_S4096x1 (constant (F := Ideal) S_ .f32 0x2B8CBCCC#32)))))
    bitsLt_bf16_f32

/-- A column broadcast along the rows of a [4096, 512] table reads, at (p, q), the column at p. -/
theorem bcast_col_rows_apply {α : Type} (hb : S4096x1.BroadcastsInDim S4096x512 (![0, 1] : Fin 2 → Fin S4096x512.rank))
    (v : S4096x1.Idx → α) (p : Fin 4096) (q : Fin 512) :
    broadcastInDim S4096x512 ![0, 1] hb v (ix2 p q) = v (ix2 p (0 : Fin 1)) := by
  refine broadcastInDim_apply _ hb v (ix2 p q) (ix2 p (0 : Fin 1)) fun a => ?_
  match a with
  | ⟨0, _⟩ => rfl
  | ⟨1, _⟩ => rfl

/-- A scalar broadcast to a [4096, 1] column reads the scalar everywhere. -/
theorem bcast_scalar_col_apply {α : Type} (hb : S_.BroadcastsInDim S4096x1 (![] : Fin 0 → Fin S4096x1.rank))
    (v : S_.Idx → α) (j : S4096x1.Idx) : broadcastInDim S4096x1 ![] hb v j = v ix0 :=
  broadcastInDim_apply _ hb v j ix0 fun a => a.elim0

/-- The sum of a [4096, 512] table along its rows from the pattern of 0.0, at row p. -/
theorem row_sum_apply (hr : S4096x512.ReducesTo [1] S4096) (h0 : 0 < S_.numel) (y : FVec Ideal S4096x512 .f32) (p : Fin 4096) :
    Host.reduceAdd y (constant (F := Ideal) S_ .f32 0x00000000#32) hr h0 (ix1 p) = 0 + ∑ d : Fin 512, y (ix2 p d) := by
  show Ideal.hostReduceAdd hr y (Ideal.ofBits .f32 0x00000000#32) (ix1 p) = _
  rw [Ideal.hostReduceAdd_single hr (by decide : S4096x512.Reduces [1] S4096) y _ (ix1 p), Ideal.ofBits_zero_f32]
  refine congrArg (0 + ·) (Finset.sum_congr rfl fun d _ => congrArg y (funext fun a => Fin.ext ?_))
  match a with
  | ⟨0, _⟩ => rfl
  | ⟨1, _⟩ => rfl

/-- The row normalization at an index: the entry over the larger of the row's norm and the floor. -/
theorem kpnOps_apply (x : FVec Ideal S4096x512 .f32) (i : S4096x512.Idx) :
    (kpnOps x : SPxD.Idx → EReal) i = normRows x (Ideal.ofBits .f32 0x2B8CBCCC#32) i := by
  obtain ⟨p, q, rfl⟩ : ∃ (p : Fin 4096) (q : Fin 512), i = ix2 p q := ⟨i 0, i 1, eq_ix2 i⟩
  unfold kpnOps normRows
  rw [truncf_apply]
  show Ideal.div (x (ix2 p q)) (broadcastInDim S4096x512 _ bcast_S4096x1_S4096x512_0_1 _ (ix2 p q)) = _
  rw [bcast_col_rows_apply, maximumf_apply, bcast_scalar_col_apply, constant_apply]
  show Ideal.div (x (ix2 p q)) (max (Ideal.sqrt (broadcastInDim S4096x1 _ bcast_S4096_S4096x1_0 _ (ix2 p (0 : Fin 1)))) _) = _
  rw [bcast_a_a1_apply, row_sum_apply]
  rfl

/-- The normalized first parent table, as composed and entry by entry: each entry over the larger of its row's norm and the floor. -/
theorem hv_kpn (c : Dev nD) :
    V5 m ρ c main_v22 = kpnOps (W5 m ρ c (Proc.devRef .tc main_v6))
    ∧ (V5 m ρ c main_v22 : SPxD.Idx → EReal)
        = normRows (W5 m ρ c (Proc.devRef .tc main_v6)) (Ideal.ofBits .f32 0x2B8CBCCC#32) := by
  have e : V5 m ρ c main_v22 = kpnOps (W5 m ρ c (Proc.devRef .tc main_v6)) := by
    show StableHlo.after hostOps1 (W4 m ρ c) (Proc.devRef .tc main_v22) = kpnOps (StableHlo.after hostOps1 (W4 m ρ c) (Proc.devRef .tc main_v6))
    unfold kpnOps
    after_results_simp
  refine ⟨e, ?_⟩
  rw [e]
  exact funext fun i => kpnOps_apply _ i

/-- The converted second parent table is the table (the conversion is the identity on the extended reals). -/
theorem hv_kn16 (c : Dev nD) :
    (V5 m ρ c main_v23 : SPxD.Idx → EReal) = (W5 m ρ c (Proc.devRef .tc main_v13) : SPxD.Idx → EReal) := by
  show StableHlo.after hostOps1 (W4 m ρ c) (Proc.devRef .tc main_v23) = StableHlo.after hostOps1 (W4 m ρ c) (Proc.devRef .tc main_v13)
  after_results
  rfl

/-- The converted parent adjacency is the adjacency argument. -/
theorem hv_ap16 (c : Dev nD) :
    (V5 m ρ c main_v24 : SPxP.Idx → EReal) = (m ((c : Thread nD τ).loc main_arg3) : SPxP.Idx → EReal) := by
  have e : (V5 m ρ c main_v24 : SPxP.Idx → EReal) = (W4 m ρ c (Proc.devRef .tc main_arg3) : SPxP.Idx → EReal) := by
    show StableHlo.after hostOps1 (W4 m ρ c) (Proc.devRef .tc main_v24) = _
    after_results
    rfl
  rw [e, (hv_keep4 m ρ c).2.2.1]

/-- Across the second call: its two outputs are what its write-backs leave. -/
theorem hv_out6 (c : Dev nD) :
    W6 m ρ c (Proc.devRef .tc main_v25_0) = (dat1 (V5 m ρ) c).arrAt 4 cfg1.N
    ∧ W6 m ρ c (Proc.devRef .tc main_v25_1) = (dat1 (V5 m ρ) c).arrAt 5 cfg1.N := by
  unfold W6
  refine ⟨?_, Function.update_self ..⟩
  rw [Function.update_of_ne (StableHlo.devRef_ne_of_ne (by decide : main_v25_0 ≠ main_v25_1) : (Proc.devRef .tc main_v25_0 : DevRef τ sig) ≠ Proc.devRef .tc main_v25_1)]
  exact Function.update_self ..

/-- The converted first message table is the second call's first output. -/
theorem hv_pos16 (c : Dev nD) :
    (V7 m ρ c main_v26 : SPxD.Idx → EReal) = (W6 m ρ c (Proc.devRef .tc main_v25_0) : SPxD.Idx → EReal) := by
  show StableHlo.after hostOps2 (W6 m ρ c) (Proc.devRef .tc main_v26) = _
  after_results
  rfl

/-- The converted second message table is the second call's second output. -/
theorem hv_neg16 (c : Dev nD) :
    (V7 m ρ c main_v27 : SPxD.Idx → EReal) = (W6 m ρ c (Proc.devRef .tc main_v25_1) : SPxD.Idx → EReal) := by
  show StableHlo.after hostOps2 (W6 m ρ c) (Proc.devRef .tc main_v27) = _
  after_results
  rfl

/-- The index column the third call reads: entry (n, 0) is the clamped index n. -/
theorem hv_ids7 (c : Dev nD) (n : Fin 100000) :
    (V7 m ρ c main_v28 : SNx1.Idx → BitVec 32) (ix2 n (0 : Fin 1)) = (W3 m ρ c (Proc.devRef .tc main_v0) : S100000.Idx → BitVec 32) (ix1 n) := by
  have e : V7 m ρ c main_v28 = shapeCast S100000x1 (W6 m ρ c (Proc.devRef .tc main_v0) : S100000.Idx → BitVec 32) shapeCasts_S100000_S100000x1 := by
    show StableHlo.after hostOps2 (W6 m ρ c) (Proc.devRef .tc main_v28) = _
    after_results
    rfl
  have k : W6 m ρ c (Proc.devRef .tc main_v0) = W3 m ρ c (Proc.devRef .tc main_v0) :=
    calc W6 m ρ c (Proc.devRef .tc main_v0)
      _ = W5 m ρ c (Proc.devRef .tc main_v0) := W6_of_ne m ρ c main_v0 (by decide) (by decide)
      _ = W4 m ρ c (Proc.devRef .tc main_v0) := StableHlo.after_of_writes_sub hostOps1 _ hostOps1_writes (by decide)
      _ = W3 m ρ c (Proc.devRef .tc main_v0) := W4_of_ne m ρ c main_v0 (by decide)
  rw [e, k]
  exact col_reshape _ _ n

/-- The sigmoid features the third call reads are the first call's second output, kept since. -/
theorem hv_q7 (c : Dev nD) : V7 m ρ c main_v3_1 = W4 m ρ c (Proc.devRef .tc main_v3_1) := calc V7 m ρ c main_v3_1
    _ = W6 m ρ c (Proc.devRef .tc main_v3_1) := StableHlo.after_of_writes_sub hostOps2 _ hostOps2_writes (by decide)
    _ = W5 m ρ c (Proc.devRef .tc main_v3_1) := W6_of_ne m ρ c main_v3_1 (by decide) (by decide)
    _ = W4 m ρ c (Proc.devRef .tc main_v3_1) := StableHlo.after_of_writes_sub hostOps1 _ hostOps1_writes (by decide)

/-- Across the third call: the loss column is what its write-backs leave. -/
theorem hv_loss (c : Dev nD) : W8 m ρ c (Proc.devRef .tc main_v29) = (dat2 (V7 m ρ) c).arrAt 4 cfg2.N := W8_arr m ρ c 4

/-- The loss column the third call leaves. -/
abbrev lossCol (c : Dev nD) : SNx1.Idx → EReal := W8 m ρ c (Proc.devRef .tc main_v29)

/-- The result: the sum of the loss column from zero, over the pattern of 100000.0. -/
theorem hv_mean (c : Dev nD) :
    (W9 m ρ c (Proc.devRef .tc main_v31) : S_.Idx → EReal) ix0
      = Ideal.div (0 + ∑ n : Fin 100000, lossCol m ρ c (ix2 n (0 : Fin 1))) (Ideal.ofBits .f32 0x47C35000#32) := by
  have e : (W9 m ρ c (Proc.devRef .tc main_v31) : S_.Idx → EReal)
      = Host.divf (Host.reduceAdd (lossCol m ρ c) (constant (F := Ideal) S_ .f32 0x00000000#32) reducesTo_S100000x1_S_d0_1 h_S_)
          (constant (F := Ideal) S_ .f32 0x47C35000#32) := by
    show StableHlo.after hostOps3 (W8 m ρ c) (Proc.devRef .tc main_v31) = _
    after_results
  rw [e]
  show Ideal.div (Host.reduceAdd (lossCol m ρ c) (constant (F := Ideal) S_ .f32 0x00000000#32) reducesTo_S100000x1_S_d0_1 h_S_ ix0) _ = _
  rw [total_sum]
  rfl

end Cert.KernelIdeal.Hand

end
-- ==== Proof.KI.MsgPieces.lean ====
import proofs.«406706_j73478300500058_3_alg».proof.Proof.KI.Msg
import Idealize.ShloMosaic.Lib.Pipeline.Value

/-!
  What each case of the second tiled computation's body leaves in its two accumulators and in its two output blocks,
  as the body's arithmetic of the four input blocks and of what the accumulators held. At the first column block the
  sums restart from the zero block; at the later ones they add onto what was there; at the last one the two outputs
  receive the finished sums.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access. -/
theorem hz2 : (![0, 0] : Fin 2 → Nat) = fun _ => 0 := funext fun a => by fin_cases a <;> rfl

/-- At the first column block the masked accumulator restarts: the zero block plus this block's masked product. -/
theorem sout1_A_0_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) :
    sout1_A_0 c i arg2 harg2 arg3 harg3 arg4 harg4 arg5 harg5 arg6 harg6 arg7 harg7 arg8 harg8 arg9 harg9 hc0 hc1 x0 x1 x2 x3 = k1_pay5 x0 x1 x3 x2 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S512x512) hz2, View.readCov_unit_zero (S := S512x512) _ hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At the first column block the full accumulator restarts: the zero block plus this block's product. -/
theorem sout1_A_1_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond1_0 i) (hc1 : ¬cond1_1 i)
    (x0 x1 x2 x3 : Vec F S512x512 .bf16) :
    sout1_A_1 c i arg2 harg2 arg3 harg3 arg4 harg4 arg5 harg5 arg6 harg6 arg7 harg7 arg8 harg8 arg9 harg9 hc0 hc1 x0 x1 x2 x3 = k1_pay6 x0 x1 x2 (k1_pay2 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S512x512) hz2, View.readCov_unit_zero (S := S512x512) _ hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At a middle column block the masked accumulator adds this block's masked product onto what it held. -/
theorem sout1_B_0_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) :
    sout1_B_0 c i arg2 harg2 arg3 harg3 arg4 harg4 arg5 harg5 arg6 harg6 arg7 harg7 arg8 harg8 arg9 harg9 hc0 hc1 x0 x1 x2 x3 xs0 xs1 = k1_pay5 x0 x1 x3 x2 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At a middle column block the full accumulator adds this block's product onto what it held. -/
theorem sout1_B_1_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : ¬cond1_1 i)
    (x0 x1 x2 x3 : Vec F S512x512 .bf16) (xs0 xs1 : Vec F S512x512 .f32) :
    sout1_B_1 c i arg2 harg2 arg3 harg3 arg4 harg4 arg5 harg5 arg6 harg6 arg7 harg7 arg8 harg8 arg9 harg9 hc0 hc1 x0 x1 x2 x3 xs0 xs1 = k1_pay6 x0 x1 x2 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At the last column block the masked accumulator adds this block's masked product onto what it held. -/
theorem sout1_C_0_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) :
    sout1_C_0 c i arg2 harg2 arg3 harg3 arg4 harg4 arg5 harg5 arg6 harg6 arg7 harg7 arg8 harg8 arg9 harg9 hc0 hc1 x0 x1 x2 x3 xs0 xs1 = k1_pay5 x0 x1 x3 x2 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At the last column block the full accumulator adds this block's product onto what it held. -/
theorem sout1_C_1_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) :
    sout1_C_1 c i arg2 harg2 arg3 harg3 arg4 harg4 arg5 harg5 arg6 harg6 arg7 harg7 arg8 harg8 arg9 harg9 hc0 hc1 x0 x1 x2 x3 xs0 xs1 = k1_pay6 x0 x1 x2 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At the last column block the first output receives the finished masked sum. -/
theorem out1_C_4_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) :
    out1_C_4 c i arg2 harg2 arg3 harg3 arg4 harg4 arg5 harg5 arg6 harg6 arg7 harg7 arg8 harg8 arg9 harg9 hc0 hc1 x0 x1 x2 x3 xs0 xs1 = k1_pay5 x0 x1 x3 x2 xs0 := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg8.read_unread, harg9.read_unread, View.ld_unit_zero (S := S512x512) hz2, View.readCov_unit_zero (S := S512x512) _ hz2]

/-- At the last column block the second output receives the finished full sum. -/
theorem out1_C_5_eq (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond1_0 i) (hc1 : cond1_1 i)
    (x0 x1 x2 x3 : Vec F S512x512 .bf16) (xs0 xs1 : Vec F S512x512 .f32) :
    out1_C_5 c i arg2 harg2 arg3 harg3 arg4 harg4 arg5 harg5 arg6 harg6 arg7 harg7 arg8 harg8 arg9 harg9 hc0 hc1 x0 x1 x2 x3 xs0 xs1 = k1_pay6 x0 x1 x2 xs1 := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz2]
  simp only [View.readAt_eq_ld, harg2.read_unread, harg3.read_unread, harg4.read_unread, harg5.read_unread, harg8.read_unread, harg9.read_unread, View.ld_unit_zero (S := S512x512) hz2, View.readCov_unit_zero (S := S512x512) _ hz2]

end Cert.KernelIdeal.Hand

end
-- ==== Proof.KI.MsgCover.lean ====
import proofs.«406706_j73478300500058_3_alg».proof.Proof.KI.MsgRuns
import Idealize.ShloMosaic.Lib.Pipeline.Value
import Idealize.ShloMosaic.Lib.ValueIdx

/-!
  The second tiled computation's two message tables are 4096 rows by 512 columns, written in 8 blocks of 512 rows.
  The grid is 8 by 8, point `t = 8 · i + j`; the block of row block `i` is written back only at the last step
  `j = 7` of the inner axis. So row `r` lies in the block written back at point `8 · (r / 512) + 7`, and the 8
  written blocks cover the tables.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The block index maps of the two output windows over the 64 points: row block `t / 8`, column block zero. -/
theorem idx_msg_out : ∀ t : Fin cfg1.N,
    win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

/-- An index is in point `t`'s block of the first message table iff each coordinate is in the block's range. -/
theorem mem_blk4_msg (t : Fin cfg1.N) (i : S4096x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v25_0).slice (win1_4.rect t)).set ↔ _
  rw [View.set_slice_whole, Rect.mem_set_unit]
  exact Iff.rfl

/-- The same for the second message table. -/
theorem mem_blk5_msg (t : Fin cfg1.N) (i : S4096x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v25_1).slice (win1_5.rect t)).set ↔ _
  rw [View.set_slice_whole, Rect.mem_set_unit]
  exact Iff.rfl

/-- Row `r` is in the block written back at point `8 · (r / 512) + 7`. -/
theorem cover4_msg (i : S4096x512.Idx) :
    ∃ t : Fin cfg1.N, (cfg1.win 4).flush t = true ∧ i ∈ ((cfg1.win 4).blk t).view.set := by
  have hi0 : (i 0).val < 4096 := (i 0).isLt
  have hi1 : (i 1).val < 512 := (i 1).isLt
  have hN : cfg1.N = 64 := N_1
  obtain ⟨t, ht⟩ : ∃ t : Fin cfg1.N, t.val = 8 * ((i 0).val / 512) + 7 :=
    ⟨⟨8 * ((i 0).val / 512) + 7, by rw [hN]; omega⟩, rfl⟩
  obtain ⟨e40, e41, e50, e51⟩ := idx_msg_out t
  refine ⟨t, (flush1_4 t).mpr (by omega), ?_⟩
  rw [mem_blk4_msg]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 512 ≤ (i 1).val ∧ (i 1).val < win1_4.index t (1 : Fin 2) * 512 + 512; omega

theorem cover5_msg (i : S4096x512.Idx) :
    ∃ t : Fin cfg1.N, (cfg1.win 5).flush t = true ∧ i ∈ ((cfg1.win 5).blk t).view.set := by
  have hi0 : (i 0).val < 4096 := (i 0).isLt
  have hi1 : (i 1).val < 512 := (i 1).isLt
  have hN : cfg1.N = 64 := N_1
  obtain ⟨t, ht⟩ : ∃ t : Fin cfg1.N, t.val = 8 * ((i 0).val / 512) + 7 :=
    ⟨⟨8 * ((i 0).val / 512) + 7, by rw [hN]; omega⟩, rfl⟩
  obtain ⟨e40, e41, e50, e51⟩ := idx_msg_out t
  refine ⟨t, (flush1_5 t).mpr (by omega), ?_⟩
  rw [mem_blk5_msg]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

end Cert.KernelIdeal.Hand

end
-- ==== Proof.MathLemmas.lean ====
import proofs.«406706_j73478300500058_3_alg».proof.Proof.Spec
import Idealize.ShloMosaic.PureOps.Ideal
import Idealize.ShloMosaic.PureOps.Ideal.Laws
import Idealize.ShloMosaic.Lib.ValueIdx
import Mathlib.Analysis.Real.Sqrt
import Mathlib.Algebra.Order.BigOperators.Ring.Finset
import Mathlib.Data.EReal.Basic
import Mathlib.Data.EReal.Operations
import Mathlib.Data.EReal.Inv

noncomputable section

/-!
  The mathematics of the three computations on the extended reals, with no program in sight:
  the float literals as reals; finiteness carried through the sums; the rows of a normalized table have Euclidean
  norm at most one, so by the Cauchy–Schwarz inequality the guard at thirty on twice an inner product never fires;
  and a sum masked by an equality is a selection.
-/
namespace Cert.Spec

open Idealize.ShloMosaic Idealize.ShloMosaic.ValueIdx

/-! ### The literals -/

/-- The pattern with exponent field 128 and no fraction: `2^23 · 2^(128 − 127 − 23) = 2`. -/
theorem ofBits_two : Ideal.ofBits .f32 0x40000000#32 = ((2 : ℝ) : EReal) := by
  simp [Ideal.ofBits, Ideal.ieee, -EReal.coe_mul]; norm_num

/-- Exponent field 131, fraction `0x700000`: `(2^23 + 7340032) · 2^(−19) = 30`. -/
theorem ofBits_thirty : Ideal.ofBits .f32 0x41F00000#32 = ((30 : ℝ) : EReal) := by
  simp [Ideal.ofBits, Ideal.ieee, -EReal.coe_mul]; norm_num

/-- Exponent field 126 and no fraction: `2^23 · 2^(−24) = 1/2`. -/
theorem ofBits_half : Ideal.ofBits .f32 0x3F000000#32 = ((1 / 2 : ℝ) : EReal) := by
  simp [Ideal.ofBits, Ideal.ieee, -EReal.coe_mul]; norm_num

/-- The floor of the normalization is a positive real: exponent field 87, fraction `0x0CBCCC`, sign clear,
    that is `9223372 · 2^(−63)`. -/
theorem ofBits_eps_pos : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-! ### Division by one half, and subtraction from zero -/

/-- A quotient by one half is the product with two, at the infinities too. -/
theorem div_half (x : EReal) : Ideal.div x ((1 / 2 : ℝ) : EReal) = x * 2 := by
  rw [Ideal.div_coe (by norm_num : (1 / 2 : ℝ) ≠ 0), show (1 / (1 / 2 : ℝ) : ℝ) = 2 by norm_num]
  norm_cast

theorem zero_sub' (y : EReal) : (0 : EReal) - y = -y := by
  rw [sub_eq_add_neg, zero_add]

/-! ### Finiteness -/

/-- The coercion of the reals into the extended reals commutes with finite sums. -/
theorem ereal_coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion commutes with the maximum (it is monotone). -/
theorem ereal_coe_max (a b : ℝ) : max (a : EReal) (b : EReal) = ((max a b : ℝ) : EReal) :=
  (EReal.coe_strictMono.monotone.map_max).symm

/-- A finite sum of reals is real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by simp only [hg, ereal_coe_sum]⟩

/-- `h = x·W + b` of real tables is real. -/
theorem hS_real (x : SNxD.Idx → EReal) (W : SDxD.Idx → EReal) (b2 : S1xD.Idx → EReal)
    (hx : ∀ i, ∃ r : ℝ, x i = (r : EReal)) (hW : ∀ i, ∃ r : ℝ, W i = (r : EReal))
    (hb : ∀ i, ∃ r : ℝ, b2 i = (r : EReal)) (n : Fin 100000) (k : Fin 512) :
    ∃ r : ℝ, hS x W b2 n k = (r : EReal) := by
  choose xr hxr using hx
  choose Wr hWr using hW
  choose br hbr using hb
  refine ⟨(∑ d : Fin 512, xr (ix2 n d) * Wr (ix2 d k)) + br (ix2 (0 : Fin 1) k), ?_⟩
  unfold hS
  simp only [hxr, hWr, hbr, EReal.coe_add, ereal_coe_sum, EReal.coe_mul]

theorem whS_real (x : SNxD.Idx → EReal) (W : SDxD.Idx → EReal) (b2 : S1xD.Idx → EReal) (pw2 : SNx1.Idx → EReal)
    (hx : ∀ i, ∃ r : ℝ, x i = (r : EReal)) (hW : ∀ i, ∃ r : ℝ, W i = (r : EReal))
    (hb : ∀ i, ∃ r : ℝ, b2 i = (r : EReal)) (hpw : ∀ i, ∃ r : ℝ, pw2 i = (r : EReal))
    (n : Fin 100000) (k : Fin 512) :
    ∃ r : ℝ, whS x W b2 pw2 n k = (r : EReal) := by
  obtain ⟨h, hh⟩ := hS_real x W b2 hx hW hb n k
  obtain ⟨w, hw⟩ := hpw (ix2 n (0 : Fin 1))
  exact ⟨w * h, by rw [whS, hh, hw, EReal.coe_mul]⟩

/-- The sigmoid of a real is the real `(1 + e^(−h))⁻¹`. -/
theorem qS_real (x : SNxD.Idx → EReal) (W : SDxD.Idx → EReal) (b2 : S1xD.Idx → EReal)
    (hx : ∀ i, ∃ r : ℝ, x i = (r : EReal)) (hW : ∀ i, ∃ r : ℝ, W i = (r : EReal))
    (hb : ∀ i, ∃ r : ℝ, b2 i = (r : EReal)) (n : Fin 100000) (k : Fin 512) :
    ∃ r : ℝ, qS x W b2 n k = (r : EReal) := by
  obtain ⟨h, hh⟩ := hS_real x W b2 hx hW hb n k
  exact ⟨_, by rw [qS, hh, Ideal.logistic_coe]⟩

/-- An accumulating scatter of real updates into a real operand is real: each entry is the operand's plus a finite
    sum of updates. -/
theorem scatter_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  obtain ⟨a, ha⟩ := hx i
  obtain ⟨b, hb⟩ := sum_real (Finset.univ.filter (fun j => d.resultIdx? j idx = some i)) upd hu
  exact ⟨a + b, by rw [Ideal.hostScatterAdd, ha, hb, EReal.coe_add]⟩

/-! ### The normalized rows lie in the unit ball, so the guard at thirty is idle -/

/-- The squared Euclidean norm of row `p` of a real table. -/
def rowSq (kr : SPxD.Idx → ℝ) (p : Fin 4096) : ℝ := ∑ d : Fin 512, kr (ix2 p d) * kr (ix2 p d)

theorem rowSq_nonneg (kr : SPxD.Idx → ℝ) (p : Fin 4096) : 0 ≤ rowSq kr p :=
  Finset.sum_nonneg (fun d _ => mul_self_nonneg _)

/-- The normalized entry as a real: the entry over the larger of its row's norm and the floor. -/
def normR (kr : SPxD.Idx → ℝ) (e : ℝ) (p : Fin 4096) (d : Fin 512) : ℝ :=
  kr (ix2 p d) / max (Real.sqrt (rowSq kr p)) e

/-- On a real table and a positive floor, the normalization is the real quotient: the sum of squares is a nonnegative
    real, its root is the real root, the maximum with the floor is a positive real, and the quotient by a nonzero real
    is the real quotient. -/
theorem normRows_coe (k : SPxD.Idx → EReal) (kr : SPxD.Idx → ℝ) (hkr : ∀ i, k i = (kr i : EReal)) (e : ℝ)
    (he : 0 < e) (p : Fin 4096) (d : Fin 512) :
    normRows k (e : EReal) (ix2 p d) = ((normR kr e p d : ℝ) : EReal) := by
  have hm : (0 : ℝ) < max (Real.sqrt (rowSq kr p)) e := lt_max_of_lt_right he
  have h0 : (ix2 p d : SPxD.Idx) 0 = p := rfl
  unfold normRows
  rw [h0]
  simp only [hkr]
  rw [zero_add]
  simp only [← EReal.coe_mul, ← ereal_coe_sum]
  rw [show (∑ d' : Fin 512, kr (ix2 p d') * kr (ix2 p d')) = rowSq kr p from rfl, Ideal.sqrt_coe,
    if_neg (not_lt.mpr (rowSq_nonneg kr p)), ereal_coe_max, Ideal.div_coe hm.ne', ← EReal.coe_mul, normR,
    mul_one_div]

/-- A normalized row has squared norm `‖k_p‖² / m²` with `m = max ‖k_p‖ e ≥ ‖k_p‖`, at most one. -/
theorem normR_sq_le (kr : SPxD.Idx → ℝ) (e : ℝ) (he : 0 < e) (p : Fin 4096) :
    ∑ d : Fin 512, (normR kr e p d) ^ 2 ≤ 1 := by
  have hm : (0 : ℝ) < max (Real.sqrt (rowSq kr p)) e := lt_max_of_lt_right he
  have hle : rowSq kr p ≤ (max (Real.sqrt (rowSq kr p)) e) ^ 2 := by
    calc rowSq kr p = (Real.sqrt (rowSq kr p)) ^ 2 := (Real.sq_sqrt (rowSq_nonneg kr p)).symm
      _ ≤ (max (Real.sqrt (rowSq kr p)) e) ^ 2 :=
        pow_le_pow_left₀ (Real.sqrt_nonneg _) (le_max_left _ _) 2
  have hsum : ∑ d : Fin 512, (normR kr e p d) ^ 2 = rowSq kr p / (max (Real.sqrt (rowSq kr p)) e) ^ 2 := by
    unfold normR rowSq
    rw [Finset.sum_div]
    refine Finset.sum_congr rfl (fun d _ => ?_)
    rw [div_pow, sq]
  rw [hsum]
  exact div_le_one_of_le₀ hle (sq_nonneg _)

/-- Cauchy–Schwarz for two vectors of the unit ball: `⟨u, v⟩² ≤ ‖u‖² ‖v‖² ≤ 1`, so `⟨u, v⟩ ≤ 1`. -/
theorem inner_le_one (u v : Fin 512 → ℝ) (hu : ∑ d : Fin 512, u d ^ 2 ≤ 1) (hv : ∑ d : Fin 512, v d ^ 2 ≤ 1) :
    ∑ d : Fin 512, u d * v d ≤ 1 := by
  have hcs := Finset.sum_mul_sq_le_sq_mul_sq Finset.univ u v
  have hv0 : (0 : ℝ) ≤ ∑ d : Fin 512, v d ^ 2 := Finset.sum_nonneg (fun d _ => sq_nonneg _)
  have h1 : (∑ d : Fin 512, u d * v d) ^ 2 ≤ 1 := hcs.trans (mul_le_one₀ hu hv0 hv)
  exact (abs_le.mp ((sq_le_one_iff_abs_le_one _).mp h1)).2

/-- The scaled inner product of two normalized rows is the real `2 · ⟨u_p, u_j⟩`. -/
theorem sS_coe (k : SPxD.Idx → EReal) (kr : SPxD.Idx → ℝ) (hkr : ∀ i, k i = (kr i : EReal)) (e : ℝ)
    (he : 0 < e) (p j : Fin 4096) :
    sS (normRows k (e : EReal)) p j
      = (((∑ d : Fin 512, normR kr e p d * normR kr e j d) * 2 : ℝ) : EReal) := by
  unfold sS
  simp only [normRows_coe k kr hkr e he, ← EReal.coe_mul, ← ereal_coe_sum]
  rw [show (2 : EReal) = ((2 : ℝ) : EReal) by norm_cast, ← EReal.coe_mul]

theorem normRows_real (k : SPxD.Idx → EReal) (hk : ∀ i, ∃ r : ℝ, k i = (r : EReal)) (e : ℝ) (he : 0 < e) :
    ∀ i, ∃ r : ℝ, normRows k (e : EReal) i = (r : EReal) := by
  choose kr hkr using hk
  intro i
  rw [eq_ix2 i]
  exact ⟨_, normRows_coe k kr hkr e he _ _⟩

theorem normRows_sq_le (k : SPxD.Idx → EReal) (hk : ∀ i, ∃ r : ℝ, k i = (r : EReal)) (e : ℝ) (he : 0 < e) :
    ∃ u : Fin 4096 → Fin 512 → ℝ,
      (∀ p d, normRows k (e : EReal) (ix2 p d) = ((u p d : ℝ) : EReal)) ∧ ∀ p, ∑ d : Fin 512, (u p d) ^ 2 ≤ 1 := by
  choose kr hkr using hk
  exact ⟨normR kr e, normRows_coe k kr hkr e he, normR_sq_le kr e he⟩

/-- `2 · ⟨u_p, u_j⟩ ≤ 2 < 30`: the minimum with thirty returns the scaled product itself. -/
theorem clamp_idle (k : SPxD.Idx → EReal) (hk : ∀ i, ∃ r : ℝ, k i = (r : EReal)) (e : ℝ) (he : 0 < e)
    (p j : Fin 4096) :
    min (sS (normRows k (e : EReal)) p j) 30 = sS (normRows k (e : EReal)) p j := by
  choose kr hkr using hk
  apply min_eq_left
  rw [sS_coe k kr hkr e he, show (30 : EReal) = ((30 : ℝ) : EReal) by norm_cast, EReal.coe_le_coe_iff]
  have h := inner_le_one (normR kr e p) (normR kr e j) (normR_sq_le kr e he p) (normR_sq_le kr e he j)
  linarith

/-- The guarded weight is the unguarded one: the guard is idle and a quotient by one half is a product with two. -/
theorem att_eq (k : SPxD.Idx → EReal) (hk : ∀ i, ∃ r : ℝ, k i = (r : EReal)) (e : ℝ) (he : 0 < e)
    (p j : Fin 4096) :
    attS (normRows k (e : EReal)) p j = attRefS (normRows k (e : EReal)) ((1 / 2 : ℝ) : EReal) p j := by
  rw [attS, clamp_idle k hk e he, attRefS, div_half, sS]

/-! ### The mask and sum is a selection -/

/-- Below `4096 < 2^32` a number is recovered from its 32-bit word. -/
theorem ofNat_inj_lt {a b : Nat} (ha : a < 4096) (hb : b < 4096) (h : BitVec.ofNat 32 a = BitVec.ofNat 32 b) :
    a = b := by
  have h' := congrArg BitVec.toNat h
  simp only [BitVec.toNat_ofNat] at h'
  rw [Nat.mod_eq_of_lt (by omega), Nat.mod_eq_of_lt (by omega)] at h'
  exact h'

/-- If the node's parent word is the number `p₀`, the equality mask keeps the one term `p = p₀`. -/
theorem scoreS_select (q : SNxD.Idx → EReal) (ids : SNx1.Idx → BitVec 32) (msg : SPxD.Idx → EReal) (n : Fin 100000)
    (p₀ : Fin 4096) (h : ids (ix2 n (0 : Fin 1)) = BitVec.ofNat 32 p₀.val) :
    scoreS q ids msg n = ∑ d : Fin 512, q (ix2 n d) * msg (ix2 p₀ d) := by
  have hiff : ∀ p : Fin 4096, (BitVec.ofNat 32 p₀.val = BitVec.ofNat 32 p.val) ↔ p = p₀ := by
    intro p
    constructor
    · intro hh
      exact Fin.ext (ofNat_inj_lt p.isLt p₀.isLt hh.symm)
    · rintro rfl
      rfl
  unfold scoreS
  rw [h]
  simp only [hiff]
  rw [Finset.sum_ite_eq']
  simp

/-! ### A sum over `a · b` indices, block by block -/

/-- Entry `l` of block `jb` sits below `a · b`. -/
theorem blocks_lt {a b : ℕ} (jb : Fin a) (l : Fin b) : b * jb.val + l.val < a * b := by
  calc b * jb.val + l.val < b * jb.val + b := Nat.add_lt_add_left l.isLt _
    _ = b * (jb.val + 1) := (Nat.mul_succ b jb.val).symm
    _ ≤ b * a := Nat.mul_le_mul_left b jb.isLt
    _ = a * b := Nat.mul_comm b a

/-- Summing `a` blocks of `b` consecutive entries is summing all `a · b` entries: `(jb, l) ↦ b · jb + l` is a
    bijection of the pairs onto the indices. -/
theorem sum_blocks {M : Type*} [AddCommMonoid M] (a b : ℕ) (f : Fin (a * b) → M) :
    ∑ jb : Fin a, ∑ l : Fin b, f ⟨b * jb.val + l.val, blocks_lt jb l⟩ = ∑ j : Fin (a * b), f j := by
  rw [← Equiv.sum_comp (finProdFinEquiv (m := a) (n := b)) f, Fintype.sum_prod_type]
  refine Finset.sum_congr rfl (fun jb _ => Finset.sum_congr rfl (fun l _ => ?_))
  refine congrArg f (Fin.ext ?_)
  show b * jb.val + l.val = l.val + b * jb.val
  exact Nat.add_comm _ _

/-! ### The three corollaries at the program's own literals -/

/-- The masked message table on normalized rows, with the guarded weight replaced by the unguarded quotient form:
    the floor is a positive real and the divisor one half, so the two weights agree term by term. -/
theorem pos_eq_ref (kraw kn : SPxD.Idx → EReal) (ap : SPxP.Idx → EReal)
    (hk : ∀ i, ∃ r : ℝ, kraw i = (r : EReal)) (p : Fin 4096) (k : Fin 512) :
    posS (normRows kraw (Ideal.ofBits .f32 0x2B8CBCCC#32)) kn ap p k
      = ∑ j : Fin 4096,
          (attRefS (normRows kraw (Ideal.ofBits .f32 0x2B8CBCCC#32)) (Ideal.ofBits .f32 0x3F000000#32) p j
            * ap (ix2 p j)) * kn (ix2 j k) := by
  obtain ⟨e, he, hee⟩ := ofBits_eps_pos
  rw [hee, ofBits_half]
  unfold posS
  simp only [att_eq kraw hk e he]

/-- The same for the full message table. -/
theorem neg_eq_ref (kraw kn : SPxD.Idx → EReal)
    (hk : ∀ i, ∃ r : ℝ, kraw i = (r : EReal)) (p : Fin 4096) (k : Fin 512) :
    negS (normRows kraw (Ideal.ofBits .f32 0x2B8CBCCC#32)) kn p k
      = ∑ j : Fin 4096,
          attRefS (normRows kraw (Ideal.ofBits .f32 0x2B8CBCCC#32)) (Ideal.ofBits .f32 0x3F000000#32) p j
            * kn (ix2 j k) := by
  obtain ⟨e, he, hee⟩ := ofBits_eps_pos
  rw [hee, ofBits_half]
  unfold negS
  simp only [att_eq kraw hk e he]

/-- A 32-bit word whose signed reading is nonnegative and below 4096 has that same unsigned reading: a word at or
    above `2^31` reads negative. -/
theorem toNat_lt_of_toInt {w : BitVec 32} (h0 : 0 ≤ w.toInt) (h1 : w.toInt < 4096) : w.toNat < 4096 := by
  have hw := w.isLt
  rw [BitVec.toInt_eq_toNat_cond] at h0 h1
  split_ifs at h0 h1 <;> omega

/-- A node's loss when its parent word reads, signed, as a number in `[0, 4096)`: both masked sums select that
    parent's row, and `0 − y = −y`. -/
theorem loss_eq_ref (q : SNxD.Idx → EReal) (ids : SNx1.Idx → BitVec 32) (pos neg : SPxD.Idx → EReal) (n : Fin 100000)
    (h0 : 0 ≤ (ids (ix2 n (0 : Fin 1))).toInt) (h1 : (ids (ix2 n (0 : Fin 1))).toInt < 4096) :
    ∃ hlt : (ids (ix2 n (0 : Fin 1))).toNat < 4096,
      lossS q ids pos neg n
        = -(Ideal.log (0 + ∑ d : Fin 512, q (ix2 n d) * pos (ix2 ⟨(ids (ix2 n (0 : Fin 1))).toNat, hlt⟩ d)))
          + Ideal.log (0 + ∑ d : Fin 512, q (ix2 n d) * neg (ix2 ⟨(ids (ix2 n (0 : Fin 1))).toNat, hlt⟩ d)) := by
  have hlt := toNat_lt_of_toInt h0 h1
  refine ⟨hlt, ?_⟩
  have hw : ids (ix2 n (0 : Fin 1))
      = BitVec.ofNat 32 (⟨(ids (ix2 n (0 : Fin 1))).toNat, hlt⟩ : Fin 4096).val :=
    BitVec.eq_of_toNat_eq (by rw [BitVec.toNat_ofNat, Nat.mod_eq_of_lt (ids (ix2 n (0 : Fin 1))).isLt])
  unfold lossS
  rw [scoreS_select q ids pos n ⟨_, hlt⟩ hw, scoreS_select q ids neg n ⟨_, hlt⟩ hw, zero_sub']
  simp only [zero_add]

end Cert.Spec

end
-- ==== Proof.KI.MsgValue.lean ====
import proofs.«406706_j73478300500058_3_alg».proof.Proof.KI.MsgPieces
import proofs.«406706_j73478300500058_3_alg».proof.Proof.KI.MsgCover
import proofs.«406706_j73478300500058_3_alg».proof.Proof.Spec
import proofs.«406706_j73478300500058_3_alg».proof.Proof.MathLemmas
import Idealize.ShloMosaic.Lib.ValueIdx
import Idealize.ShloMosaic.Lib.ValueLayout
import Idealize.ShloMosaic.Lib.Pipeline.Value
import Idealize.ShloMosaic.PureOps.Ideal.Laws

/-!
  The second tiled computation read entry by entry on the extended reals. With `s(p, j) = ⟨kp_p, kp_j⟩ · 2` and
  `a(p, j) = exp (min (s(p, j)) 30)`, the first output ends holding `∑_j (a(p, j) · A(p, j)) · kn(j, k)` and the second
  `∑_j a(p, j) · kn(j, k)`, at every `(p, k)`, the sums over all 4096 parents.
  The grid is 8 by 8, point `t = 8 · i + j`: row block `i` of 512 parents against column block `j` of 512 parents.
  First the body's products and payloads at an index of a block; then one accumulation step as 512 terms of the
  specification's sums; then, by induction over the points, the two accumulators after column block `j` hold the terms of
  column blocks `0 … j`; after `j = 7` that is the whole sum (8 blocks of 512 are the 4096 parents), which is what the
  last point of each row block writes back; and the 8 written blocks cover the 4096 rows.
-/

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The products' operand indices, axis by axis -/

theorem lhs_tt_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_tt_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_tt_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_tt_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

theorem lhs_nn_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_nn_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_nn_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_nn_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of a block with the transpose of another into a zero accumulator, at `(p, q)`: row `p` of the left
    operand against row `q` of the right. -/
theorem matmul_tt_apply {φ₁ φ₂ : FTy} (a : FVec Ideal S512x512 φ₁) (b : FVec Ideal S512x512 φ₂) (p q : Fin 512) :
    matmul dot_S512x512_S512x512_S512x512_1_1_0_0_n_n none a b (constant (F := Ideal) S512x512 .f32 0x00000000#32) (ix2 p q)
      = ∑ d : Fin 512, a (ix2 p d) * b (ix2 q d) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p q) ((ValueIdx.contrEquiv1 dot_S512x512_S512x512_S512x512_1_1_0_0_n_n 512 rfl rfl).symm k) = ix2 p k := funext fun a => Fin.ext (by
    match a with
    | ⟨0, _⟩ => exact lhs_tt_0 _ _
    | ⟨1, _⟩ => exact (lhs_tt_1 _ _).trans hk)
  have er : dot_S512x512_S512x512_S512x512_1_1_0_0_n_n.rhsIdx (ix2 p q) ((ValueIdx.contrEquiv1 dot_S512x512_S512x512_S512x512_1_1_0_0_n_n 512 rfl rfl).symm k) = ix2 q k := funext fun a => Fin.ext (by
    match a with
    | ⟨0, _⟩ => exact rhs_tt_0 _ _
    | ⟨1, _⟩ => exact (rhs_tt_1 _ _).trans hk)
  rw [el, er]

/-- The plain product of two blocks into a zero accumulator, at `(p, q)`: row `p` against column `q`. -/
theorem matmul_nn_apply {φ₁ φ₂ : FTy} (a : FVec Ideal S512x512 φ₁) (b : FVec Ideal S512x512 φ₂) (p q : Fin 512) :
    matmul dot_S512x512_S512x512_S512x512_1_0_0_1_n_n none a b (constant (F := Ideal) S512x512 .f32 0x00000000#32) (ix2 p q)
      = ∑ d : Fin 512, a (ix2 p d) * b (ix2 d q) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_nn_0 _ _
    | ⟨1, _⟩ => exact (lhs_nn_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_nn_0 _ _).trans hk
    | ⟨1, _⟩ => exact rhs_nn_1 _ _)
  rw [el, er]

/-! ## The body's payloads at an index of a block -/

/-- The two zero blocks the accumulators restart from. -/
theorem k1_pay1_apply (p q : Fin 512) : k1_pay1 (F := Ideal) (ix2 p q) = 0 := by
  unfold k1_pay1
  rw [shapeCast_self]
  exact Ideal.ofBits_zero_f32
theorem k1_pay2_apply (p q : Fin 512) : k1_pay2 (F := Ideal) (ix2 p q) = 0 := by
  unfold k1_pay2
  rw [shapeCast_self]
  exact Ideal.ofBits_zero_f32

/-- The attention block: `exp (min (⟨row p of the first block, row l of the second⟩ · 2) 30)`. -/
theorem k1_pay3_apply (x0 x1 : Vec Ideal S512x512 .bf16) (p l : Fin 512) :
    k1_pay3 x0 x1 (ix2 p l)
      = Ideal.exp (min ((∑ d : Fin 512, x0 (ix2 p d) * x1 (ix2 l d)) * Ideal.ofBits .f32 0x40000000#32) (Ideal.ofBits .f32 0x41F00000#32)) := by
  unfold k1_pay3
  show Ideal.exp (min (matmul dot_S512x512_S512x512_S512x512_1_1_0_0_n_n none (shapeCast S512x512 x0 shapeCasts_S512x512_S512x512) (shapeCast S512x512 x1 shapeCasts_S512x512_S512x512) (constant (F := Ideal) S512x512 .f32 0x00000000#32) (ix2 p l) * _) _) = _
  rw [matmul_tt_apply, shapeCast_self, shapeCast_self]
  rfl

/-- The masked accumulator's new value: what it held plus the attention block times the mask block, times the
    second table's block. -/
theorem k1_pay5_apply (x0 x1 x3 x2 : Vec Ideal S512x512 .bf16) (a : Vec Ideal S512x512 .f32) (p q : Fin 512) :
    k1_pay5 x0 x1 x3 x2 a (ix2 p q)
      = a (ix2 p q) + ∑ l : Fin 512, (k1_pay3 x0 x1 (ix2 p l) * x3 (ix2 p l)) * x2 (ix2 l q) := by
  unfold k1_pay5 k1_pay4
  rw [shapeCast_self, addf_apply, matmul_nn_apply]
  simp only [shapeCast_self]
  rfl

/-- The full accumulator's new value: what it held plus the attention block times the second table's block. -/
theorem k1_pay6_apply (x0 x1 x2 : Vec Ideal S512x512 .bf16) (a : Vec Ideal S512x512 .f32) (p q : Fin 512) :
    k1_pay6 x0 x1 x2 a (ix2 p q)
      = a (ix2 p q) + ∑ l : Fin 512, k1_pay3 x0 x1 (ix2 p l) * x2 (ix2 l q) := by
  unfold k1_pay6 k1_pay4
  rw [shapeCast_self, addf_apply, matmul_nn_apply]
  simp only [shapeCast_self]
  rfl

/-! ## The two messages' terms, and a block entry as an entry of the whole arrays -/

/-- Row `l` of block `b` of a 4096-row array (blocks of 512 rows), as a row of the array. -/
def gix (b : ℕ) (l : Fin 512) : Fin 4096 := ⟨(512 * b + l.val) % 4096, Nat.mod_lt _ (by decide)⟩

theorem gix_val (b : ℕ) (l : Fin 512) (hb : b < 8) : (gix b l).val = 512 * b + l.val := by
  have := l.isLt
  show (512 * b + l.val) % 4096 = _
  omega

/-- The masked message's term at parent `J`: `(a(P, J) · A(P, J)) · kn(J, k)`. -/
def posT (kp kn : SPxD.Idx → EReal) (ap : SPxP.Idx → EReal) (P : Fin 4096) (k : Fin 512) (J : Fin 4096) : EReal :=
  (attS kp P J * ap (ix2 P J)) * kn (ix2 J k)
/-- The full message's term at parent `J`: `a(P, J) · kn(J, k)`. -/
def negT (kp kn : SPxD.Idx → EReal) (P : Fin 4096) (k : Fin 512) (J : Fin 4096) : EReal :=
  attS kp P J * kn (ix2 J k)

theorem two_real_msg : ((2 : ℝ) : EReal) = 2 := rfl
theorem thirty_real_msg : ((30 : ℝ) : EReal) = 30 := rfl

/-- The attention block at `(r, l)` of blocks whose rows are rows `P` and `Jb l` of the first table: the
    specification's attention weight. -/
theorem att_point (x0 x1 : Vec Ideal S512x512 .bf16) (kp : SPxD.Idx → EReal) (P : Fin 4096) (J : Fin 4096) (r l : Fin 512)
    (h0 : ∀ d : Fin 512, x0 (ix2 r d) = kp (ix2 P d)) (h1 : ∀ d : Fin 512, x1 (ix2 l d) = kp (ix2 J d)) :
    k1_pay3 x0 x1 (ix2 r l) = attS kp P J := by
  have hs : (∑ d : Fin 512, x0 (ix2 r d) * x1 (ix2 l d)) = ∑ d : Fin 512, kp (ix2 P d) * kp (ix2 J d) :=
    Finset.sum_congr rfl fun d _ => by rw [h0 d, h1 d]
  rw [k1_pay3_apply, hs, ofBits_two, ofBits_thirty, two_real_msg, thirty_real_msg]
  rfl

/-- One step of the masked accumulator at `(r, k)`: what it held plus the terms of this block's 512 parents. -/
theorem pos_point (x0 x1 x3 x2 : Vec Ideal S512x512 .bf16) (a : Vec Ideal S512x512 .f32)
    (kp kn : SPxD.Idx → EReal) (ap : SPxP.Idx → EReal) (P : Fin 4096) (Jb : Fin 512 → Fin 4096) (r k : Fin 512)
    (h0 : ∀ d : Fin 512, x0 (ix2 r d) = kp (ix2 P d)) (h1 : ∀ l d : Fin 512, x1 (ix2 l d) = kp (ix2 (Jb l) d))
    (h2 : ∀ l : Fin 512, x2 (ix2 l k) = kn (ix2 (Jb l) k)) (h3 : ∀ l : Fin 512, x3 (ix2 r l) = ap (ix2 P (Jb l))) :
    k1_pay5 x0 x1 x3 x2 a (ix2 r k) = a (ix2 r k) + ∑ l : Fin 512, posT kp kn ap P k (Jb l) := by
  rw [k1_pay5_apply]
  refine congrArg (a (ix2 r k) + ·) (Finset.sum_congr rfl fun l _ => ?_)
  rw [att_point x0 x1 kp P (Jb l) r l h0 (h1 l), h2 l, h3 l]
  rfl

/-- One step of the full accumulator at `(r, k)`. -/
theorem neg_point (x0 x1 x2 : Vec Ideal S512x512 .bf16) (a : Vec Ideal S512x512 .f32)
    (kp kn : SPxD.Idx → EReal) (P : Fin 4096) (Jb : Fin 512 → Fin 4096) (r k : Fin 512)
    (h0 : ∀ d : Fin 512, x0 (ix2 r d) = kp (ix2 P d)) (h1 : ∀ l d : Fin 512, x1 (ix2 l d) = kp (ix2 (Jb l) d))
    (h2 : ∀ l : Fin 512, x2 (ix2 l k) = kn (ix2 (Jb l) k)) :
    k1_pay6 x0 x1 x2 a (ix2 r k) = a (ix2 r k) + ∑ l : Fin 512, negT kp kn P k (Jb l) := by
  rw [k1_pay6_apply]
  refine congrArg (a (ix2 r k) + ·) (Finset.sum_congr rfl fun l _ => ?_)
  rw [att_point x0 x1 kp P (Jb l) r l h0 (h1 l), h2 l]
  rfl

/-- The eight blocks of 512 parents are the 4096 parents. -/
theorem sum_col_blocks (h : Fin 4096 → EReal) :
    (∑ jb ∈ Finset.range 8, ∑ l : Fin 512, h (gix jb l)) = ∑ J : Fin 4096, h J := by
  rw [Finset.sum_range (fun jb => ∑ l : Fin 512, h (gix jb l)), ← Fintype.sum_prod_type',
    ← Equiv.sum_comp (finProdFinEquiv : Fin 8 × Fin 512 ≃ Fin 4096) h]
  refine Finset.sum_congr rfl fun x _ => congrArg h (Fin.ext ?_)
  have h1 := x.1.isLt
  have h2 := x.2.isLt
  show (512 * x.1.val + x.2.val) % 4096 = x.2.val + 512 * x.1.val
  omega

/-! ## The grid: point `t = 8·i + j` reads row block `i` and column block `j` -/

theorem idx_msg : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

section
variable (V : (c : Dev nD) → (b : Ref sig .tc) → Buf (Elt Ideal) ((c : Thread nD τ).loc b))

/-- The three arrays the call reads: the two normalized tables and the mask. -/
abbrev kpA (c : Dev nD) : SPxD.Idx → EReal := V c main_v22
abbrev knA (c : Dev nD) : SPxD.Idx → EReal := V c main_v23
abbrev apA (c : Dev nD) : SPxP.Idx → EReal := V c main_v24
/-- The four input blocks at a point, at their literal type. -/
abbrev blk0 (c : Dev nD) (t : Fin cfg1.N) : Vec Ideal S512x512 .bf16 := iblk1 V c 0 t
abbrev blk1 (c : Dev nD) (t : Fin cfg1.N) : Vec Ideal S512x512 .bf16 := iblk1 V c 1 t
abbrev blk2 (c : Dev nD) (t : Fin cfg1.N) : Vec Ideal S512x512 .bf16 := iblk1 V c 2 t
abbrev blk3 (c : Dev nD) (t : Fin cfg1.N) : Vec Ideal S512x512 .bf16 := iblk1 V c 3 t

/-- Block 0 at point `t` is rows of row block `t / 8` of the first table. -/
theorem blk0_apply (c : Dev nD) (t : Fin cfg1.N) (r d : Fin 512) :
    blk0 V c t (ix2 r d) = kpA V c (ix2 (gix (t.val / 8) r) d) := by
  obtain ⟨e00, e01, e10, e11, e20, e21, e30, e31, e40, e41, e50, e51⟩ := idx_msg t
  have hN : cfg1.N = 64 := N_1
  have ht := t.isLt
  have hg := gix_val (t.val / 8) r (by omega)
  show V c main_v22 (((cfg1.win 0).blk t).view.emb (ix2 r d)) = V c main_v22 (ix2 _ d)
  congr 1; funext a; apply Fin.ext
  match a with
  | ⟨0, _⟩ => show win1_0.index t (0 : Fin 2) * 512 + 1 * r.val = (gix (t.val / 8) r).val; omega
  | ⟨1, _⟩ => show win1_0.index t (1 : Fin 2) * 512 + 1 * d.val = d.val; omega

/-- Block 1 is rows of row block `t % 8` of the same table. -/
theorem blk1_apply (c : Dev nD) (t : Fin cfg1.N) (l d : Fin 512) :
    blk1 V c t (ix2 l d) = kpA V c (ix2 (gix (t.val % 8) l) d) := by
  obtain ⟨e00, e01, e10, e11, e20, e21, e30, e31, e40, e41, e50, e51⟩ := idx_msg t
  have hg := gix_val (t.val % 8) l (by omega)
  show V c main_v22 (((cfg1.win 1).blk t).view.emb (ix2 l d)) = V c main_v22 (ix2 _ d)
  congr 1; funext a; apply Fin.ext
  match a with
  | ⟨0, _⟩ => show win1_1.index t (0 : Fin 2) * 512 + 1 * l.val = (gix (t.val % 8) l).val; omega
  | ⟨1, _⟩ => show win1_1.index t (1 : Fin 2) * 512 + 1 * d.val = d.val; omega

/-- Block 2 is rows of row block `t % 8` of the second table. -/
theorem blk2_apply (c : Dev nD) (t : Fin cfg1.N) (l k : Fin 512) :
    blk2 V c t (ix2 l k) = knA V c (ix2 (gix (t.val % 8) l) k) := by
  obtain ⟨e00, e01, e10, e11, e20, e21, e30, e31, e40, e41, e50, e51⟩ := idx_msg t
  have hg := gix_val (t.val % 8) l (by omega)
  show V c main_v23 (((cfg1.win 2).blk t).view.emb (ix2 l k)) = V c main_v23 (ix2 _ k)
  congr 1; funext a; apply Fin.ext
  match a with
  | ⟨0, _⟩ => show win1_2.index t (0 : Fin 2) * 512 + 1 * l.val = (gix (t.val % 8) l).val; omega
  | ⟨1, _⟩ => show win1_2.index t (1 : Fin 2) * 512 + 1 * k.val = k.val; omega

/-- Block 3 is block `(t / 8, t % 8)` of the mask. -/
theorem blk3_apply (c : Dev nD) (t : Fin cfg1.N) (r l : Fin 512) :
    blk3 V c t (ix2 r l) = apA V c (ix2 (gix (t.val / 8) r) (gix (t.val % 8) l)) := by
  obtain ⟨e00, e01, e10, e11, e20, e21, e30, e31, e40, e41, e50, e51⟩ := idx_msg t
  have hN : cfg1.N = 64 := N_1
  have ht := t.isLt
  have hg := gix_val (t.val / 8) r (by omega)
  have hg' := gix_val (t.val % 8) l (by omega)
  show V c main_v24 (((cfg1.win 3).blk t).view.emb (ix2 r l)) = V c main_v24 (ix2 _ _)
  congr 1; funext a; apply Fin.ext
  match a with
  | ⟨0, _⟩ => show win1_3.index t (0 : Fin 2) * 512 + 1 * r.val = (gix (t.val / 8) r).val; omega
  | ⟨1, _⟩ => show win1_3.index t (1 : Fin 2) * 512 + 1 * l.val = (gix (t.val % 8) l).val; omega

/-! ## The accumulators after each point -/

/-- What the masked accumulator holds at `(r, k)` after point `n`: the terms of the column blocks up to `n % 8`. -/
def accPos (c : Dev nD) (n : ℕ) (r k : Fin 512) : EReal :=
  ∑ jb ∈ Finset.range (n % 8 + 1), ∑ l : Fin 512, posT (kpA V c) (knA V c) (apA V c) (gix (n / 8) r) k (gix jb l)
/-- The same for the full accumulator. -/
def accNeg (c : Dev nD) (n : ℕ) (r k : Fin 512) : EReal :=
  ∑ jb ∈ Finset.range (n % 8 + 1), ∑ l : Fin 512, negT (kpA V c) (knA V c) (gix (n / 8) r) k (gix jb l)

theorem accPos_first (c : Dev nD) (n : ℕ) (h : n % 8 = 0) (r k : Fin 512) :
    accPos V c n r k = 0 + ∑ l : Fin 512, posT (kpA V c) (knA V c) (apA V c) (gix (n / 8) r) k (gix (n % 8) l) := by
  unfold accPos
  rw [h, Finset.sum_range_one, zero_add]
theorem accNeg_first (c : Dev nD) (n : ℕ) (h : n % 8 = 0) (r k : Fin 512) :
    accNeg V c n r k = 0 + ∑ l : Fin 512, negT (kpA V c) (knA V c) (gix (n / 8) r) k (gix (n % 8) l) := by
  unfold accNeg
  rw [h, Finset.sum_range_one, zero_add]

theorem accPos_next (c : Dev nD) (n : ℕ) (h : ¬n % 8 = 0) (r k : Fin 512) :
    accPos V c n r k = accPos V c (n - 1) r k + ∑ l : Fin 512, posT (kpA V c) (knA V c) (apA V c) (gix (n / 8) r) k (gix (n % 8) l) := by
  unfold accPos
  have e1 : (n - 1) / 8 = n / 8 := by omega
  have e2 : n % 8 + 1 = ((n - 1) % 8 + 1) + 1 := by omega
  have e3 : (n - 1) % 8 + 1 = n % 8 := by omega
  rw [e2, Finset.sum_range_succ, e1, e3]
theorem accNeg_next (c : Dev nD) (n : ℕ) (h : ¬n % 8 = 0) (r k : Fin 512) :
    accNeg V c n r k = accNeg V c (n - 1) r k + ∑ l : Fin 512, negT (kpA V c) (knA V c) (gix (n / 8) r) k (gix (n % 8) l) := by
  unfold accNeg
  have e1 : (n - 1) / 8 = n / 8 := by omega
  have e2 : n % 8 + 1 = ((n - 1) % 8 + 1) + 1 := by omega
  have e3 : (n - 1) % 8 + 1 = n % 8 := by omega
  rw [e2, Finset.sum_range_succ, e1, e3]

/-- After the last column block the masked accumulator holds the masked message of its rows. -/
theorem accPos_last (c : Dev nD) (n : ℕ) (h : n % 8 = 7) (r k : Fin 512) :
    accPos V c n r k = posS (kpA V c) (knA V c) (apA V c) (gix (n / 8) r) k := by
  unfold accPos
  rw [h]
  exact sum_col_blocks (fun J => posT (kpA V c) (knA V c) (apA V c) (gix (n / 8) r) k J)
theorem accNeg_last (c : Dev nD) (n : ℕ) (h : n % 8 = 7) (r k : Fin 512) :
    accNeg V c n r k = negS (kpA V c) (knA V c) (gix (n / 8) r) k := by
  unfold accNeg
  rw [h]
  exact sum_col_blocks (fun J => negT (kpA V c) (knA V c) (gix (n / 8) r) k J)

/-- THE INVARIANT: after every point the two accumulators hold the partial messages. -/
theorem acc_inv (c : Dev nD) : ∀ (n : ℕ) (t : Fin cfg1.N), t.val = n → ∀ r k : Fin 512,
    (outsAt1 V c t.val t.isLt).2.2.1 (ix2 r k) = accPos V c t.val r k
    ∧ (outsAt1 V c t.val t.isLt).2.2.2 (ix2 r k) = accNeg V c t.val r k := by
  intro n
  induction n using Nat.strong_induction_on with
  | _ n ih =>
    intro t htn r k
    by_cases h0 : t.val % 8 = 0
    · have h1 : ¬t.val % 8 = 7 := by omega
      rw [outsAt1_A V c t h0 h1]
      dsimp only
      rw [sout1_A_0_eq, sout1_A_1_eq, accPos_first V c t.val h0, accNeg_first V c t.val h0]
      constructor
      · refine (pos_point (blk0 V c t) (blk1 V c t) (blk3 V c t) (blk2 V c t) (k1_pay1 (F := Ideal)) (kpA V c) (knA V c) (apA V c)
          (gix (t.val / 8) r) (fun l => gix (t.val % 8) l) r k (fun d => blk0_apply V c t r d) (fun l d => blk1_apply V c t l d)
          (fun l => blk2_apply V c t l k) (fun l => blk3_apply V c t r l)).trans ?_
        rw [k1_pay1_apply]
      · refine (neg_point (blk0 V c t) (blk1 V c t) (blk2 V c t) (k1_pay2 (F := Ideal)) (kpA V c) (knA V c)
          (gix (t.val / 8) r) (fun l => gix (t.val % 8) l) r k (fun d => blk0_apply V c t r d) (fun l d => blk1_apply V c t l d)
          (fun l => blk2_apply V c t l k)).trans ?_
        rw [k1_pay2_apply]
    · have hlt : t.val - 1 < cfg1.N := Nat.lt_of_le_of_lt (Nat.sub_le _ _) t.isLt
      obtain ⟨ihp, ihn⟩ := ih (t.val - 1) (by omega) ⟨t.val - 1, hlt⟩ rfl r k
      by_cases h1 : t.val % 8 = 7
      · rw [outsAt1_C V c t h0 h1]
        dsimp only
        rw [sout1_C_0_eq, sout1_C_1_eq, accPos_next V c t.val h0, accNeg_next V c t.val h0]
        constructor
        · refine (pos_point (blk0 V c t) (blk1 V c t) (blk3 V c t) (blk2 V c t) (outsAt1 V c (t.val - 1) hlt).2.2.1 (kpA V c) (knA V c) (apA V c)
            (gix (t.val / 8) r) (fun l => gix (t.val % 8) l) r k (fun d => blk0_apply V c t r d) (fun l d => blk1_apply V c t l d)
            (fun l => blk2_apply V c t l k) (fun l => blk3_apply V c t r l)).trans ?_
          exact congrArg (· + _) ihp
        · refine (neg_point (blk0 V c t) (blk1 V c t) (blk2 V c t) (outsAt1 V c (t.val - 1) hlt).2.2.2 (kpA V c) (knA V c)
            (gix (t.val / 8) r) (fun l => gix (t.val % 8) l) r k (fun d => blk0_apply V c t r d) (fun l d => blk1_apply V c t l d)
            (fun l => blk2_apply V c t l k)).trans ?_
          exact congrArg (· + _) ihn
      · rw [outsAt1_B V c t h0 h1]
        dsimp only
        rw [sout1_B_0_eq, sout1_B_1_eq, accPos_next V c t.val h0, accNeg_next V c t.val h0]
        constructor
        · refine (pos_point (blk0 V c t) (blk1 V c t) (blk3 V c t) (blk2 V c t) (outsAt1 V c (t.val - 1) hlt).2.2.1 (kpA V c) (knA V c) (apA V c)
            (gix (t.val / 8) r) (fun l => gix (t.val % 8) l) r k (fun d => blk0_apply V c t r d) (fun l d => blk1_apply V c t l d)
            (fun l => blk2_apply V c t l k) (fun l => blk3_apply V c t r l)).trans ?_
          exact congrArg (· + _) ihp
        · refine (neg_point (blk0 V c t) (blk1 V c t) (blk2 V c t) (outsAt1 V c (t.val - 1) hlt).2.2.2 (kpA V c) (knA V c)
            (gix (t.val / 8) r) (fun l => gix (t.val % 8) l) r k (fun d => blk0_apply V c t r d) (fun l d => blk1_apply V c t l d)
            (fun l => blk2_apply V c t l k)).trans ?_
          exact congrArg (· + _) ihn

end

/-! ## What the last point of a row block writes back -/

section
variable (V : (c : Dev nD) → (b : Ref sig .tc) → Buf (Elt Ideal) ((c : Thread nD τ).loc b))

/-- The masked-message array as one function of the arrays the call finds. -/
abbrev posG (c : Dev nD) : SPxD.Idx → EReal := fun i => posS (kpA V c) (knA V c) (apA V c) (i 0) (i 1)
/-- The full-message array as one function of them. -/
abbrev negG (c : Dev nD) : SPxD.Idx → EReal := fun i => negS (kpA V c) (knA V c) (i 0) (i 1)

/-- At the last column block the first output receives what the masked accumulator ends holding. -/
theorem out4_eq_acc (c : Dev nD) (t : Fin cfg1.N) (h0 : ¬t.val % 8 = 0) (h1 : t.val % 8 = 7) :
    (outsAt1 V c t.val t.isLt).1 = (outsAt1 V c t.val t.isLt).2.2.1 := by
  rw [outsAt1_C V c t h0 h1]
  dsimp only
  rw [out1_C_4_eq, sout1_C_0_eq]
/-- And the second output what the full accumulator ends holding. -/
theorem out5_eq_acc (c : Dev nD) (t : Fin cfg1.N) (h0 : ¬t.val % 8 = 0) (h1 : t.val % 8 = 7) :
    (outsAt1 V c t.val t.isLt).2.1 = (outsAt1 V c t.val t.isLt).2.2.2 := by
  rw [outsAt1_C V c t h0 h1]
  dsimp only
  rw [out1_C_5_eq, sout1_C_1_eq]

/-- A point that writes the first output back writes its block of the masked-message function. -/
theorem flushed4_msg (c : Dev nD) (t : Fin cfg1.N) (hf : (cfg1.win 4).flush t = true) :
    (dat1 (F := Ideal) V c).flushed 4 t = ((cfg1.win 4).blk t).view.read (Elt Ideal) (posG V c) := by
  have h7 : t.val % 8 = 7 := (flush1_4 t).mp hf
  have h0 : ¬t.val % 8 = 0 := by omega
  obtain ⟨e00, e01, e10, e11, e20, e21, e30, e31, e40, e41, e50, e51⟩ := idx_msg t
  have hN : cfg1.N = 64 := N_1
  have ht := t.isLt
  show (cfg1.win 4).cut (grid1.coords t) ((dat1 V c).after 4 t) = _
  rw [after1_4, out4_eq_acc V c t h0 h7]
  funext j
  obtain ⟨p, q, rfl⟩ : ∃ (p q : Fin 512), j = ix2 p q := ⟨j 0, j 1, eq_ix2 j⟩
  show (outsAt1 V c t.val t.isLt).2.2.1 (ix2 p q)
    = posS (kpA V c) (knA V c) (apA V c) ((((cfg1.win 4).blk t).view.emb (ix2 p q)) 0) ((((cfg1.win 4).blk t).view.emb (ix2 p q)) 1)
  rw [(acc_inv V c t.val t rfl p q).1, accPos_last V c t.val h7 p q]
  have hg := gix_val (t.val / 8) p (by omega)
  have eA : gix (t.val / 8) p = (((cfg1.win 4).blk t).view.emb (ix2 p q)) 0 := Fin.ext (by
    show (gix (t.val / 8) p).val = win1_4.index t (0 : Fin 2) * 512 + 1 * p.val; omega)
  have eB : q = (((cfg1.win 4).blk t).view.emb (ix2 p q)) 1 := Fin.ext (by
    show q.val = win1_4.index t (1 : Fin 2) * 512 + 1 * q.val; omega)
  exact congrArg₂ (posS (kpA V c) (knA V c) (apA V c)) eA eB

/-- The same for the second output and the full-message function. -/
theorem flushed5_msg (c : Dev nD) (t : Fin cfg1.N) (hf : (cfg1.win 5).flush t = true) :
    (dat1 (F := Ideal) V c).flushed 5 t = ((cfg1.win 5).blk t).view.read (Elt Ideal) (negG V c) := by
  have h7 : t.val % 8 = 7 := (flush1_5 t).mp hf
  have h0 : ¬t.val % 8 = 0 := by omega
  obtain ⟨e00, e01, e10, e11, e20, e21, e30, e31, e40, e41, e50, e51⟩ := idx_msg t
  have hN : cfg1.N = 64 := N_1
  have ht := t.isLt
  show (cfg1.win 5).cut (grid1.coords t) ((dat1 V c).after 5 t) = _
  rw [after1_5, out5_eq_acc V c t h0 h7]
  funext j
  obtain ⟨p, q, rfl⟩ : ∃ (p q : Fin 512), j = ix2 p q := ⟨j 0, j 1, eq_ix2 j⟩
  show (outsAt1 V c t.val t.isLt).2.2.2 (ix2 p q)
    = negS (kpA V c) (knA V c) ((((cfg1.win 5).blk t).view.emb (ix2 p q)) 0) ((((cfg1.win 5).blk t).view.emb (ix2 p q)) 1)
  rw [(acc_inv V c t.val t rfl p q).2, accNeg_last V c t.val h7 p q]
  have hg := gix_val (t.val / 8) p (by omega)
  have eA : gix (t.val / 8) p = (((cfg1.win 5).blk t).view.emb (ix2 p q)) 0 := Fin.ext (by
    show (gix (t.val / 8) p).val = win1_5.index t (0 : Fin 2) * 512 + 1 * p.val; omega)
  have eB : q = (((cfg1.win 5).blk t).view.emb (ix2 p q)) 1 := Fin.ext (by
    show q.val = win1_5.index t (1 : Fin 2) * 512 + 1 * q.val; omega)
  exact congrArg₂ (negS (kpA V c) (knA V c)) eA eB

/-! ## The two arrays after the call -/

/-- The first output array ends holding the masked-message function of the arrays the call finds. -/
theorem msg_pos_arr (c : Dev nD) : (dat1 (F := Ideal) V c).arrAt 4 cfg1.N = posG V c :=
  (dat1 (F := Ideal) V c).arrAt_eq_of_cover 4 (posG V c) (fun t hf => flushed4_msg V c t hf) cover4_msg

/-- The second output array ends holding the full-message function of them. -/
theorem msg_neg_arr (c : Dev nD) : (dat1 (F := Ideal) V c).arrAt 5 cfg1.N = negG V c :=
  (dat1 (F := Ideal) V c).arrAt_eq_of_cover 5 (negG V c) (fun t hf => flushed5_msg V c t hf) cover5_msg

end

/-- Entry `(p, k)` of the first output after the call: `∑_j (a(p, j) · A(p, j)) · kn(j, k)`. -/
theorem msg_pos (V : (c : Dev nD) → (b : Ref sig .tc) → Buf (Elt Ideal) ((c : Thread nD τ).loc b)) (c : Dev nD) (p : Fin 4096) (k : Fin 512) :
    ((dat1 (F := Ideal) V c).arrAt 4 cfg1.N : SPxD.Idx → EReal) (ix2 p k) = posS (V c main_v22) (V c main_v23) (V c main_v24) p k :=
  congrFun (msg_pos_arr V c) (ix2 p k)

/-- Entry `(p, k)` of the second output after the call: `∑_j a(p, j) · kn(j, k)`. -/
theorem msg_neg (V : (c : Dev nD) → (b : Ref sig .tc) → Buf (Elt Ideal) ((c : Thread nD τ).loc b)) (c : Dev nD) (p : Fin 4096) (k : Fin 512) :
    ((dat1 (F := Ideal) V c).arrAt 5 cfg1.N : SPxD.Idx → EReal) (ix2 p k) = negS (V c main_v22) (V c main_v23) p k :=
  congrFun (msg_neg_arr V c) (ix2 p k)

end Cert.KernelIdeal.Hand

end
-- ==== Proof.RefRead.lean ====
import proofs.«406706_j73478300500058_3_alg».proof.Defs
import proofs.«406706_j73478300500058_3_alg».proof.Proof.Gen.ReferenceIdeal.Run
import proofs.«406706_j73478300500058_3_alg».proof.Proof.Gen.ReferenceIdeal.Read
import proofs.«406706_j73478300500058_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open Idealize.ShloMosaic Idealize.ShloMosaic.TcCoe Idealize.SL.Sem

/-!
  The reference program read at an index, at the ideal instance (every value an extended real).
  N = 100000 nodes, D = 512 features, P = 4096 parents. With `x0 = x`, `x1 = node_to_par`, `x2 = p_weight`,
  `x3 = A_P`, `x4 = W`, `x5 = b`:
  * `h = x·W + b`, `q = 1 / (1 + exp (−h))`, the weighted tables `pw · h` and `pw · q`;
  * `kp`, `kn`: the scatter-additions of the weighted tables' rows at the parents' numbers;
  * `kp`'s rows divided by the larger of their norm and a floor, the attention weights `exp (⟨kp_p, kp_j⟩ / ½)`;
  * the two message tables `∑_j (a(p, j) · A(p, j)) · kn(j, k)` and `∑_j a(p, j) · kn(j, k)`;
  * per node the message rows at the node's parent, the scores `⟨q_n, msg⟩`, `−log + log`, and the mean over the nodes.
-/
namespace Cert.ReferenceIdeal.Hand

open Cert.ReferenceIdeal Cert.ReferenceIdeal.Gen Cert.ReferenceIdeal.Read Idealize.ShloMosaic.ValueIdx
open scoped BigOperators

variable (x0 : (⟨S100000x512, .f32⟩ : BufTy).Contents (Elt Ideal)) (x1 : (⟨S100000, .i32⟩ : BufTy).Contents (Elt Ideal))
  (x2 : (⟨S100000, .f32⟩ : BufTy).Contents (Elt Ideal)) (x3 : (⟨S4096x4096, .f32⟩ : BufTy).Contents (Elt Ideal))
  (x4 : (⟨S512x512, .f32⟩ : BufTy).Contents (Elt Ideal)) (x5 : (⟨S512, .f32⟩ : BufTy).Contents (Elt Ideal))

/-! ## The first stage: `h`, the sigmoid, the weighted tables -/

/-- `h(n, k) = ∑_d x(n, d) · W(d, k) + b(k)`. -/
theorem ref_h (n : Fin 100000) (k : Fin 512) :
    val_main_v3 (F := Ideal) x0 x4 x5 (ix2 n k) = (∑ d : Fin 512, x0 (ix2 n d) * x4 (ix2 d k)) + x5 (ix1 k) := by
  have el : ∀ d : Fin 512, lidx_main_v0 (ix2 n k) d = ix2 n d := fun d => funext fun a => by
    match a with | ⟨0, _⟩ => rfl | ⟨1, _⟩ => rfl
  have er : ∀ d : Fin 512, ridx_main_v0 (ix2 n k) d = ix2 d k := fun d => funext fun a => by
    match a with | ⟨0, _⟩ => rfl | ⟨1, _⟩ => rfl
  have eb : idx_main_v1 (idx_main_v2 (ix2 n k)) = ix1 k := funext fun a => by
    match a with | ⟨0, _⟩ => rfl
  rw [val_main_v3_apply, val_main_v0_apply, val_main_v2_apply, val_main_v1_apply]
  simp only [el, er, eb, Ideal.addf_def]

/-- `q(n, k) = 1 / (1 + exp (−h(n, k)))`. -/
theorem ref_q (n : Fin 100000) (k : Fin 512) :
    val_main_v9 (F := Ideal) x0 x4 x5 (ix2 n k) = Ideal.logistic (val_main_v3 (F := Ideal) x0 x4 x5 (ix2 n k)) := by
  rw [val_main_v9_apply, val_main_v8_apply, val_main_cst_0_apply, val_main_v7_apply, val_main_v6_apply,
    val_main_cst_apply, val_main_v5_apply, val_main_v4_apply]
  simp only [Ideal.hostDivf_def, Ideal.addf_def, Ideal.hostUnary_exp_def, Ideal.hostNegf_def, Ideal.negf_def,
    Ideal.ofBits_def, Ideal.ofBits_one_f32]
  rfl

/-- The weighted feature `pw(n) · h(n, k)`. -/
theorem ref_wh (n : Fin 100000) (k : Fin 512) :
    val_main_v12 (F := Ideal) x0 x2 x4 x5 (ix2 n k) = x2 (ix1 n) * val_main_v3 (F := Ideal) x0 x4 x5 (ix2 n k) := by
  have e : idx_main_v10 (idx_main_v11 (ix2 n k)) = ix1 n := funext fun a => by
    match a with | ⟨0, _⟩ => rfl
  rw [val_main_v12_apply, val_main_v11_apply, val_main_v10_apply, e]
  rfl

/-- The weighted sigmoid `pw(n) · q(n, k)`. -/
theorem ref_wq (n : Fin 100000) (k : Fin 512) :
    val_main_v27 (F := Ideal) x0 x2 x4 x5 (ix2 n k) = x2 (ix1 n) * val_main_v9 (F := Ideal) x0 x4 x5 (ix2 n k) := by
  have e : idx_main_v10 (idx_main_v26 (ix2 n k)) = ix1 n := funext fun a => by
    match a with | ⟨0, _⟩ => rfl
  rw [val_main_v27_apply, val_main_v26_apply, val_main_v10_apply, e]
  rfl

/-! ## The two scatter-additions -/

/-- `kp`: from the zero table, the rows of `pw · h` added at the parents' numbers. -/
theorem ref_kp_def :
    val_main_v15 (F := Ideal) x0 x1 x2 x4 x5
      = Host.scatterAdd (F := Ideal) (φ := .f32) scatter_S4096x512_S100000x1_S100000x512_1_0_0_1 (fun _ => (0 : EReal))
          (fun i => x1 (ix1 (i 0))) (val_main_v12 (F := Ideal) x0 x2 x4 x5) := by
  have e13 : val_main_v13 (F := Ideal) = fun _ => (0 : EReal) := funext fun i => by
    rw [val_main_v13_apply, val_main_cst_1_apply, Ideal.ofBits_def, Ideal.ofBits_zero_f32]
  have e14 : val_main_v14 (F := Ideal) x1 = fun i => x1 (ix1 (i 0)) := funext fun i => by
    rw [val_main_v14_apply]
    exact congrArg x1 (funext fun a => by match a with | ⟨0, _⟩ => rfl)
  unfold val_main_v15
  rw [e13, e14]

/-- `kn`: the same with the rows of `pw · q`. -/
theorem ref_kn_def :
    val_main_v30 (F := Ideal) x0 x1 x2 x4 x5
      = Host.scatterAdd (F := Ideal) (φ := .f32) scatter_S4096x512_S100000x1_S100000x512_1_0_0_1 (fun _ => (0 : EReal))
          (fun i => x1 (ix1 (i 0))) (val_main_v27 (F := Ideal) x0 x2 x4 x5) := by
  have e28 : val_main_v28 (F := Ideal) = fun _ => (0 : EReal) := funext fun i => by
    rw [val_main_v28_apply, val_main_cst_4_apply, Ideal.ofBits_def, Ideal.ofBits_zero_f32]
  have e29 : val_main_v29 (F := Ideal) x1 = fun i => x1 (ix1 (i 0)) := funext fun i => by
    rw [val_main_v29_apply]
    exact congrArg x1 (funext fun a => by match a with | ⟨0, _⟩ => rfl)
  unfold val_main_v30
  rw [e28, e29]

/-! ## The normalised rows and the attention weights -/

/-- The rows of `kp` divided by the larger of their Euclidean norm and the floor `1e-12`. -/
theorem ref_norm :
    val_main_v20 (F := Ideal) x0 x1 x2 x4 x5
      = Cert.Spec.normRows (val_main_v15 (F := Ideal) x0 x1 x2 x4 x5) (Ideal.ofBits .f32 0x2B8CBCCC#32) := by
  funext i
  have e : ∀ d : Fin 512, idx_main_call0_v1 (idx_main_call0_v2 (idx_main_v19 i)) d = ix2 (i 0) d := fun d => funext fun a => by
    match a with | ⟨0, _⟩ => rfl | ⟨1, _⟩ => rfl
  rw [val_main_v20_apply, val_main_v19_apply, val_main_v18_apply, val_main_v16_apply, val_main_v17_apply,
    val_main_cst_2_apply, val_main_call0_v2_apply, val_main_call0_v1_apply, val_main_call0_cst_apply]
  simp only [val_main_call0_v0_apply, e, Ideal.hostDivf_def, Ideal.maximumf_def, Ideal.hostUnary_sqrt_def, Ideal.mulf_def,
    Ideal.ofBits_def, Ideal.ofBits_zero_f32, Cert.Spec.normRows]
  rfl

/-- The attention weight `exp (⟨kp'_p, kp'_j⟩ / ½)` of the normalised rows. -/
theorem ref_att (p j : Fin 4096) :
    val_main_v25 (F := Ideal) x0 x1 x2 x4 x5 (ix2 p j)
      = Cert.Spec.attRefS (val_main_v20 (F := Ideal) x0 x1 x2 x4 x5) (Ideal.ofBits .f32 0x3F000000#32) p j := by
  have el : ∀ d : Fin 512, lidx_main_v22 (ix2 p j) d = ix2 p d := fun d => funext fun a => by
    match a with | ⟨0, _⟩ => rfl | ⟨1, _⟩ => rfl
  have er : ∀ d : Fin 512, idx_main_v21 (ridx_main_v22 (ix2 p j) d) = ix2 j d := fun d => funext fun a => by
    match a with | ⟨0, _⟩ => rfl | ⟨1, _⟩ => rfl
  rw [val_main_v25_apply, val_main_v24_apply, val_main_v23_apply, val_main_cst_3_apply, val_main_v22_apply]
  simp only [val_main_v21_apply, el, er, Ideal.hostDivf_def, Ideal.hostUnary_exp_def, Ideal.ofBits_def, Cert.Spec.attRefS]

/-! ## The two message tables -/

/-- The masked message `∑_j (a(p, j) · A(p, j)) · kn(j, k)`. -/
theorem ref_pos (p : Fin 4096) (k : Fin 512) :
    val_main_v32 (F := Ideal) x0 x1 x2 x3 x4 x5 (ix2 p k)
      = ∑ j : Fin 4096, (val_main_v25 (F := Ideal) x0 x1 x2 x4 x5 (ix2 p j) * x3 (ix2 p j))
          * val_main_v30 (F := Ideal) x0 x1 x2 x4 x5 (ix2 j k) := by
  have el : ∀ j : Fin 4096, lidx_main_v32 (ix2 p k) j = ix2 p j := fun j => funext fun a => by
    match a with | ⟨0, _⟩ => rfl | ⟨1, _⟩ => rfl
  have er : ∀ j : Fin 4096, ridx_main_v32 (ix2 p k) j = ix2 j k := fun j => funext fun a => by
    match a with | ⟨0, _⟩ => rfl | ⟨1, _⟩ => rfl
  rw [val_main_v32_apply]
  simp only [val_main_v31_apply, el, er, Ideal.mulf_def]

/-- The full message `∑_j a(p, j) · kn(j, k)`. -/
theorem ref_neg (p : Fin 4096) (k : Fin 512) :
    val_main_v33 (F := Ideal) x0 x1 x2 x4 x5 (ix2 p k)
      = ∑ j : Fin 4096, val_main_v25 (F := Ideal) x0 x1 x2 x4 x5 (ix2 p j)
          * val_main_v30 (F := Ideal) x0 x1 x2 x4 x5 (ix2 j k) := by
  have el : ∀ j : Fin 4096, lidx_main_v33 (ix2 p k) j = ix2 p j := fun j => funext fun a => by
    match a with | ⟨0, _⟩ => rfl | ⟨1, _⟩ => rfl
  have er : ∀ j : Fin 4096, ridx_main_v33 (ix2 p k) j = ix2 j k := fun j => funext fun a => by
    match a with | ⟨0, _⟩ => rfl | ⟨1, _⟩ => rfl
  rw [val_main_v33_apply]
  simp only [el, er]

/-! ## The two gathers: a node reads its parent's row -/

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The row gather read at `(n, d)`: with the start index of row `n` a word whose value `m` is below the table's height,
    the element is the table's at `(m, d)` (the start is read signed and clamped to the height less one; a word below
    `4096` is its own signed reading and the clamp leaves it). -/
theorem gather_row {α : Type} (y : S4096x512.Idx → α) (idx : IVec S100000x1 32) (n : Fin 100000) (d : Fin 512)
    (m : Nat) (hm : (idx (ix2 n (0 : Fin 1))).toNat = m) (h : m < 4096) :
    Host.gather gather_S4096x512_S100000x1_S100000x512_1_0_n_n_0_1_1512 y idx (ix2 n d) = y (ix2 ⟨m, h⟩ d) := by
  unfold Host.gather
  refine congrArg y (funext fun a => Fin.ext ?_)
  match a with
  | ⟨0, _⟩ =>
    show gather_S4096x512_S100000x1_S100000x512_1_0_n_n_0_1_1512.start (ix2 n d) idx 0
      + gather_S4096x512_S100000x1_S100000x512_1_0_n_n_0_1_1512.batchCoord (ix2 n d) 0
      + gather_S4096x512_S100000x1_S100000x512_1_0_n_n_0_1_1512.offCoord (ix2 n d) 0 = m
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S4096x512.rank) ∈ gather_S4096x512_S100000x1_S100000x512_1_0_n_n_0_1_1512.startIndexMap from
      List.mem_singleton.mpr rfl)]
    have hsi : gather_S4096x512_S100000x1_S100000x512_1_0_n_n_0_1_1512.siIdx (ix2 n d)
        ⟨List.idxOf (0 : Fin S4096x512.rank) gather_S4096x512_S100000x1_S100000x512_1_0_n_n_0_1_1512.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    have hi : (idx (ix2 n (0 : Fin 1))).toInt = (m : Int) := by
      rw [BitVec.toInt_eq_toNat_cond, if_pos (by omega), hm]
    rw [hi, Int.toNat_natCast]
    show min m (4096 - 1) = m
    omega
  | ⟨1, _⟩ =>
    show gather_S4096x512_S100000x1_S100000x512_1_0_n_n_0_1_1512.start (ix2 n d) idx 1
      + gather_S4096x512_S100000x1_S100000x512_1_0_n_n_0_1_1512.batchCoord (ix2 n d) 1
      + gather_S4096x512_S100000x1_S100000x512_1_0_n_n_0_1_1512.offCoord (ix2 n d) 1 = d.val
    have hs : gather_S4096x512_S100000x1_S100000x512_1_0_n_n_0_1_1512.start (ix2 n d) idx 1 = 0 := by
      unfold GatherDims.start
      rw [dif_neg (show ¬ (1 : Fin S4096x512.rank) ∈ gather_S4096x512_S100000x1_S100000x512_1_0_n_n_0_1_1512.startIndexMap from by
        decide)]
    have ho : gather_S4096x512_S100000x1_S100000x512_1_0_n_n_0_1_1512.offCoord (ix2 n d) 1 = d.val := by
      unfold GatherDims.offCoord
      rw [dif_pos (show (1 : Fin S4096x512.rank) ∈ gather_S4096x512_S100000x1_S100000x512_1_0_n_n_0_1_1512.sKept from by decide)]
      rfl
    rw [GatherDims.batchCoord_eq_zero _ _ _ List.not_mem_nil, hs, ho]
    omega

/-- The parent index the first gather reads is the node's parent word when that word is in range: the reference
    adds the height to a negative word and leaves the others. -/
theorem ref_idx_pos (n : Fin 100000) (h : (x1 (ix1 n)).toNat < 4096) :
    val_main_v39 (F := Ideal) x1 (ix2 n (0 : Fin 1)) = x1 (ix1 n) := by
  have e : idx_main_v39 (ix2 n (0 : Fin 1)) = ix1 n := funext fun a => by match a with | ⟨0, _⟩ => rfl
  have hc : IntOp.cmpi .slt (x1 (ix1 n)) (0#32) = 0#1 := by
    have hi : (x1 (ix1 n)).toInt = ((x1 (ix1 n)).toNat : Int) := by
      rw [BitVec.toInt_eq_toNat_cond, if_pos (by omega)]
    have : (x1 (ix1 n)).slt 0#32 = false := by
      rw [BitVec.slt, hi]; simp
    unfold IntOp.cmpi
    simp only [this]; rfl
  rw [val_main_v39_apply, e, val_main_v38_apply, val_main_v35_apply, val_main_v34_apply, val_main_c_apply, hc, select_zero]

/-- The same for the second gather's index chain. -/
theorem ref_idx_neg (n : Fin 100000) (h : (x1 (ix1 n)).toNat < 4096) :
    val_main_v48 (F := Ideal) x1 (ix2 n (0 : Fin 1)) = x1 (ix1 n) := by
  have e : idx_main_v48 (ix2 n (0 : Fin 1)) = ix1 n := funext fun a => by match a with | ⟨0, _⟩ => rfl
  have hc : IntOp.cmpi .slt (x1 (ix1 n)) (0#32) = 0#1 := by
    have hi : (x1 (ix1 n)).toInt = ((x1 (ix1 n)).toNat : Int) := by
      rw [BitVec.toInt_eq_toNat_cond, if_pos (by omega)]
    have : (x1 (ix1 n)).slt 0#32 = false := by
      rw [BitVec.slt, hi]; simp
    unfold IntOp.cmpi
    simp only [this]; rfl
  rw [val_main_v48_apply, e, val_main_v47_apply, val_main_v44_apply, val_main_v43_apply, val_main_c_7_apply, hc, select_zero]

/-- A node whose parent word is in range reads the masked message's row at its parent. -/
theorem ref_gather_pos (n : Fin 100000) (d : Fin 512) (h : (x1 (ix1 n)).toNat < 4096) :
    val_main_v40 (F := Ideal) x0 x1 x2 x3 x4 x5 (ix2 n d)
      = val_main_v32 (F := Ideal) x0 x1 x2 x3 x4 x5 (ix2 ⟨(x1 (ix1 n)).toNat, h⟩ d) := by
  unfold val_main_v40
  exact gather_row _ _ n d _ (congrArg BitVec.toNat (ref_idx_pos x1 n h)) h

/-- A node whose parent word is in range reads the full message's row at its parent. -/
theorem ref_gather_neg (n : Fin 100000) (d : Fin 512) (h : (x1 (ix1 n)).toNat < 4096) :
    val_main_v49 (F := Ideal) x0 x1 x2 x4 x5 (ix2 n d)
      = val_main_v33 (F := Ideal) x0 x1 x2 x4 x5 (ix2 ⟨(x1 (ix1 n)).toNat, h⟩ d) := by
  unfold val_main_v49
  exact gather_row _ _ n d _ (congrArg BitVec.toNat (ref_idx_neg x1 n h)) h

/-! ## The scores, the loss, the mean -/

/-- A node's score against its parent's masked message: `0 + ∑_d q(n, d) · pos_n(d)`. -/
theorem ref_score_pos (n : Fin 100000) :
    val_main_v42 (F := Ideal) x0 x1 x2 x3 x4 x5 (ix1 n)
      = 0 + ∑ d : Fin 512, val_main_v9 (F := Ideal) x0 x4 x5 (ix2 n d) * val_main_v40 (F := Ideal) x0 x1 x2 x3 x4 x5 (ix2 n d) := by
  have e : ∀ d : Fin 512, idx_main_v42 (ix1 n) d = ix2 n d := fun d => funext fun a => by
    match a with | ⟨0, _⟩ => rfl | ⟨1, _⟩ => rfl
  rw [val_main_v42_apply, val_main_cst_6_apply]
  simp only [val_main_v41_apply, e, Ideal.mulf_def, Ideal.ofBits_def, Ideal.ofBits_zero_f32]

/-- A node's score against its parent's full message. -/
theorem ref_score_neg (n : Fin 100000) :
    val_main_v51 (F := Ideal) x0 x1 x2 x4 x5 (ix1 n)
      = 0 + ∑ d : Fin 512, val_main_v9 (F := Ideal) x0 x4 x5 (ix2 n d) * val_main_v49 (F := Ideal) x0 x1 x2 x4 x5 (ix2 n d) := by
  have e : ∀ d : Fin 512, idx_main_v51 (ix1 n) d = ix2 n d := fun d => funext fun a => by
    match a with | ⟨0, _⟩ => rfl | ⟨1, _⟩ => rfl
  rw [val_main_v51_apply, val_main_cst_9_apply]
  simp only [val_main_v50_apply, e, Ideal.mulf_def, Ideal.ofBits_def, Ideal.ofBits_zero_f32]

/-- A node's loss `−log (score against pos) + log (score against neg)`. -/
theorem ref_loss (n : Fin 100000) :
    val_main_v55 (F := Ideal) x0 x1 x2 x3 x4 x5 (ix1 n)
      = -(Ideal.log (val_main_v42 (F := Ideal) x0 x1 x2 x3 x4 x5 (ix1 n))) + Ideal.log (val_main_v51 (F := Ideal) x0 x1 x2 x4 x5 (ix1 n)) := by
  rw [val_main_v55_apply, val_main_v53_apply, val_main_v52_apply, val_main_v54_apply]
  simp only [Ideal.addf_def, Ideal.hostNegf_def, Ideal.negf_def, Ideal.hostUnary_log_def]

/-- The result: the mean of the nodes' losses, the sum divided by `100000`. -/
theorem ref_mean :
    val_main_v57 (F := Ideal) x0 x1 x2 x3 x4 x5 ix0
      = Ideal.div (0 + ∑ n : Fin 100000, val_main_v55 (F := Ideal) x0 x1 x2 x3 x4 x5 (ix1 n)) (Ideal.ofBits .f32 0x47C35000#32) := by
  rw [val_main_v57_apply, val_main_v56_apply, val_main_cst_10_apply, val_main_cst_11_apply]
  simp only [Ideal.hostDivf_def, Ideal.ofBits_def, Ideal.ofBits_zero_f32]
  rw [sum_idx1]

/-- The run's result term is the last stage at the six argument buffers. -/
theorem ref_result (m : (ℓ : Loc nD τ sig) → Buf (Elt Ideal) ℓ) (c : Dev nD) :
    Cert.ReferenceIdeal.Value.res_main_v57 (F := Ideal) m c
      = val_main_v57 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  val_main_v57_eq (F := Ideal) m c

end Cert.ReferenceIdeal.Hand

end
-- ==== Proof.PreFacts.lean ====
/-
  The precondition `finite_inputs`, read back. The printed predicate is the conjunction of five tests
  "every entry of a float array has absolute value below +∞" and one test "every entry of the integer
  table lies in [0, 4096)". At the extended reals an absolute value `max x (-x)` below `⊤` leaves only
  the real case for `x`; a signed comparison of 32-bit words that answers 1 is the order of their signed values.
-/
import proofs.«406706_j73478300500058_3_alg».proof.Pre_finite_inputs
import proofs.«406706_j73478300500058_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The pattern of +∞ is the top of the extended reals. -/
theorem top_f32 : Ideal.ofBits .f32 0x7F800000#32 = ⊤ := by simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- One element's test `|x| < +∞` answering 1 says `x` is a real. -/
theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [top_f32] at h'
  unfold Ideal.cmp at h'
  rw [StableHlo.Predicate.ofBool_eq_one_iff, decide_eq_true_eq] at h'
  exact real_of_abs_lt_top x h'

/-- `jnp.all (|x| < +∞)` over a whole array answering 1 says every entry is a real. -/
theorem all_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
          (cmpf .olt (Host.absf x) (broadcastInDim s ![] hb (constant (F := Ideal) S_ .f32 0x7F800000#32)))
          (constantI S_ 1 1#1) hr h0 ix0 = 1#1) :
    ∀ i, ∃ r : ℝ, x i = (r : EReal) := fun i =>
  real_of_test (x i) (Host.reduce_andi_all _ _ hr h0 ix0 e i)

/-- A 32-bit word that is at least 0 and below 4096 as a signed value. -/
theorem range_of_tests (w : BitVec 32) (h0 : IntOp.cmpi .sge w 0#32 = 1#1) (h1 : IntOp.cmpi .slt w 4096#32 = 1#1) :
    0 ≤ w.toInt ∧ w.toInt < 4096 := by
  rw [IntOp.cmpi_sge] at h0
  rw [IntOp.cmpi_slt] at h1
  exact ⟨h0, h1⟩

/-- THE PRECONDITION DECODED: every float entry is a real, and every entry of the integer table is in [0, 4096). -/
theorem decode (a0 : FVec Ideal S100000x512 .f32) (a1 : IVec S100000 32) (a2 : FVec Ideal S100000 .f32)
    (a3 : FVec Ideal S4096x4096 .f32) (a4 : FVec Ideal S512x512 .f32) (a5 : FVec Ideal S512 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal))
      ∧ (∀ i, 0 ≤ (a1 i).toInt ∧ (a1 i).toInt < 4096) := by
  have e := congrFun h ix0
  dsimp only [Cert.Pre_finite_inputs.fn, Cert.Pre_finite_inputs.fn_part1] at e
  -- the six tests' conjunction, at the one index of the scalar result
  change IntOp.andi (IntOp.andi (IntOp.andi (IntOp.andi (IntOp.andi _ _) _) _) _) _ = 1#1 at e
  simp only [IntOp.andi_eq_one] at e
  obtain ⟨⟨⟨⟨⟨e0, e2⟩, e3⟩, e4⟩, e5⟩, e1⟩ := e
  refine ⟨all_real a0 _ _ _ e0, all_real a2 _ _ _ e2, all_real a3 _ _ _ e3, all_real a4 _ _ _ e4,
    all_real a5 _ _ _ e5, fun i => ?_⟩
  have hi := Host.reduce_andi_all _ _ _ _ ix0 e1 i
  change IntOp.andi (IntOp.cmpi .sge (a1 i) 0#32) (IntOp.cmpi .slt (a1 i) 4096#32) = 1#1 at hi
  obtain ⟨h0, h1⟩ := IntOp.andi_eq_one.1 hi
  exact range_of_tests _ h0 h1

end Cert.PreFacts

end
-- ==== Proof.Bridge.lean ====
import proofs.«406706_j73478300500058_3_alg».proof.Proof.KI.Run
import proofs.«406706_j73478300500058_3_alg».proof.Proof.KI.EncValue
import proofs.«406706_j73478300500058_3_alg».proof.Proof.KI.ScoreValue
import proofs.«406706_j73478300500058_3_alg».proof.Proof.KI.HostValue
import proofs.«406706_j73478300500058_3_alg».proof.Proof.KI.MsgValue
import proofs.«406706_j73478300500058_3_alg».proof.Proof.RefRead
import proofs.«406706_j73478300500058_3_alg».proof.Proof.MathLemmas
import proofs.«406706_j73478300500058_3_alg».proof.Proof.PreFacts
import proofs.«406706_j73478300500058_3_alg».proof.Proof.Spec
import Idealize.ShloMosaic.Lib.IdealHost

/-!
  The idealized kernel program and the reference compute one number.

  First the arithmetic alone (arrays of extended reals and words, no program state): chaining the three tiled
  computations' entry formulas through the host steps between them gives the reference's last value. Then the
  program: the buffer contents at the segment boundaries of the kernel program's run satisfy the chain's hypotheses,
  so the run's result buffer is the reference's value of the six arguments; and the two runs, from memories that agree
  on the arguments, end with the same result.
-/

set_option maxRecDepth 16384

noncomputable section

open Idealize.ShloMosaic Idealize.ShloMosaic.TcCoe Idealize.SL.Sem

namespace Cert.Bridge

open Cert.Spec Idealize.ShloMosaic.ValueIdx
open scoped BigOperators

/-! ## The arithmetic of the three computations, chained, is the reference's result

Everything here is about arrays of extended reals and words; no program state appears. The hypotheses say, stage by
stage, what each intermediate array holds in terms of the previous ones (the three tiled computations by their entry
formulas, the host steps between them by theirs); the conclusion is the reference's last value. -/

section Core

open Cert.ReferenceIdeal.Read Cert.ReferenceIdeal.Hand

variable (X : SNxD.Idx → EReal) (IDS : (⟨1, ![100000]⟩ : Shape).Idx → BitVec 32) (PW : (⟨1, ![100000]⟩ : Shape).Idx → EReal)
  (AP : SPxP.Idx → EReal) (Wt : SDxD.Idx → EReal) (B : (⟨1, ![512]⟩ : Shape).Idx → EReal)

/-- A word in `[0, 4096)` as a signed value is below `4096` as an unsigned one. -/
theorem toNat_lt_of_range (w : BitVec 32) (h : 0 ≤ w.toInt ∧ w.toInt < 4096) : w.toNat < 4096 := by
  have h' := h
  rw [BitVec.toInt_eq_toNat_cond] at h'
  split at h' <;> omega

/-- Stage A, the weighted features: the first computation's formula at the reshaped bias and weights is the
    reference's `pw · h`. -/
theorem stageA_wh (b2 : S1xD.Idx → EReal) (pw2 : SNx1.Idx → EReal) (hb2 : ∀ k, b2 (ix2 (0 : Fin 1) k) = B (ix1 k))
    (hpw2 : ∀ n, pw2 (ix2 n (0 : Fin 1)) = PW (ix1 n)) (n : Fin 100000) (k : Fin 512) :
    whS X Wt b2 pw2 n k = val_main_v12 (F := Ideal) X PW Wt B (ix2 n k) := by
  rw [whS, hS, hb2, hpw2, ref_wh, ref_h]

/-- Stage A, the sigmoid. -/
theorem stageA_q (b2 : S1xD.Idx → EReal) (hb2 : ∀ k, b2 (ix2 (0 : Fin 1) k) = B (ix1 k)) (n : Fin 100000) (k : Fin 512) :
    qS X Wt b2 n k = val_main_v9 (F := Ideal) X Wt B (ix2 n k) := by
  rw [qS, hS, hb2, ref_q, ref_h]

/-- The reference's weighted features are reals when the inputs are. -/
theorem v12_real (hX : ∀ i, ∃ r : ℝ, X i = (r : EReal)) (hPW : ∀ i, ∃ r : ℝ, PW i = (r : EReal))
    (hWt : ∀ i, ∃ r : ℝ, Wt i = (r : EReal)) (hB : ∀ i, ∃ r : ℝ, B i = (r : EReal)) :
    ∀ i, ∃ r : ℝ, val_main_v12 (F := Ideal) X PW Wt B i = (r : EReal) := by
  intro i
  obtain ⟨n, k, rfl⟩ : ∃ n k, i = ix2 n k := ⟨i 0, i 1, eq_ix2 i⟩
  rw [← stageA_wh X PW Wt B (fun i => B (ix1 (i 1))) (fun i => PW (ix1 (i 0))) (fun _ => rfl) (fun _ => rfl) n k]
  exact whS_real X Wt _ _ hX hWt (fun i => hB _) (fun i => hPW _) n k

/-- The reference's first scatter-addition is a table of reals when the inputs are. -/
theorem v15_real (hX : ∀ i, ∃ r : ℝ, X i = (r : EReal)) (hPW : ∀ i, ∃ r : ℝ, PW i = (r : EReal))
    (hWt : ∀ i, ∃ r : ℝ, Wt i = (r : EReal)) (hB : ∀ i, ∃ r : ℝ, B i = (r : EReal)) :
    ∀ i, ∃ r : ℝ, val_main_v15 (F := Ideal) X IDS PW Wt B i = (r : EReal) := by
  rw [ref_kp_def]
  exact scatter_real _ _ _ _ (fun _ => ⟨0, EReal.coe_zero.symm⟩) (v12_real X PW Wt B hX hPW hWt hB)

/-- Stage C, the attention weight: with the guard idle on normalised rows of reals, the second computation's weight is
    the reference's. -/
theorem stageC_att (hk : ∀ i, ∃ r : ℝ, val_main_v15 (F := Ideal) X IDS PW Wt B i = (r : EReal)) (p j : Fin 4096) :
    attS (val_main_v20 (F := Ideal) X IDS PW Wt B) p j = val_main_v25 (F := Ideal) X IDS PW Wt B (ix2 p j) := by
  obtain ⟨e, he, heq⟩ := ofBits_eps_pos
  rw [ref_att, ref_norm, ofBits_half, heq, att_eq _ hk e he]

/-- Stage C, the masked message. -/
theorem stageC_pos (hk : ∀ i, ∃ r : ℝ, val_main_v15 (F := Ideal) X IDS PW Wt B i = (r : EReal)) (p : Fin 4096) (k : Fin 512) :
    posS (val_main_v20 (F := Ideal) X IDS PW Wt B) (val_main_v30 (F := Ideal) X IDS PW Wt B) AP p k
      = val_main_v32 (F := Ideal) X IDS PW AP Wt B (ix2 p k) := by
  rw [posS, ref_pos]
  exact Finset.sum_congr rfl fun j _ => by rw [stageC_att X IDS PW Wt B hk]

/-- Stage C, the full message. -/
theorem stageC_neg (hk : ∀ i, ∃ r : ℝ, val_main_v15 (F := Ideal) X IDS PW Wt B i = (r : EReal)) (p : Fin 4096) (k : Fin 512) :
    negS (val_main_v20 (F := Ideal) X IDS PW Wt B) (val_main_v30 (F := Ideal) X IDS PW Wt B) p k
      = val_main_v33 (F := Ideal) X IDS PW Wt B (ix2 p k) := by
  rw [negS, ref_neg]
  exact Finset.sum_congr rfl fun j _ => by rw [stageC_att X IDS PW Wt B hk]

/-- Stage D: a node's loss by the equality mask over the parents is the reference's, which reads the parent's row. -/
theorem stageD_loss (ids2 : SNx1.Idx → BitVec 32) (hids2 : ∀ n, ids2 (ix2 n (0 : Fin 1)) = IDS (ix1 n))
    (n : Fin 100000) (hr : 0 ≤ (IDS (ix1 n)).toInt ∧ (IDS (ix1 n)).toInt < 4096) :
    lossS (val_main_v9 (F := Ideal) X Wt B) ids2 (val_main_v32 (F := Ideal) X IDS PW AP Wt B)
        (val_main_v33 (F := Ideal) X IDS PW Wt B) n
      = val_main_v55 (F := Ideal) X IDS PW AP Wt B (ix1 n) := by
  have hlt : (IDS (ix1 n)).toNat < 4096 := toNat_lt_of_range _ hr
  have hsel : ids2 (ix2 n (0 : Fin 1)) = BitVec.ofNat 32 (⟨(IDS (ix1 n)).toNat, hlt⟩ : Fin 4096).val := by
    rw [hids2]
    exact BitVec.eq_of_toNat_eq (by rw [BitVec.toNat_ofNat, Nat.mod_eq_of_lt (IDS (ix1 n)).isLt])
  have hp : scoreS (val_main_v9 (F := Ideal) X Wt B) ids2 (val_main_v32 (F := Ideal) X IDS PW AP Wt B) n
      = val_main_v42 (F := Ideal) X IDS PW AP Wt B (ix1 n) := by
    rw [scoreS_select _ _ _ n _ hsel, ref_score_pos, zero_add]
    exact Finset.sum_congr rfl fun d _ => by rw [ref_gather_pos X IDS PW AP Wt B n d hlt]
  have hn : scoreS (val_main_v9 (F := Ideal) X Wt B) ids2 (val_main_v33 (F := Ideal) X IDS PW Wt B) n
      = val_main_v51 (F := Ideal) X IDS PW Wt B (ix1 n) := by
    rw [scoreS_select _ _ _ n _ hsel, ref_score_neg, zero_add]
    exact Finset.sum_congr rfl fun d _ => by rw [ref_gather_neg X IDS PW Wt B n d hlt]
  rw [lossS, hp, hn, zero_sub', ref_loss]

/-- THE CHAIN. From the six inputs (reals, the parent words in range): the first computation's two outputs by their
    formulas at the reshaped bias and weights; the two scatter-additions of the weighted rows; the normalised rows; the
    second computation's two outputs; the third's losses; their mean. The result is the reference's. -/
theorem core
    (hX : ∀ i, ∃ r : ℝ, X i = (r : EReal)) (hPW : ∀ i, ∃ r : ℝ, PW i = (r : EReal))
    (hWt : ∀ i, ∃ r : ℝ, Wt i = (r : EReal)) (hB : ∀ i, ∃ r : ℝ, B i = (r : EReal))
    (hIDS : ∀ i, 0 ≤ (IDS i).toInt ∧ (IDS i).toInt < 4096)
    (b2 : S1xD.Idx → EReal) (pw2 : SNx1.Idx → EReal) (hb2 : ∀ k, b2 (ix2 (0 : Fin 1) k) = B (ix1 k))
    (hpw2 : ∀ n, pw2 (ix2 n (0 : Fin 1)) = PW (ix1 n))
    (wh q : SNxD.Idx → EReal) (hwh : ∀ n k, wh (ix2 n k) = whS X Wt b2 pw2 n k) (hq : ∀ n k, q (ix2 n k) = qS X Wt b2 n k)
    (z z' : SPxD.Idx → EReal) (hz : ∀ i, z i = 0) (hz' : ∀ i, z' i = 0)
    (io io' : SNx1.Idx → BitVec 32) (hio : ∀ i, io i = IDS (ix1 (i 0))) (hio' : ∀ i, io' i = IDS (ix1 (i 0)))
    (u : SNxD.Idx → EReal) (hu : ∀ n k, u (ix2 n k) = PW (ix1 n) * q (ix2 n k))
    (kp kn : SPxD.Idx → EReal)
    (hkp : kp = Host.scatterAdd (F := Ideal) (φ := .f32) Cert.ReferenceIdeal.scatter_S4096x512_S100000x1_S100000x512_1_0_0_1 z io wh)
    (hkn : kn = Host.scatterAdd (F := Ideal) (φ := .f32) Cert.ReferenceIdeal.scatter_S4096x512_S100000x1_S100000x512_1_0_0_1 z' io' u)
    (pos neg : SPxD.Idx → EReal)
    (hpos : ∀ p k, pos (ix2 p k) = posS (normRows kp (Ideal.ofBits .f32 0x2B8CBCCC#32)) kn AP p k)
    (hneg : ∀ p k, neg (ix2 p k) = negS (normRows kp (Ideal.ofBits .f32 0x2B8CBCCC#32)) kn p k)
    (ids2 : SNx1.Idx → BitVec 32) (hids2 : ∀ n, ids2 (ix2 n (0 : Fin 1)) = IDS (ix1 n))
    (loss : SNx1.Idx → EReal) (hloss : ∀ n, loss (ix2 n (0 : Fin 1)) = lossS q ids2 pos neg n)
    (res : EReal) (hres : res = Ideal.div (0 + ∑ n : Fin 100000, loss (ix2 n (0 : Fin 1))) (Ideal.ofBits .f32 0x47C35000#32)) :
    res = val_main_v57 (F := Ideal) X IDS PW AP Wt B ix0 := by
  have ewh : wh = val_main_v12 (F := Ideal) X PW Wt B := funext fun i => by
    obtain ⟨n, k, rfl⟩ : ∃ n k, i = ix2 n k := ⟨i 0, i 1, eq_ix2 i⟩
    rw [hwh, stageA_wh X PW Wt B b2 pw2 hb2 hpw2]
  have eq : q = val_main_v9 (F := Ideal) X Wt B := funext fun i => by
    obtain ⟨n, k, rfl⟩ : ∃ n k, i = ix2 n k := ⟨i 0, i 1, eq_ix2 i⟩
    rw [hq, stageA_q X Wt B b2 hb2]
  have eu : u = val_main_v27 (F := Ideal) X PW Wt B := funext fun i => by
    obtain ⟨n, k, rfl⟩ : ∃ n k, i = ix2 n k := ⟨i 0, i 1, eq_ix2 i⟩
    rw [hu, eq, ref_wq]
  have ez : z = fun _ => (0 : EReal) := funext hz
  have ez' : z' = fun _ => (0 : EReal) := funext hz'
  have eio : io = fun i => IDS (ix1 (i 0)) := funext hio
  have eio' : io' = fun i => IDS (ix1 (i 0)) := funext hio'
  have ekp : kp = val_main_v15 (F := Ideal) X IDS PW Wt B := by rw [hkp, ez, eio, ewh, ref_kp_def]
  have ekn : kn = val_main_v30 (F := Ideal) X IDS PW Wt B := by rw [hkn, ez', eio', eu, ref_kn_def]
  have hk := v15_real X IDS PW Wt B hX hPW hWt hB
  have epos : pos = val_main_v32 (F := Ideal) X IDS PW AP Wt B := funext fun i => by
    obtain ⟨p, k, rfl⟩ : ∃ p k, i = ix2 p k := ⟨i 0, i 1, eq_ix2 i⟩
    rw [hpos, ekp, ekn, ← ref_norm, stageC_pos X IDS PW AP Wt B hk]
  have eneg : neg = val_main_v33 (F := Ideal) X IDS PW Wt B := funext fun i => by
    obtain ⟨p, k, rfl⟩ : ∃ p k, i = ix2 p k := ⟨i 0, i 1, eq_ix2 i⟩
    rw [hneg, ekp, ekn, ← ref_norm, stageC_neg X IDS PW Wt B hk]
  have el : (fun n : Fin 100000 => loss (ix2 n (0 : Fin 1))) = fun n => val_main_v55 (F := Ideal) X IDS PW AP Wt B (ix1 n) :=
    funext fun n => by
      rw [hloss, eq, epos, eneg, stageD_loss X IDS PW AP Wt B ids2 hids2 n (hIDS (ix1 n))]
  rw [hres, ref_mean, el]

end Core

/-! ## The kernel program's boundary contents satisfy the chain -/

section Program

open Cert.KernelIdeal Cert.KernelIdeal.Gen Cert.KernelIdeal.Hand

variable (m : (ℓ : Loc nD τ sig) → Buf (Elt Ideal) ℓ) (ρ : Dev nD → PrngReg) (c : Dev nD)

/-- The table of zeros reads zero. -/
theorem zeros_apply (i : S4096x512.Idx) : zerosPxD i = 0 :=
  (broadcastInDim_scalar_apply _ _ i).trans Ideal.ofBits_zero_f32

/-- A column broadcast along the rows reads, at `(n, k)`, the column at `(n, 0)`. -/
theorem rows_bcast_apply {α : Type} (y : S100000x1.Idx → α) (n : Fin 100000) (k : Fin 512) :
    broadcastInDim S100000x512 ![0, 1] bcast_S100000x1_S100000x512_0_1 y (ix2 n k) = y (ix2 n (0 : Fin 1)) :=
  broadcastInDim_apply _ bcast_S100000x1_S100000x512_0_1 y (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])

/-- THE RESULT: the program's result buffer holds the reference's value of the six argument arrays, under the
    precondition on them. -/
theorem result_eq
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    W9 m ρ c (Proc.devRef .tc main_v31)
      = Cert.ReferenceIdeal.Read.val_main_v57 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  obtain ⟨hX, hPW, hAP, hWt, hB, hIDS⟩ := Cert.PreFacts.decode _ _ _ _ _ _ hpre
  have hids3 : W3 m ρ c (Proc.devRef .tc main_v0) = (m ((c.tc : Thread nD τ).loc main_arg1)) := hv_ids m ρ c hIDS
  obtain ⟨k0, k2, k3, k30, k31⟩ := hv_keep4 m ρ c
  obtain ⟨a0, a4⟩ := hv_args3 m ρ c
  have hwh : ∀ (n : Fin 100000) (k : Fin 512), (W4 m ρ c (Proc.devRef .tc main_v3_0) : SNxD.Idx → EReal) (ix2 n k)
      = whS (m ((c.tc : Thread nD τ).loc main_arg0)) (m ((c.tc : Thread nD τ).loc main_arg4)) (V3 m ρ c main_v1) (V3 m ρ c main_v2) n k := by
    intro n k; have e := enc_wh (V3 m ρ) c n k; rw [a0, a4] at e; rw [k30]; exact e
  have hq : ∀ (n : Fin 100000) (k : Fin 512), (W4 m ρ c (Proc.devRef .tc main_v3_1) : SNxD.Idx → EReal) (ix2 n k)
      = qS (m ((c.tc : Thread nD τ).loc main_arg0)) (m ((c.tc : Thread nD τ).loc main_arg4)) (V3 m ρ c main_v1) n k := by
    intro n k; have e := enc_q (V3 m ρ) c n k; rw [a0, a4] at e; rw [k31]; exact e
  have hpos : ∀ (p : Fin 4096) (k : Fin 512), (W6 m ρ c (Proc.devRef .tc main_v25_0) : SPxD.Idx → EReal) (ix2 p k)
      = posS (normRows (W5 m ρ c (Proc.devRef .tc main_v6)) (Ideal.ofBits .f32 0x2B8CBCCC#32)) (W5 m ρ c (Proc.devRef .tc main_v13)) (m ((c.tc : Thread nD τ).loc main_arg3)) p k := by
    intro p k
    rw [(hv_out6 m ρ c).1, msg_pos (V5 m ρ) c p k, (hv_kpn m ρ c).2, hv_kn16 m ρ c, hv_ap16 m ρ c]
  have hneg : ∀ (p : Fin 4096) (k : Fin 512), (W6 m ρ c (Proc.devRef .tc main_v25_1) : SPxD.Idx → EReal) (ix2 p k)
      = negS (normRows (W5 m ρ c (Proc.devRef .tc main_v6)) (Ideal.ofBits .f32 0x2B8CBCCC#32)) (W5 m ρ c (Proc.devRef .tc main_v13)) p k := by
    intro p k
    rw [(hv_out6 m ρ c).2, msg_neg (V5 m ρ) c p k, (hv_kpn m ρ c).2, hv_kn16 m ρ c]
  have hids2 : ∀ n : Fin 100000, (V7 m ρ c main_v28 : SNx1.Idx → BitVec 32) (ix2 n (0 : Fin 1))
      = ((m ((c.tc : Thread nD τ).loc main_arg1)) : (⟨1, ![100000]⟩ : Shape).Idx → BitVec 32) (ix1 n) := by
    intro n
    exact (hv_ids7 m ρ c n).trans (congrFun hids3 (ix1 n))
  have hloss : ∀ n : Fin 100000, (W8 m ρ c (Proc.devRef .tc main_v29) : SNx1.Idx → EReal) (ix2 n (0 : Fin 1))
      = lossS (W4 m ρ c (Proc.devRef .tc main_v3_1)) (V7 m ρ c main_v28) (W6 m ρ c (Proc.devRef .tc main_v25_0)) (W6 m ρ c (Proc.devRef .tc main_v25_1)) n := by
    intro n
    rw [hv_loss m ρ c, score_loss (V7 m ρ) c n, hv_q7 m ρ c, hv_pos16 m ρ c, hv_neg16 m ρ c]
  funext i
  obtain rfl : i = ix0 := eq_ix0 i
  have c1 := core (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) hX hPW hWt hB hIDS
  have c2 := c1 (V3 m ρ c main_v1) (V3 m ρ c main_v2) (hv_b2 m ρ c) (hv_pw2 m ρ c)
  have c3 := c2 (W4 m ρ c (Proc.devRef .tc main_v3_0)) (W4 m ρ c (Proc.devRef .tc main_v3_1)) hwh hq
  have c4 := c3 zerosPxD zerosPxD zeros_apply zeros_apply
  refine c4 _ _ ?_ ?_ _ ?_ (W5 m ρ c (Proc.devRef .tc main_v6)) (W5 m ρ c (Proc.devRef .tc main_v13)) (hv_kp m ρ c) (hv_kn m ρ c)
    (W6 m ρ c (Proc.devRef .tc main_v25_0)) (W6 m ρ c (Proc.devRef .tc main_v25_1)) hpos hneg (V7 m ρ c main_v28) hids2
    (W8 m ρ c (Proc.devRef .tc main_v29)) hloss _ (hv_mean m ρ c)
  · intro i
    obtain ⟨n, u, rfl⟩ : ∃ (n : Fin 100000) (u : Fin 1), i = ix2 n u := ⟨i 0, i 1, eq_ix2 (n0 := 100000) (n1 := 1) i⟩
    rw [bcast_a_a1_apply, k0, hids3]
  · intro i
    obtain ⟨n, u, rfl⟩ : ∃ (n : Fin 100000) (u : Fin 1), i = ix2 n u := ⟨i 0, i 1, eq_ix2 (n0 := 100000) (n1 := 1) i⟩
    rw [bcast_a_a1_apply, k0, hids3]
  · intro n k
    rw [mulf_apply, rows_bcast_apply, col_bcast, k2]
    rfl

end Program

/-! ## The two runs end with the same result -/

section Claim

open Cert.KernelIdeal Cert.KernelIdeal.Gen Cert.KernelIdeal.Hand

/-- From memories that agree on the six arguments, under the precondition, every run of the idealized kernel program
    and every run of the reference end with the same result buffer, the arguments as launched. -/
theorem algebraic : Cert.algebraic_KernelIdeal_ReferenceIdeal := by
  intro m ρ m' ρ' hpre hagree
  refine ⟨fun c => W9 m ρ c (Proc.devRef .tc main_v31), ?_, ?_⟩
  · exact (θ_run _ _ _).mono (fun r h c =>
      ⟨h c _ (mem_uc main_v31 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩) (run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.ref_result, (hagree c).1, (hagree c).2.1, (hagree c).2.2.1, (hagree c).2.2.2.1,
      (hagree c).2.2.2.2.1, (hagree c).2.2.2.2.2]
    exact (result_eq m ρ c (hpre c)).symm

end Claim

end Cert.Bridge

end
-- ==== Proof.lean ====
/- The proof of `Cert.Claim` (Defs.lean): the word-level program and its idealization each run to the end, fault
   nowhere and leave their six argument arrays unchanged; so does the reference; the idealization rewrote no
   operation; and at the ideal instance (a float an extended real, every operation exact, a change of format the
   identity) the program and the reference, from memories agreeing on the arguments, end with equal results.

   THE PROGRAM is three tiled computations between stretches of whole-array operations. Write par n for node n's
   parent index, p n for its weight, σ for the logistic function.
   (1) Over 100 row blocks of 1000 nodes: h = x·W + b, and from it the weighted rows p n · h n and the rows σ(h n).
       Whole-array, after (1): the parent sums  k i = Σ_{n : par n = i} p n · h n  and  u i = Σ_{n : par n = i} p n · σ(h n)
       (a scatter-add over the parent index), and the unit rows  e i = k i / max(‖k i‖, ε), ε the f32 value nearest 10⁻¹².
   (2) Over an 8 × 8 grid of 512 × 512 blocks (I, J) of the 4096 × 4096 parent pairs, accumulating over J from zero:
       pos i = Σ_j exp(min(2⟨e i, e j⟩, 30)) · A i j · u j   and   neg i = Σ_j exp(min(2⟨e i, e j⟩, 30)) · u j.
   (3) Over 500 row blocks of 200 nodes: for node n the products ⟨σ(h n), pos i⟩ and ⟨σ(h n), neg i⟩ against EVERY
       parent i, of which the mask  i = par n  keeps one, summed over i; then  −log(·) + log(·)  of the two.
   Whole-array, after (3): the mean of the 100000 values.
   THE REFERENCE computes the same quantities on whole arrays: no guard under the exponential, and in place of the
   masked sum the row  par n  of pos and of neg, gathered.

   The claim is proved for finite float inputs and parent indices in [0, 4096). Three facts join the two sides:
   - the guard min(·, 30) is idle: a row divided by the larger of its norm and a positive floor has norm at most 1,
     so |⟨e i, e j⟩| ≤ 1 (Cauchy–Schwarz) and 2⟨e i, e j⟩ ≤ 2 < 30;
   - the masked sum over the parent axis, Σ_i [i = par n] · s i, is  s (par n), the entry of the row the reference
     gathers: par n < 4096 names exactly one column, and on indices in range the program's clip to [0, 4095] and the
     reference's wrap of a negative index are both the identity;
   - a sum over the 8 column blocks J of the sums over the 512 columns within each is the whole sum over the 4096
     columns: the accumulator is zero at J = 0 and is written out at J = 7.
   The frames are the run of the nine segments of each program (Proof/K/Run.lean, Proof/KI/Run.lean: every unscoped
   buffer's contents at each boundary, the arguments read back to the launch memory) and, for the reference, its
   whole-array run with the result dropped. -/
import proofs.«406706_j73478300500058_3_alg».proof.Defs
import proofs.«406706_j73478300500058_3_alg».proof.Proof.Gen.Kernel
import proofs.«406706_j73478300500058_3_alg».proof.Proof.Gen.Kernel.Skeleton
import proofs.«406706_j73478300500058_3_alg».proof.Proof.Gen.Kernel.Launch
import proofs.«406706_j73478300500058_3_alg».proof.Proof.Gen.Kernel.Regions
import proofs.«406706_j73478300500058_3_alg».proof.Proof.Gen.Kernel.Points
import proofs.«406706_j73478300500058_3_alg».proof.Proof.Gen.KernelIdeal
import proofs.«406706_j73478300500058_3_alg».proof.Proof.Gen.KernelIdeal.Skeleton
import proofs.«406706_j73478300500058_3_alg».proof.Proof.Gen.KernelIdeal.Launch
import proofs.«406706_j73478300500058_3_alg».proof.Proof.Gen.KernelIdeal.Regions
import proofs.«406706_j73478300500058_3_alg».proof.Proof.Gen.KernelIdeal.Points
import proofs.«406706_j73478300500058_3_alg».proof.Proof.Gen.ReferenceIdeal
import proofs.«406706_j73478300500058_3_alg».proof.Proof.Gen.Pre_finite_inputs
import proofs.«406706_j73478300500058_3_alg».proof.Proof.K.Run
import proofs.«406706_j73478300500058_3_alg».proof.Proof.KI.Run
import proofs.«406706_j73478300500058_3_alg».proof.Proof.Gen.ReferenceIdeal.Run
import proofs.«406706_j73478300500058_3_alg».proof.Proof.Bridge
import Idealize.ShloMosaic.Adequacy
import Idealize.ShloMosaic.Init

noncomputable section

namespace Cert.Proof

open Idealize.ShloMosaic Idealize.SL.Sem

/-- The word-level program runs to the end and leaves its arguments unchanged: the run of its nine segments. -/
theorem frame_k : Cert.frame_Kernel := fun m ρ _ => Cert.Kernel.Hand.frame m ρ
/-- So does its idealization, the same text read at the ideal instance. -/
theorem frame_ki : Cert.frame_KernelIdeal := fun m ρ _ => Cert.KernelIdeal.Hand.frame m ρ
/-- So does the reference: its whole-array run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
